-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩

class Facts : Prop where
  bcast_S_S1x4096x128 : S_.BroadcastsInDim S1x4096x128 (![] : Fin 0 → Fin S1x4096x128.rank)
  reducesTo_S1x4096x128_S_d0_1_2 : S1x4096x128.ReducesTo [0, 1, 2] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  reducesTo_S_S_d : S_.ReducesTo [] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_v32 : IVec S_ 1) (main_v33 : FVec F S128x40 .f32) : IVec S_ 1 :=
  let main_cst_12 : FVec F S_ .f32 := constant S_ .f32 0x7F800000#32
  let main_v34 : FVec F S128x40 .f32 := broadcastInDim S128x40 ![] bcast_S_S128x40 main_cst_12
  let main_v35 : IVec S128x40 1 := cmpf .olt main_v33 main_v34
  let main_c_13 : IVec S_ 1 := constantI S_ 1 1#1
  let main_v36 : IVec S_ 1 := (fun x v => Host.reduce IntOp.andi x v reducesTo_S128x40_S_d0_1 h_S_) main_v35 main_c_13
  let main_v37 : IVec S_ 1 := andi main_v32 main_v36
  let main_v38 : FVec F S128x40 .f32 := Host.absf main_arg8
  let main_cst_14 : FVec F S_ .f32 := constant S_ .f32 0x7F800000#32
  let main_v39 : FVec F S128x40 .f32 := broadcastInDim S128x40 ![] bcast_S_S128x40 main_cst_14
  let main_v40 : IVec S128x40 1 := cmpf .olt main_v38 main_v39
  let main_c_15 : IVec S_ 1 := constantI S_ 1 1#1
  let main_v41 : IVec S_ 1 := (fun x v => Host.reduce IntOp.andi x v reducesTo_S128x40_S_d0_1 h_S_) main_v40 main_c_15
  let main_v42 : IVec S_ 1 := andi main_v37 main_v41
  let main_v43 : FVec F S40 .f32 := Host.absf main_arg9
  let main_cst_16 : FVec F S_ .f32 := constant S_ .f32 0x7F800000#32
  let main_v44 : FVec F S40 .f32 := broadcastInDim S40 ![] bcast_S_S40 main_cst_16
  let main_v45 : IVec S40 1 := cmpf .olt main_v43 main_v44
  let main_c_17 : IVec S_ 1 := constantI S_ 1 1#1
  let main_v46 : IVec S_ 1 := (fun x v => Host.reduce IntOp.andi x v reducesTo_S40_S_d0 h_S_) main_v45 main_c_17
  let main_v47 : IVec S_ 1 := andi main_v42 main_v46
  main_v47

def fn_part1 {F : FTy → Type} [FloatOps F] (main_arg4 : FVec F S128x128 .f32) (main_arg5 : FVec F S128x128 .f32) (main_arg6 : FVec F S128x128 .f32) (main_arg7 : FVec F S128x40 .f32) (main_arg8 : FVec F S128x40 .f32) (main_arg9 : FVec F S40 .f32) (main_v12 : IVec S_ 1) (main_v15 : IVec S128x128 1) (main_c_5 : IVec S_ 1) : IVec S_ 1 :=
  let main_v16 : IVec S_ 1 := (fun x v => Host.reduce IntOp.andi x v reducesTo_S128x128_S_d0_1 h_S_) main_v15 main_c_5
  let main_v17 : IVec S_ 1 := andi main_v12 main_v16
  let main_v18 : FVec F S128x128 .f32 := Host.absf main_arg4
  let main_cst_6 : FVec F S_ .f32 := constant S_ .f32 0x7F800000#32
  let main_v19 : FVec F S128x128 .f32 := broadcastInDim S128x128 ![] bcast_S_S128x128 main_cst_6
  let main_v20 : IVec S128x128 1 := cmpf .olt main_v18 main_v19
  let main_c_7 : IVec S_ 1 := constantI S_ 1 1#1
  let main_v21 : IVec S_ 1 := (fun x v => Host.reduce IntOp.andi x v reducesTo_S128x128_S_d0_1 h_S_) main_v20 main_c_7
  let main_v22 : IVec S_ 1 := andi main_v17 main_v21
  let main_v23 : FVec F S128x128 .f32 := Host.absf main_arg5
  let main_cst_8 : FVec F S_ .f32 := constant S_ .f32 0x7F800000#32
  let main_v24 : FVec F S128x128 .f32 := broadcastInDim S128x128 ![] bcast_S_S128x128 main_cst_8
  let main_v25 : IVec S128x128 1 := cmpf .olt main_v23 main_v24
  let main_c_9 : IVec S_ 1 := constantI S_ 1 1#1
  let main_v26 : IVec S_ 1 := (fun x v => Host.reduce IntOp.andi x v reducesTo_S128x128_S_d0_1 h_S_) main_v25 main_c_9
  let main_v27 : IVec S_ 1 := andi main_v22 main_v26
  let main_v28 : FVec F S128x128 .f32 := Host.absf main_arg6
  let main_cst_10 : FVec F S_ .f32 := constant S_ .f32 0x7F800000#32
  let main_v29 : FVec F S128x128 .f32 := broadcastInDim S128x128 ![] bcast_S_S128x128 main_cst_10
  let main_v30 : IVec S128x128 1 := cmpf .olt main_v28 main_v29
  let main_c_11 : IVec S_ 1 := constantI S_ 1 1#1
  let main_v31 : IVec S_ 1 := (fun x v => Host.reduce IntOp.andi x v reducesTo_S128x128_S_d0_1 h_S_) main_v30 main_c_11
  let main_v32 : IVec S_ 1 := andi main_v27 main_v31
  let main_v33 : FVec F S128x40 .f32 := Host.absf main_arg7
  fn_part2 (F := F) main_arg8 main_arg9 main_v32 main_v33

def fn {F : FTy → Type} [FloatOps F] (main_arg0 : FVec F S1x4096x128 .f32) (main_arg1 : FVec F S1x4096x4096 .f32) (main_arg2 : FVec F S_ .f32) (main_arg3 : FVec F S128x128 .f32) (main_arg4 : FVec F S128x128 .f32) (main_arg5 : FVec F S128x128 .f32) (main_arg6 : FVec F S128x128 .f32) (main_arg7 : FVec F S128x40 .f32) (main_arg8 : FVec F S128x40 .f32) (main_arg9 : FVec F S40 .f32) : IVec S_ 1 :=
  let main_v0 : FVec F S1x4096x128 .f32 := Host.absf main_arg0
  let main_cst : FVec F S_ .f32 := constant S_ .f32 0x7F800000#32
  let main_v1 : FVec F S1x4096x128 .f32 := broadcastInDim S1x4096x128 ![] bcast_S_S1x4096x128 main_cst
  let main_v2 : IVec S1x4096x128 1 := cmpf .olt main_v0 main_v1
  let main_c : IVec S_ 1 := constantI S_ 1 1#1
  let main_v3 : IVec S_ 1 := (fun x v => Host.reduce IntOp.andi x v reducesTo_S1x4096x128_S_d0_1_2 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S128x128 .f32 := Host.absf main_arg3
  let main_cst_4 : FVec F S_ .f32 := constant S_ .f32 0x7F800000#32
  let main_v14 : FVec F S128x128 .f32 := broadcastInDim S128x128 ![] bcast_S_S128x128 main_cst_4
  let main_v15 : IVec S128x128 1 := cmpf .olt main_v13 main_v14
  let main_c_5 : IVec S_ 1 := constantI S_ 1 1#1
  fn_part1 (F := F) main_arg4 main_arg5 main_arg6 main_arg7 main_arg8 main_arg9 main_v12 main_v15 main_c_5
-- ==== Kernel.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩
abbrev S4096x128 : Shape := ⟨2, ![4096, 128]⟩
abbrev S4096x4096 : Shape := ⟨2, ![4096, 4096]⟩
abbrev S1x1 : Shape := ⟨2, ![1, 1]⟩
abbrev S128x256 : Shape := ⟨2, ![128, 256]⟩
abbrev S256x256 : Shape := ⟨2, ![256, 256]⟩
abbrev S1 : Shape := ⟨1, ![1]⟩
abbrev S1x128 : Shape := ⟨2, ![1, 128]⟩
abbrev S2 : Shape := ⟨1, ![2]⟩
abbrev S4096x1 : Shape := ⟨2, ![4096, 1]⟩
abbrev S4096x256 : Shape := ⟨2, ![4096, 256]⟩
abbrev S4096x40 : Shape := ⟨2, ![4096, 40]⟩
abbrev S1x4096x40 : Shape := ⟨3, ![1, 4096, 40]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩

abbrev nBuf : Space → Nat
  | .hbm => 49
  | .vmem => 44
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S4096x128, .f32⟩
  | .hbm, ⟨11, _⟩ => ⟨S4096x4096, .f32⟩
  | .hbm, ⟨12, _⟩ => ⟨S1x1, .f32⟩
  | .hbm, ⟨13, _⟩ => ⟨S128x256, .f32⟩
  | .hbm, ⟨14, _⟩ => ⟨S_, .f32⟩
  | .hbm, ⟨15, _⟩ => ⟨S128x128, .f32⟩
  | .hbm, ⟨16, _⟩ => ⟨S128x256, .f32⟩
  | .hbm, ⟨17, _⟩ => ⟨S128x256, .f32⟩
  | .hbm, ⟨18, _⟩ => ⟨S256x256, .f32⟩
  | .hbm, ⟨19, _⟩ => ⟨S_, .f32⟩
  | .hbm, ⟨20, _⟩ => ⟨S128x128, .f32⟩
  | .hbm, ⟨21, _⟩ => ⟨S_, .i32⟩
  | .hbm, ⟨22, _⟩ => ⟨S1, .i32⟩
  | .hbm, ⟨23, _⟩ => ⟨S128x128, .f32⟩
  | .hbm, ⟨24, _⟩ => ⟨S_, .f32⟩
  | .hbm, ⟨25, _⟩ => ⟨S128x128, .f32⟩
  | .hbm, ⟨26, _⟩ => ⟨S_, .i32⟩
  | .hbm, ⟨27, _⟩ => ⟨S1, .i32⟩
  | .hbm, ⟨28, _⟩ => ⟨S128x128, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S4096x40, .f32⟩
  | .hbm, ⟨46, _⟩ => ⟨S1x4096x40, .f32⟩
  | .hbm, ⟨47, _⟩ => ⟨S4096x40, .f32⟩
  | .hbm, ⟨48, _⟩ => ⟨S1x4096x40, .f32⟩
  | .local _ .vmem, ⟨0, _⟩ => ⟨S256x4096, .f32⟩
  | .local _ .vmem, ⟨1, _⟩ => ⟨S256x4096, .f32⟩
  | .local _ .vmem, ⟨2, _⟩ => ⟨S256x128, .f32⟩
  | .local _ .vmem, ⟨3, _⟩ => ⟨S256x128, .f32⟩
  | .local _ .vmem, ⟨4, _⟩ => ⟨S128x256, .f32⟩
  | .local _ .vmem, ⟨5, _⟩ => ⟨S1x1, .f32⟩
  | .local _ .vmem, ⟨6, _⟩ => ⟨S256x1, .f32⟩
  | .local _ .vmem, ⟨7, _⟩ => ⟨S256x1, .f32⟩
  | .local _ .vmem, ⟨8, _⟩ => ⟨S256x256, .f32⟩
  | .local _ .vmem, ⟨9, _⟩ => ⟨S256x256, .f32⟩
  | .local _ .vmem, ⟨10, _⟩ => ⟨S256x4096, .f32⟩
  | .local _ .vmem, ⟨11, _⟩ => ⟨S256x4096, .f32⟩
  | .local _ .vmem, ⟨12, _⟩ => ⟨S4096x256, .f32⟩
  | .local _ .vmem, ⟨13, _⟩ => ⟨S256x1, .f32⟩
  | .local _ .vmem, ⟨14, _⟩ => ⟨S256x1, .f32⟩
  | .local _ .vmem, ⟨15, _⟩ => ⟨S1x1, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x4096, .f32⟩
  | .local _ .vmem, ⟨20, _⟩ => ⟨S256x4096, .f32⟩
  | .local _ .vmem, ⟨21, _⟩ => ⟨S4096x256, .f32⟩
  | .local _ .vmem, ⟨22, _⟩ => ⟨S256x1, .f32⟩
  | .local _ .vmem, ⟨23, _⟩ => ⟨S256x1, .f32⟩
  | .local _ .vmem, ⟨24, _⟩ => ⟨S1x1, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x4096, .f32⟩
  | .local _ .vmem, ⟨37, _⟩ => ⟨S256x4096, .f32⟩
  | .local _ .vmem, ⟨38, _⟩ => ⟨S4096x128, .f32⟩
  | .local _ .vmem, ⟨39, _⟩ => ⟨S256x1, .f32⟩
  | .local _ .vmem, ⟨40, _⟩ => ⟨S256x1, .f32⟩
  | .local _ .vmem, ⟨41, _⟩ => ⟨S1x1, .f32⟩
  | .local _ .vmem, ⟨42, _⟩ => ⟨S256x128, .f32⟩
  | .local _ .vmem, ⟨43, _⟩ => ⟨S256x128, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_cst : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_0 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_c_2 : Ref sig .tc := ⟨.hbm, 26, rfl⟩
abbrev main_call0_v12 : Ref sig .tc := ⟨.hbm, 27, rfl⟩
abbrev main_call0_v13 : Ref sig .tc := ⟨.hbm, 28, rfl⟩
abbrev main_call0_cst_3 : Ref sig .tc := ⟨.hbm, 29, rfl⟩
abbrev main_call0_v14 : Ref sig .tc := ⟨.hbm, 30, rfl⟩
abbrev main_call0_c_4 : Ref sig .tc := ⟨.hbm, 31, rfl⟩
abbrev main_call0_v15 : Ref sig .tc := ⟨.hbm, 32, rfl⟩
abbrev main_call0_c_5 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19_0 : Ref sig .tc := ⟨.hbm, 37, rfl⟩
abbrev main_call0_v19_1 : Ref sig .tc := ⟨.hbm, 38, rfl⟩
abbrev main_call0_v20 : Ref sig .tc := ⟨.hbm, 39, rfl⟩
abbrev main_v0_2 : Ref sig .tc := ⟨.hbm, 40, rfl⟩
abbrev main_v0_3 : Ref sig .tc := ⟨.hbm, 41, rfl⟩
abbrev main_call0_v21_2 : Ref sig .tc := ⟨.hbm, 42, rfl⟩
abbrev main_call0_v21_3 : Ref sig .tc := ⟨.hbm, 43, rfl⟩
abbrev main_call0_v22 : Ref sig .tc := ⟨.hbm, 44, rfl⟩
abbrev main_call0_v23 : Ref sig .tc := ⟨.hbm, 45, rfl⟩
abbrev main_v0_0 : Ref sig .tc := ⟨.hbm, 46, rfl⟩
abbrev main_call0_v25 : Ref sig .tc := ⟨.hbm, 47, rfl⟩
abbrev main_v0_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc2_stg10_0 : Ref sig .tc := ⟨.vmem, 34, rfl⟩
abbrev cc2_stg10_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg4_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33
abbrev cc2_sem10_0 : DmaSem sig := 34
abbrev cc2_sem10_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem2_1 : DmaSem sig := 40
abbrev cc3_sem3_0 : DmaSem sig := 41
abbrev cc3_sem4_0 : DmaSem sig := 42
abbrev cc3_sem4_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def k1_off1 (i : grid1.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

def k2_off1 (i : grid2.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S256x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![16], ![false]⟩

def k3_off1 (i : grid3.Coords) : Fin 2 → Nat :=
  let arg0 : BitVec 32 := BitVec.ofNat 32 (i 0).val
  let c256_i32 : BitVec 32 := 256#32
  let v7 : BitVec 32 := Scalar.muli arg0 c256_i32
  let v8 : Index := Scalar.indexCast v7
  let c0_5 : Index := 0#32
  ![v8.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S1x4096x128_S4096x128 : S1x4096x128.ShapeCasts S4096x128
  shapeCasts_S1x4096x4096_S4096x4096 : S1x4096x4096.ShapeCasts S4096x4096
  shapeCasts_S_S1x1 : S_.ShapeCasts S1x1
  concatenates_S128x128_S128x128_S128x256_d1 : Shape.Concatenates [S128x128, S128x128] S128x256 1
  bcast_S_S128x128 : S_.BroadcastsInDim S128x128 (![] : Fin 0 → Fin S128x128.rank)
  concatenates_S128x256_S128x256_S256x256_d0 : Shape.Concatenates [S128x256, S128x256] S256x256 0
  bcast_S_S1 : S_.BroadcastsInDim S1 (![] : Fin 0 → Fin S1.rank)
  bcast_S_S1x128 : S_.BroadcastsInDim S1x128 (![] : Fin 0 → Fin S1x128.rank)
  concatenates_S1_S1_S2_d0 : Shape.Concatenates [S1, S1] S2 0
  slices_S4096x128_S4096x40_0_0 : S4096x128.Slices ![0, 0] S4096x40
  bcast_S4096x40_S1x4096x40_1_2 : S4096x40.BroadcastsInDim S1x4096x40 (![1, 2] : Fin 2 → Fin S1x4096x40.rank)
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S256x1_S256x256 : S256x1.Broadcasts S256x256
  inb_S256x256_S256x256_0_0 : ∀ a, (![0, 0] : Fin 2 → Nat) a + S256x256.size a ≤ S256x256.size a
  h_S256x256 : 0 < S256x256.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  shapeCasts_S256x256_S256x256 : S256x256.ShapeCasts S256x256
  shapeCasts_S256x1_S256x1 : S256x1.ShapeCasts S256x1
  slices_S256x256_o0_0_S256x128 : S256x256.Slices ![0, 0] S256x128
  slices_S256x256_o0_128_S256x128 : S256x256.Slices ![0, 128] S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  broadcasts_S256x1_S256x128 : S256x1.Broadcasts S256x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  scatter_S128x128_S1_S128x40_01_n_1_0_wf : ScatterDims.WF S128x128 S1 S128x40 [0, 1] [] [1] 0
  scatter_S1x128_S2_S40_0_0_01_0_wf : ScatterDims.WF S1x128 S2 S40 [0] [0] [0, 1] 0
  dot_S256x128_S128x256_S256x256_1_0_0_1_n_n_wf : DotDims.WF S256x128 S128x256 S256x256 [1] [0] [0] [1] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S256x128_S128x128_S256x128_1_0_0_1_n_n_wf : DotDims.WF S256x128 S128x128 S256x128 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x256.size a
  hwx0_5 : ∀ i : grid0.Coords, EltTy.bits .f32 = 32 ∨ (Rect.block (s := S4096x256) S256x256.size (cc0_transform_5 i) (hinb0_5 i)).WholeWords (EltTy.packing .f32)
  hrank1 : 0 < grid1.rank
  k1_off1_inb : ∀ i : grid1.Coords, ∀ a, (k1_off1 i) a + S256x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S4096x256.size a
  hwx1_5 : ∀ i : grid1.Coords, EltTy.bits .f32 = 32 ∨ (Rect.block (s := S4096x256) S256x256.size (cc1_transform_5 i) (hinb1_5 i)).WholeWords (EltTy.packing .f32)
  hrank2 : 0 < grid2.rank
  k2_off1_inb : ∀ i : grid2.Coords, ∀ a, (k2_off1 i) a + S256x256.size a ≤ S4096x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .f32 = 32 ∨ (Rect.block (s := S4096x4096) S256x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S4096x256.size a
  hwx2_1 : ∀ i : grid2.Coords, EltTy.bits .f32 = 32 ∨ (Rect.block (s := S4096x256) S4096x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S4096x1.size a
  hwx2_2 : ∀ i : grid2.Coords, EltTy.bits .f32 = 32 ∨ (Rect.block (s := S4096x1) S256x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S4096x128.size a
  hwx2_7 : ∀ i : grid2.Coords, EltTy.bits .f32 = 32 ∨ (Rect.block (s := S4096x128) S256x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S4096x128.size a
  hwx2_8 : ∀ i : grid2.Coords, EltTy.bits .f32 = 32 ∨ (Rect.block (s := S4096x128) S256x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S4096x128.size a
  hwx2_9 : ∀ i : grid2.Coords, EltTy.bits .f32 = 32 ∨ (Rect.block (s := S4096x128) S256x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S256x128.size a ≤ S4096x128.size a
  hwx2_10 : ∀ i : grid2.Coords, EltTy.bits .f32 = 32 ∨ (Rect.block (s := S4096x128) S256x128.size (cc2_transform_10 i) (hinb2_10 i)).WholeWords (EltTy.packing .f32)
  hrank3 : 0 < grid3.rank
  k3_off1_inb : ∀ i : grid3.Coords, ∀ a, (k3_off1 i) a + S256x128.size a ≤ S4096x128.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S4096x128.size a
  hwx3_1 : ∀ i : grid3.Coords, EltTy.bits .f32 = 32 ∨ (Rect.block (s := S4096x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S4096x1.size a
  hwx3_2 : ∀ i : grid3.Coords, EltTy.bits .f32 = 32 ∨ (Rect.block (s := S4096x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S4096x128.size a
  hwx3_4 : ∀ i : grid3.Coords, EltTy.bits .f32 = 32 ∨ (Rect.block (s := S4096x128) S256x128.size (cc3_transform_4 i) (hinb3_4 i)).WholeWords (EltTy.packing .f32)

variable [Facts₀]

def scatter_S128x128_S1_S128x40_01_n_1_0 : ScatterDims S128x128 S1 S128x40 where
  updateWindowDims := [0, 1]
  insertedWindowDims := []
  scatterDimsToOperandDims := [1]
  indexVectorDim := 0
  wf := scatter_S128x128_S1_S128x40_01_n_1_0_wf
def scatter_S1x128_S2_S40_0_0_01_0 : ScatterDims S1x128 S2 S40 where
  updateWindowDims := [0]
  insertedWindowDims := [0]
  scatterDimsToOperandDims := [0, 1]
  indexVectorDim := 0
  wf := scatter_S1x128_S2_S40_0_0_01_0_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_call0_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v19_1) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v19_1) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v19_0) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v20) S256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v20) S4096x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v19_0) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v13) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v18) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v0_2) S256x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v0_3) S256x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_call0_v21_2) S256x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_call0_v21_3) S256x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_call0_v1) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v21_3) S4096x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v19_0) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v2) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_call0_v22) S256x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S1x4096x128 : Shape := ⟨3, ![1, 4096, 128]⟩
abbrev S1x4096x4096 : Shape := ⟨3, ![1, 4096, 4096]⟩
abbrev S_ : Shape := ⟨0, ![]⟩
abbrev S128x128 : Shape := ⟨2, ![128, 128]⟩
abbrev S128x40 : Shape := ⟨2, ![128, 40]⟩
abbrev S40 : Shape := ⟨1, ![40]⟩
abbrev S4096x4096 : Shape := ⟨2, ![4096, 4096]⟩
abbrev S1x4096 : Shape := ⟨2, ![1, 4096]⟩
abbrev S1x4096x1 : Shape := ⟨3, ![1, 4096, 1]⟩
abbrev S1x1x4096 : Shape := ⟨3, ![1, 1, 4096]⟩
abbrev S4096x128 : Shape := ⟨2, ![4096, 128]⟩
abbrev S4096x40 : Shape := ⟨2, ![4096, 40]⟩
abbrev S1x4096x40 : Shape := ⟨3, ![1, 4096, 40]⟩
abbrev S1x40 : Shape := ⟨2, ![1, 40]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x128, .f32⟩
  | .hbm, ⟨1, _⟩ => ⟨S1x4096x4096, .f32⟩
  | .hbm, ⟨2, _⟩ => ⟨S_, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x40, .f32⟩
  | .hbm, ⟨8, _⟩ => ⟨S128x40, .f32⟩
  | .hbm, ⟨9, _⟩ => ⟨S40, .f32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .f32⟩
  | .hbm, ⟨17, _⟩ => ⟨S1x4096x4096, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S_, .f32⟩
  | .hbm, ⟨22, _⟩ => ⟨S1x4096, .f32⟩
  | .hbm, ⟨23, _⟩ => ⟨S_, .f32⟩
  | .hbm, ⟨24, _⟩ => ⟨S1x4096, .f32⟩
  | .hbm, ⟨25, _⟩ => ⟨S1x4096, .i1⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S1x4096x1, .f32⟩
  | .hbm, ⟨35, _⟩ => ⟨S1x4096x4096, .f32⟩
  | .hbm, ⟨36, _⟩ => ⟨S1x4096x4096, .f32⟩
  | .hbm, ⟨37, _⟩ => ⟨S1x1x4096, .f32⟩
  | .hbm, ⟨38, _⟩ => ⟨S1x4096x4096, .f32⟩
  | .hbm, ⟨39, _⟩ => ⟨S1x4096x4096, .f32⟩
  | .hbm, ⟨40, _⟩ => ⟨S4096x128, .f32⟩
  | .hbm, ⟨41, _⟩ => ⟨S4096x4096, .f32⟩
  | .hbm, ⟨42, _⟩ => ⟨S4096x128, .f32⟩
  | .hbm, ⟨43, _⟩ => ⟨S4096x128, .f32⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S4096x128, .f32⟩
  | .hbm, ⟨53, _⟩ => ⟨S4096x128, .f32⟩
  | .hbm, ⟨54, _⟩ => ⟨S4096x128, .f32⟩
  | .hbm, ⟨55, _⟩ => ⟨S4096x128, .f32⟩
  | .hbm, ⟨56, _⟩ => ⟨S4096x40, .f32⟩
  | .hbm, ⟨57, _⟩ => ⟨S4096x40, .f32⟩
  | .hbm, ⟨58, _⟩ => ⟨S1x4096x40, .f32⟩
  | .hbm, ⟨59, _⟩ => ⟨S4096x40, .f32⟩
  | .hbm, ⟨60, _⟩ => ⟨S1x40, .f32⟩
  | .hbm, ⟨61, _⟩ => ⟨S4096x40, .f32⟩
  | .hbm, ⟨62, _⟩ => ⟨S4096x40, .f32⟩
  | .hbm, ⟨63, _⟩ => ⟨S1x4096x40, .f32⟩
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call1_cst : Ref sig .tc := ⟨.hbm, 44, rfl⟩
abbrev main_call1_v0 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call2_cst : Ref sig .tc := ⟨.hbm, 51, rfl⟩
abbrev main_call2_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S_S1x4096x4096 : S_.BroadcastsInDim S1x4096x4096 (![] : Fin 0 → Fin S1x4096x4096.rank)
  reducesTo_S1x4096x4096_S1x4096_d2 : S1x4096x4096.ReducesTo [2] S1x4096
  h_S_ : 0 < S_.numel
  bcast_S_S1x4096 : S_.BroadcastsInDim S1x4096 (![] : Fin 0 → Fin S1x4096.rank)
  bcast_S1x4096_S1x4096x1_0_1 : S1x4096.BroadcastsInDim S1x4096x1 (![0, 1] : Fin 2 → Fin S1x4096x1.rank)
  bcast_S1x4096x1_S1x4096x4096_0_1_2 : S1x4096x1.BroadcastsInDim S1x4096x4096 (![0, 1, 2] : Fin 3 → Fin S1x4096x4096.rank)
  bcast_S1x4096_S1x1x4096_0_2 : S1x4096.BroadcastsInDim S1x1x4096 (![0, 2] : Fin 2 → Fin S1x1x4096.rank)
  bcast_S1x1x4096_S1x4096x4096_0_1_2 : S1x1x4096.BroadcastsInDim S1x4096x4096 (![0, 1, 2] : Fin 3 → Fin S1x4096x4096.rank)
  shapeCasts_S1x4096x128_S4096x128 : S1x4096x128.ShapeCasts S4096x128
  shapeCasts_S1x4096x4096_S4096x4096 : S1x4096x4096.ShapeCasts S4096x4096
  bcast_S_S4096x128 : S_.BroadcastsInDim S4096x128 (![] : Fin 0 → Fin S4096x128.rank)
  bcast_S4096x40_S1x4096x40_1_2 : S4096x40.BroadcastsInDim S1x4096x40 (![1, 2] : Fin 2 → Fin S1x4096x40.rank)
  bcast_S40_S1x40_1 : S40.BroadcastsInDim S1x40 (![1] : Fin 1 → Fin S1x40.rank)
  bcast_S1x40_S4096x40_0_1 : S1x40.BroadcastsInDim S4096x40 (![0, 1] : Fin 2 → Fin S4096x40.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S4096x128_S128x40_S4096x40_1_0_0_1_n_n_wf : DotDims.WF S4096x128 S128x40 S4096x40 [1] [0] [0] [1] [] []
  dot_S4096x4096_S4096x40_S4096x40_1_0_0_1_n_n_wf : DotDims.WF S4096x4096 S4096x40 S4096x40 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf
def dot_S4096x4096_S4096x40_S4096x40_1_0_0_1_n_n : DotDims S4096x4096 S4096x40 S4096x40 where
  lhsContracting := [1]
  rhsContracting := [0]
  lhsNonContracting := [0]
  rhsNonContracting := [1]
  lhsBatch := []
  rhsBatch := []
  wf := dot_S4096x4096_S4096x40_S4096x40_1_0_0_1_n_n_wf

class Facts : Prop extends Facts₀ where

variable [Facts]
-- ==== Proof.Spec.lean ====
/-
  The two-branch graph-convolution pipeline, as index-level functions on the extended reals.

  Inputs: node features `x` (4096 × 128), the dense adjacency `adj` (4096 × 4096), the self-loop weight `la`, and the
  weight matrices. Write `adjL = adj + la · I`, `deg p = Σ_j adjL p j`, `s p = deg p ^ (-1/2)` where `deg p > 0` and `0`
  elsewhere, and `A p j = adjL p j · s p · s j` (the symmetric normalisation).

  * The REFERENCE side (`r…`) materialises `A` and computes, for each branch, `A · relu (A · (x · W₁)) · W₂`, then the
    decoder product `A · (hh2 · Wd)` and the node head `e2 · Wmlp + bmlp`.
  * The KERNEL side (`k…`) never forms `A`: a product `A · V` is computed as `s p · ((Σ_j adj p j · (s j · V j q)) + la · (s p · V p q))`,
    with the scaling by `s` folded into the operand ahead of each pass; both branches share a pass by laying their
    feature columns side by side (128 + 128 = 256 columns, the second-layer weights block-diagonal), and the decoder and
    head weights are zero-padded from 40 to 128 columns (only the first 40 columns of those results are kept).
-/
import Idealize.ShloMosaic.PureOps.Ideal

noncomputable section

namespace Cert.Gcn

open Idealize.ShloMosaic

/-- An `a × b` matrix of extended reals, by coordinates. -/
abbrev Mat (a b : ℕ) := Fin a → Fin b → EReal

/-! ## The kernel side -/

/-- The degree of row `p`: the row sum of the raw adjacency, plus the self-loop weight. -/
def kDeg (adj : Mat 4096 4096) (la : EReal) (p : Fin 4096) : EReal := (∑ j, adj p j) + la

/-- The scaling `s p`: the reciprocal square root of the degree where it is positive, else zero. -/
def kD (adj : Mat 4096 4096) (la : EReal) (p : Fin 4096) : EReal :=
  if 0 < kDeg adj la p then Ideal.rsqrt (kDeg adj la p) else 0

/-- A row-scaled projection: `d p · Σ_k x p k · w k q`. -/
def kProj {a n : ℕ} (d : Fin 4096 → EReal) (x : Mat 4096 a) (w : Mat a n) : Mat 4096 n :=
  fun p q => d p * ∑ k, x p k * w k q

/-- One aggregation against the self-looped adjacency, the loop term kept apart: `(Σ_j adj p j · v j q) + la · v p q`. -/
def kAgg {n : ℕ} (adj : Mat 4096 4096) (la : EReal) (v : Mat 4096 n) : Mat 4096 n :=
  fun p q => (∑ j, adj p j * v j q) + la * v p q

/-- An aggregation scaled by `d` on the row: `d p · kAgg adj la v p q`. -/
def kScaledAgg {n : ℕ} (adj : Mat 4096 4096) (la : EReal) (d : Fin 4096 → EReal) (v : Mat 4096 n) : Mat 4096 n :=
  fun p q => d p * kAgg adj la v p q

/-- The first layer's pass: aggregate, scale, rectify, project by `w2`, scale again. -/
def kLayer1 (adj : Mat 4096 4096) (la : EReal) (d : Fin 4096 → EReal) (v : Mat 4096 256) (w2 : Mat 256 256) : Mat 4096 256 :=
  fun p q => d p * ∑ k, max (kScaledAgg adj la d v p k) 0 * w2 k q

/-- The left 128 columns of a 256-column matrix. -/
def leftCols (y : Mat 4096 256) : Mat 4096 128 := fun p q => y p ⟨q.val, by have := q.isLt; omega⟩
/-- The right 128 columns of a 256-column matrix. -/
def rightCols (y : Mat 4096 256) : Mat 4096 128 := fun p q => y p ⟨128 + q.val, by have := q.isLt; omega⟩

/-- A projection plus a row vector of biases: `(Σ_k e p k · w k q) + b q`. -/
def kHead (e : Mat 4096 128) (w : Mat 128 128) (b : Fin 128 → EReal) : Mat 4096 128 :=
  fun p q => (∑ k, e p k * w k q) + b q

/-- Two 128-column blocks laid side by side. -/
def sideBySide (l r : Mat 128 128) : Mat 128 256 :=
  fun k q => if h : q.val < 128 then l k ⟨q.val, h⟩ else r k ⟨q.val - 128, by have := q.isLt; omega⟩

/-- Two 128 × 128 blocks on the diagonal of a 256 × 256 matrix, zeros elsewhere. -/
def blockDiag (a b : Mat 128 128) : Mat 256 256 :=
  fun k q =>
    if hk : k.val < 128 then
      (if hq : q.val < 128 then a ⟨k.val, hk⟩ ⟨q.val, hq⟩ else 0)
    else
      (if hq : q.val < 128 then 0 else b ⟨k.val - 128, by have := k.isLt; omega⟩ ⟨q.val - 128, by have := q.isLt; omega⟩)

/-- A 40-column matrix padded with zero columns to 128. -/
def padCols (w : Mat 128 40) : Mat 128 128 := fun k q => if h : q.val < 40 then w k ⟨q.val, h⟩ else 0
/-- A 40-entry vector padded with zeros to 128. -/
def padVec (b : Fin 40 → EReal) : Fin 128 → EReal := fun q => if h : q.val < 40 then b ⟨q.val, h⟩ else 0
/-- The first 40 columns of a 128-column matrix. -/
def firstCols (y : Mat 4096 128) : Mat 4096 40 := fun p q => y p ⟨q.val, by have := q.isLt; omega⟩

section Kernel
variable (x : Mat 4096 128) (adj : Mat 4096 4096) (la : EReal) (We1 We2 Wh1 Wh2 : Mat 128 128)
  (wdp wmp : Mat 128 128) (bp : Fin 128 → EReal) (Wd Wmlp : Mat 128 40) (bmlp : Fin 40 → EReal)

/-- Pass 0's second result: the encoder inputs of both branches, scaled. -/
def kDxw : Mat 4096 256 := kProj (kD adj la) x (sideBySide We1 Wh1)
/-- Pass 1's result. -/
def kDhw : Mat 4096 256 := kLayer1 adj la (kD adj la) (kDxw x adj la We1 Wh1) (blockDiag We2 Wh2)
/-- Pass 2's aggregate: both branches' second-layer outputs side by side. -/
def kY : Mat 4096 256 := kScaledAgg adj la (kD adj la) (kDhw x adj la We1 We2 Wh1 Wh2)
/-- The first branch's output. -/
def kE2 : Mat 4096 128 := leftCols (kY x adj la We1 We2 Wh1 Wh2)
/-- The second branch's output. -/
def kHh2 : Mat 4096 128 := rightCols (kY x adj la We1 We2 Wh1 Wh2)
/-- The node head over the padded weights. -/
def kLn : Mat 4096 128 := kHead (kE2 x adj la We1 We2 Wh1 Wh2) wmp bp
/-- The decoder's projection over the padded weights, scaled. -/
def kDz : Mat 4096 128 := kProj (kD adj la) (kHh2 x adj la We1 We2 Wh1 Wh2) wdp
/-- Pass 3's result. -/
def kOut : Mat 4096 128 := kScaledAgg adj la (kD adj la) (kDz x adj la We1 We2 Wh1 Wh2 wdp)
/-- The decoder's logits: the kept columns of pass 3's result over the padded decoder weights. -/
def kLogits : Mat 4096 40 := firstCols (kOut x adj la We1 We2 Wh1 Wh2 (padCols Wd))
/-- The node head's logits: the kept columns of the head over the padded head weights and bias. -/
def kLogitsNode : Mat 4096 40 := firstCols (kLn x adj la We1 We2 Wh1 Wh2 (padCols Wmlp) (padVec bmlp))
end Kernel

/-! ## The reference side -/

/-- The adjacency with the self loops added. -/
def rAdjL (adj : Mat 4096 4096) (la : EReal) : Mat 4096 4096 := fun p j => adj p j + la * (if p = j then 1 else 0)

/-- The degree of row `p` of the self-looped adjacency. -/
def rDeg (adj : Mat 4096 4096) (la : EReal) (p : Fin 4096) : EReal := ∑ j, rAdjL adj la p j

/-- `1 / √deg` where the degree is positive, else zero. -/
def rDis (adj : Mat 4096 4096) (la : EReal) (p : Fin 4096) : EReal :=
  if 0 < rDeg adj la p then Ideal.div 1 (Ideal.sqrt (rDeg adj la p)) else 0

/-- The symmetrically normalised adjacency. -/
def rA (adj : Mat 4096 4096) (la : EReal) : Mat 4096 4096 :=
  fun p j => rAdjL adj la p j * rDis adj la p * rDis adj la j

/-- A matrix product by coordinates. -/
def mm {a b c : ℕ} (L : Mat a b) (R : Mat b c) : Mat a c := fun p q => ∑ k, L p k * R k q

/-- The rectifier, entry by entry. -/
def relu {a b : ℕ} (M : Mat a b) : Mat a b := fun p q => max (M p q) 0

section Reference
variable (x : Mat 4096 128) (adj : Mat 4096 4096) (la : EReal) (We1 We2 Wh1 Wh2 : Mat 128 128)
  (Wd Wmlp : Mat 128 40) (bmlp : Fin 40 → EReal)

/-- The first branch's output. -/
def rE2 : Mat 4096 128 := mm (rA adj la) (mm (relu (mm (rA adj la) (mm x We1))) We2)
/-- The second branch's output. -/
def rHh2 : Mat 4096 128 := mm (rA adj la) (mm (relu (mm (rA adj la) (mm x Wh1))) Wh2)
/-- The decoder's logits. -/
def rOut : Mat 4096 40 := mm (rA adj la) (mm (rHh2 x adj la Wh1 Wh2) Wd)
/-- The node head's logits. -/
def rLn : Mat 4096 40 := fun p q => mm (rE2 x adj la We1 We2) Wmlp p q + bmlp q
end Reference

end Cert.Gcn

end
-- ==== Proof.Coords.lean ====
/-
  Arrays read by coordinates: a rank-3 array with a leading unit axis, a rank-2 array, a vector and a scalar, each as
  the matrix, vector or number of the pipeline's index-level text.
-/
import proofs.«117501_g49246095016346_cont_8to1c4_490_2_alg».proof.Proof.Spec
import Idealize.ShloMosaic.Lib.ValueIdx

noncomputable section

namespace Cert.Gcn

open Idealize.ShloMosaic Idealize.ShloMosaic.ValueIdx

/-- A `[1, a, b]` array as an `a × b` matrix. -/
def mat3 {a b : ℕ} (x : (⟨3, ![1, a, b]⟩ : Shape).Idx → EReal) : Mat a b := fun p q => x (ix3 (0 : Fin 1) p q)
/-- An `[a, b]` array as an `a × b` matrix. -/
def mat2 {a b : ℕ} (x : (⟨2, ![a, b]⟩ : Shape).Idx → EReal) : Mat a b := fun p q => x (ix2 p q)
/-- An `[a]` array as a vector. -/
def vec1 {a : ℕ} (x : (⟨1, ![a]⟩ : Shape).Idx → EReal) : Fin a → EReal := fun p => x (ix1 p)
/-- A rank-0 array as a number. -/
def scal (x : (⟨0, ![]⟩ : Shape).Idx → EReal) : EReal := x ix0

end Cert.Gcn

end
-- ==== Proof.LibScatterSet.lean ====
/-
  A host scatter whose body returns the update ("set"), read at an index.

  The scatter folds over the update indices in row-major order; each update index `j` either lands on an operand index
  (`resultIdx? j = some i`) and replaces the element there, or falls outside and is dropped. When the landing indices
  are pairwise distinct, the result at `i` is the update that lands on `i`, if one does, and the operand's element
  otherwise.
-/
import Idealize.ShloMosaic.PureOps.ShapeOps

namespace Cert.ScatterSet

open Idealize.ShloMosaic

variable {α : Type} {s si u : Shape} {w : ℕ}

/-- A left fold whose every step leaves the value at `i` alone leaves it alone. -/
private theorem foldl_apply_of_untouched {ι β γ : Type} (f : (ι → β) → γ → (ι → β)) (i : ι)
    (hf : ∀ r n, f r n i = r i) : ∀ (L : List γ) (r : ι → β), L.foldl f r i = r i := by
  intro L
  induction L with
  | nil => intro r; rfl
  | cons a L ih => intro r; rw [List.foldl_cons, ih, hf]

/-- A left fold in which exactly one step `n₀` touches the value at `i`, always writing `v` there: afterwards the
    value at `i` is `v` if `n₀` was met, and the initial one otherwise. -/
private theorem foldl_apply_of_single {ι β γ : Type} [DecidableEq γ] (f : (ι → β) → γ → (ι → β)) (i : ι) (n₀ : γ) (v : β)
    (hf₀ : ∀ r, f r n₀ i = v) (hf : ∀ r n, n ≠ n₀ → f r n i = r i) :
    ∀ (L : List γ) (r : ι → β), L.foldl f r i = if n₀ ∈ L then v else r i := by
  intro L
  induction L with
  | nil => intro r; simp
  | cons a L ih =>
    intro r
    rw [List.foldl_cons, ih]
    by_cases hL : n₀ ∈ L
    · rw [if_pos hL, if_pos (List.mem_cons_of_mem a hL)]
    · rw [if_neg hL]
      by_cases ha : a = n₀
      · subst ha
        rw [if_pos List.mem_cons_self, hf₀]
      · have hne : n₀ ∉ a :: L := by
          intro hm
          rcases List.mem_cons.1 hm with h | h
          · exact ha h.symm
          · exact hL h
        rw [if_neg hne, hf r a ha]

/-- The element an update lands on holds that update, when no other update lands there. -/
theorem scatter_set_apply_of_hit (d : ScatterDims s si u) (x : s.Idx → α) (idx : IVec si w) (upd : u.Idx → α)
    (i : s.Idx) (j : u.Idx) (hj : d.resultIdx? j idx = some i)
    (huniq : ∀ j', d.resultIdx? j' idx = some i → j' = j) :
    Host.scatter d (fun _ b => b) x idx upd i = upd j := by
  unfold Host.scatter
  rw [foldl_apply_of_single _ i (u.rowMajor j) (upd j), if_pos (List.mem_finRange _)]
  · -- the step at `j`'s own position writes `upd j`
    intro r
    simp only [Equiv.symm_apply_apply, hj, if_true]
  · -- any other position holds another update index, which does not land on `i`
    intro r n hn
    have hne : u.rowMajor.symm n ≠ j := by
      intro h
      exact hn (by rw [← h, Equiv.apply_symm_apply])
    rcases h : d.resultIdx? (u.rowMajor.symm n) idx with _ | i₀
    · rfl
    · have hi : i ≠ i₀ := by
        intro hii
        exact hne (huniq _ (by rw [h, hii]))
      simp only [if_neg hi]

/-- An element no update lands on keeps the operand's value. -/
theorem scatter_set_apply_of_miss (d : ScatterDims s si u) (x : s.Idx → α) (idx : IVec si w) (upd : u.Idx → α)
    (i : s.Idx) (hmiss : ∀ j', d.resultIdx? j' idx ≠ some i) :
    Host.scatter d (fun _ b => b) x idx upd i = x i := by
  unfold Host.scatter
  apply foldl_apply_of_untouched
  intro r n
  rcases h : d.resultIdx? (u.rowMajor.symm n) idx with _ | i₀
  · rfl
  · have hi : i ≠ i₀ := by
      intro hii
      exact hmiss _ (by rw [h, hii])
    simp only [if_neg hi]

end Cert.ScatterSet
-- ==== Proof.ScatterPad.lean ====
import proofs.«117501_g49246095016346_cont_8to1c4_490_2_alg».proof.KernelIdeal
import proofs.«117501_g49246095016346_cont_8to1c4_490_2_alg».proof.Proof.Gen.KernelIdeal
import proofs.«117501_g49246095016346_cont_8to1c4_490_2_alg».proof.Proof.LibScatterSet
import Idealize.ShloMosaic.Lib.ValueIdx

noncomputable section

open Idealize.ShloMosaic Idealize.ShloMosaic.ValueIdx

namespace Cert.KernelIdeal.ScatterPad

open Cert.KernelIdeal Cert.KernelIdeal.Gen

variable {α : Type}

/-- A coordinate below 40 is below 128. -/
private theorem lt_128_of_lt_40 {n : ℕ} (h : n < 40) : n < 128 := Nat.lt_of_lt_of_le h (by decide)

/-- With every scatter index zero, the window starts at zero on every operand axis. -/
private theorem start_zero {s si u : Shape} {w : ℕ} (d : ScatterDims s si u) (j : u.Idx) (idx : IVec si w)
    (hidx : ∀ i, idx i = 0#w) (a : Fin s.rank) : d.start j idx a = 0 := by
  unfold ScatterDims.start
  split
  · rw [hidx]; simp
  · rfl

/-- If start plus window coordinate is, on every axis, the coordinate of the operand index `i`, the update lands on `i`. -/
private theorem resultIdx_of_coords {s si u : Shape} {w : ℕ} (d : ScatterDims s si u) (j : u.Idx) (idx : IVec si w)
    (i : s.Idx) (h : ∀ a, d.start j idx a + (d.window j a : Int) = ((i a).val : Int)) :
    d.resultIdx? j idx = some i := by
  unfold ScatterDims.resultIdx?
  have hb : ∀ a, 0 ≤ d.start j idx a + (d.window j a : Int) ∧ d.start j idx a + (d.window j a : Int) < s.size a := by
    intro a
    rw [h a]
    exact ⟨Int.natCast_nonneg _, by exact_mod_cast (i a).isLt⟩
  rw [dif_pos hb]
  congr 1
  funext a
  apply Fin.ext
  show (d.start j idx a + (d.window j a : Int)).toNat = (i a).val
  rw [h a, Int.toNat_natCast]

/-! ## The `128 × 40` block into the `128 × 128` matrix -/

/-- Update index `(p, q)` lands on the operand's `(p, q)`: the one start index is zero and both axes are window axes. -/
private theorem resultIdx_cols (idx : IVec S1 32) (hidx : ∀ i, idx i = 0#32) (j : S128x40.Idx) :
    scatter_S128x128_S1_S128x40_01_n_1_0.resultIdx? j idx
      = some (ix2 (j 0) ⟨(j 1).val, lt_128_of_lt_40 (j 1).isLt⟩) := by
  apply resultIdx_of_coords
  intro a
  rw [start_zero _ _ _ hidx, zero_add]
  match a with
  | ⟨0, _⟩ => rfl
  | ⟨1, _⟩ => rfl

/-- A `128 × 40` block written at column 0 into a `128 × 128` matrix: the block in the first 40 columns, the
    matrix's own entries in the others. -/
theorem pad_cols_apply (x0 : S128x128.Idx → α) (idx : IVec S1 32) (hidx : ∀ i, idx i = 0#32) (upd : S128x40.Idx → α)
    (a b : Fin 128) :
    Host.scatter scatter_S128x128_S1_S128x40_01_n_1_0 (fun _ b => b) x0 idx upd (ix2 a b)
      = if h : b.val < 40 then upd (ix2 a ⟨b.val, h⟩) else x0 (ix2 a b) := by
  by_cases h : b.val < 40
  · rw [dif_pos h]
    apply Cert.ScatterSet.scatter_set_apply_of_hit
    · exact resultIdx_cols idx hidx _
    · -- an update index landing on `(a, b)` has those coordinates
      intro j' hj'
      rw [resultIdx_cols idx hidx] at hj'
      have hj := Option.some.inj hj'
      have h0 : j' 0 = a := congrFun hj 0
      have h1 : (j' 1).val = b.val := congrArg Fin.val (congrFun hj 1)
      have e1 : j' 1 = (⟨b.val, h⟩ : Fin 40) := Fin.ext h1
      rw [eq_ix2 j', h0, e1]
      rfl
  · rw [dif_neg h]
    apply Cert.ScatterSet.scatter_set_apply_of_miss
    -- a landing index has its column among the block's 40
    intro j' hj'
    rw [resultIdx_cols idx hidx] at hj'
    have h1 : (j' 1).val = b.val := congrArg Fin.val (congrFun (Option.some.inj hj') 1)
    have hlt : (j' 1).val < 40 := (j' 1).isLt
    omega

/-! ## The 40-entry vector into the `[1, 128]` row -/

/-- Update index `q` lands on the operand's `(0, q)`: both start components are zero, the row axis is inserted and the
    column axis is the window axis. -/
private theorem resultIdx_row (idx : IVec S2 32) (hidx : ∀ i, idx i = 0#32) (j : S40.Idx) :
    scatter_S1x128_S2_S40_0_0_01_0.resultIdx? j idx
      = some (ix2 (0 : Fin 1) ⟨(j 0).val, lt_128_of_lt_40 (j 0).isLt⟩) := by
  apply resultIdx_of_coords
  intro a
  rw [start_zero _ _ _ hidx, zero_add]
  match a with
  | ⟨0, _⟩ => rfl
  | ⟨1, _⟩ => rfl

/-- A 40-entry vector written at (0, 0) into a `[1, 128]` row: the vector in the first 40 entries, the row's own
    entries in the others. -/
theorem pad_row_apply (x0 : S1x128.Idx → α) (idx : IVec S2 32) (hidx : ∀ i, idx i = 0#32) (upd : S40.Idx → α)
    (r : Fin 1) (a : Fin 128) :
    Host.scatter scatter_S1x128_S2_S40_0_0_01_0 (fun _ b => b) x0 idx upd (ix2 r a)
      = if h : a.val < 40 then upd (ix1 ⟨a.val, h⟩) else x0 (ix2 r a) := by
  have hr : r = 0 := Subsingleton.elim _ _
  subst hr
  by_cases h : a.val < 40
  · rw [dif_pos h]
    apply Cert.ScatterSet.scatter_set_apply_of_hit
    · exact resultIdx_row idx hidx _
    · -- an update index landing on `(0, a)` is `a`
      intro j' hj'
      rw [resultIdx_row idx hidx] at hj'
      have h1 : (j' 0).val = a.val := congrArg Fin.val (congrFun (Option.some.inj hj') 1)
      have e0 : j' 0 = (⟨a.val, h⟩ : Fin 40) := Fin.ext h1
      rw [eq_ix1 j', e0]
      rfl
  · rw [dif_neg h]
    apply Cert.ScatterSet.scatter_set_apply_of_miss
    -- a landing index has its column among the vector's 40
    intro j' hj'
    rw [resultIdx_row idx hidx] at hj'
    have h1 : (j' 0).val = a.val := congrArg Fin.val (congrFun (Option.some.inj hj') 1)
    have hlt : (j' 0).val < 40 := (j' 0).isLt
    omega

end Cert.KernelIdeal.ScatterPad

end
-- ==== Proof.HostPre.lean ====
import proofs.«117501_g49246095016346_cont_8to1c4_490_2_alg».proof.Proof.Gen.KernelIdeal.Frame
import proofs.«117501_g49246095016346_cont_8to1c4_490_2_alg».proof.Proof.Spec
import Idealize.ShloMosaic.Lib.Pipeline.Value
import Idealize.ShloMosaic.Lib.ValueIdx
import Idealize.ShloMosaic.PureOps.Ideal.Laws
import proofs.«117501_g49246095016346_cont_8to1c4_490_2_alg».proof.Proof.Coords
import proofs.«117501_g49246095016346_cont_8to1c4_490_2_alg».proof.Proof.ScatterPad
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.HostPre

open Cert.KernelIdeal Cert.KernelIdeal.Gen Cert.Gcn

variable (m : (ℓ : Loc nD τ sig) → Buf (Elt Ideal) ℓ) (ρ : Dev nD → PrngReg)

/-- The argument arrays of @main, read by coordinates. -/
abbrev X (c : Dev nD) : Mat 4096 128 := mat3 (m ((c : Thread nD τ).loc main_arg0) : Vec Ideal S1x4096x128 .f32)
abbrev ADJ (c : Dev nD) : Mat 4096 4096 := mat3 (m ((c : Thread nD τ).loc main_arg1) : Vec Ideal S1x4096x4096 .f32)
abbrev LA (c : Dev nD) : EReal := scal (m ((c : Thread nD τ).loc main_arg2) : Vec Ideal S_ .f32)
abbrev WE1 (c : Dev nD) : Mat 128 128 := mat2 (m ((c : Thread nD τ).loc main_arg3) : Vec Ideal S128x128 .f32)
abbrev WE2 (c : Dev nD) : Mat 128 128 := mat2 (m ((c : Thread nD τ).loc main_arg4) : Vec Ideal S128x128 .f32)
abbrev WH1 (c : Dev nD) : Mat 128 128 := mat2 (m ((c : Thread nD τ).loc main_arg5) : Vec Ideal S128x128 .f32)
abbrev WH2 (c : Dev nD) : Mat 128 128 := mat2 (m ((c : Thread nD τ).loc main_arg6) : Vec Ideal S128x128 .f32)
abbrev WD (c : Dev nD) : Mat 128 40 := mat2 (m ((c : Thread nD τ).loc main_arg7) : Vec Ideal S128x40 .f32)
abbrev WMLP (c : Dev nD) : Mat 128 40 := mat2 (m ((c : Thread nD τ).loc main_arg8) : Vec Ideal S128x40 .f32)
abbrev BMLP (c : Dev nD) : Fin 40 → EReal := vec1 (m ((c : Thread nD τ).loc main_arg9) : Vec Ideal S40 .f32)

/-! ## The arrays the host operations leave, as terms of @main's arguments

Each of the eight arrays is the value of a short chain of shape operations on the argument arrays: a cast that drops a
leading unit axis (or makes a `[1, 1]` array of a number), a concatenation along the columns or the rows, a zero
array, a block written into a zero array. -/

/-- The `f32` zero array of shape `t`: the zero word, broadcast. -/
private abbrev zerosF (t : Shape) (h : S_.BroadcastsInDim t (![] : Fin 0 → Fin t.rank)) : Vec Ideal t .f32 :=
  broadcastInDim t ![] h (constant (F := Ideal) S_ .f32 0x00000000#32)

/-- The one-entry index vector holding the word zero. -/
private abbrev zerosI : IVec S1 32 := broadcastInDim S1 ![] bcast_S_S1 (constantI S_ 32 0#32)

private theorem v0_term (c : Dev nD) :
    (V1 m ρ c main_call0_v0 : Vec Ideal S4096x128 .f32)
      = shapeCast S4096x128 (m ((c : Thread nD τ).loc main_arg0) : Vec Ideal S1x4096x128 .f32) shapeCasts_S1x4096x128_S4096x128 := by
  dsimp only [V1, W1, W0, hostOps0]
  after_results
  rfl

private theorem v1_term (c : Dev nD) :
    (V1 m ρ c main_call0_v1 : Vec Ideal S4096x4096 .f32)
      = shapeCast S4096x4096 (m ((c : Thread nD τ).loc main_arg1) : Vec Ideal S1x4096x4096 .f32) shapeCasts_S1x4096x4096_S4096x4096 := by
  dsimp only [V1, W1, W0, hostOps0]
  after_results
  rfl

private theorem v2_term (c : Dev nD) :
    (V1 m ρ c main_call0_v2 : Vec Ideal S1x1 .f32)
      = shapeCast S1x1 (m ((c : Thread nD τ).loc main_arg2) : Vec Ideal S_ .f32) shapeCasts_S_S1x1 := by
  dsimp only [V1, W1, W0, hostOps0]
  after_results
  rfl

private theorem v3_term (c : Dev nD) :
    (V1 m ρ c main_call0_v3 : Vec Ideal S128x256 .f32)
      = concatenate S128x256 1 [⟨S128x128, (m ((c : Thread nD τ).loc main_arg3) : Vec Ideal S128x128 .f32)⟩,
          ⟨S128x128, (m ((c : Thread nD τ).loc main_arg5) : Vec Ideal S128x128 .f32)⟩] concatenates_S128x128_S128x128_S128x256_d1 := by
  dsimp only [V1, W1, W0, hostOps0]
  after_results
  rfl

private theorem v7_term (c : Dev nD) :
    (V1 m ρ c main_call0_v7 : Vec Ideal S256x256 .f32)
      = concatenate S256x256 0
          [⟨S128x256, concatenate S128x256 1 [⟨S128x128, (m ((c : Thread nD τ).loc main_arg4) : Vec Ideal S128x128 .f32)⟩,
              ⟨S128x128, zerosF S128x128 bcast_S_S128x128⟩] concatenates_S128x128_S128x128_S128x256_d1⟩,
           ⟨S128x256, concatenate S128x256 1 [⟨S128x128, zerosF S128x128 bcast_S_S128x128⟩,
              ⟨S128x128, (m ((c : Thread nD τ).loc main_arg6) : Vec Ideal S128x128 .f32)⟩] concatenates_S128x128_S128x128_S128x256_d1⟩]
          concatenates_S128x256_S128x256_S256x256_d0 := by
  dsimp only [V1, W1, W0, hostOps0]
  after_results
  rfl

private theorem v10_term (c : Dev nD) :
    (V1 m ρ c main_call0_v10 : Vec Ideal S128x128 .f32)
      = Host.scatter scatter_S128x128_S1_S128x40_01_n_1_0 (fun _ b => b) (zerosF S128x128 bcast_S_S128x128) zerosI
          (m ((c : Thread nD τ).loc main_arg7) : Vec Ideal S128x40 .f32) := by
  dsimp only [V1, W1, W0, hostOps0]
  after_results
  simp only [StableHlo.TRef.ofBuf, StableHlo.TRef.toBuf, cast_eq]

private theorem v13_term (c : Dev nD) :
    (V1 m ρ c main_call0_v13 : Vec Ideal S128x128 .f32)
      = Host.scatter scatter_S128x128_S1_S128x40_01_n_1_0 (fun _ b => b) (zerosF S128x128 bcast_S_S128x128) zerosI
          (m ((c : Thread nD τ).loc main_arg8) : Vec Ideal S128x40 .f32) := by
  dsimp only [V1, W1, W0, hostOps0]
  after_results
  simp only [StableHlo.TRef.ofBuf, StableHlo.TRef.toBuf, cast_eq]

private theorem v18_term (c : Dev nD) :
    (V1 m ρ c main_call0_v18 : Vec Ideal S1x128 .f32)
      = Host.scatter scatter_S1x128_S2_S40_0_0_01_0 (fun _ b => b) (zerosF S1x128 bcast_S_S1x128)
          (concatenate S2 0 [⟨S1, zerosI⟩, ⟨S1, zerosI⟩] concatenates_S1_S1_S2_d0)
          (m ((c : Thread nD τ).loc main_arg9) : Vec Ideal S40 .f32) := by
  dsimp only [V1, W1, W0, hostOps0]
  after_results
  simp only [StableHlo.TRef.ofBuf, StableHlo.TRef.toBuf, cast_eq]

/-! ## Those terms read at an index -/

/-- A zero array reads zero everywhere. -/
private theorem zerosF_apply (t : Shape) (h : S_.BroadcastsInDim t (![] : Fin 0 → Fin t.rank)) (j : t.Idx) :
    zerosF t h j = 0 :=
  (broadcastInDim_apply ![] h (constant (F := Ideal) S_ .f32 0x00000000#32) j ix0 (fun a => a.elim0)).trans
    ((constant_apply _ _).trans Ideal.ofBits_zero_f32)

/-- The one-entry index vector reads the word zero. -/
private theorem zerosI_apply (i : S1.Idx) : zerosI i = 0#32 :=
  broadcastInDim_apply ![] bcast_S_S1 (constantI S_ 32 0#32) i ix0 (fun a => a.elim0)

/-- Two such vectors end to end read the word zero at both places. -/
private theorem zerosI2_apply (i : S2.Idx) :
    concatenate S2 0 [⟨S1, zerosI⟩, ⟨S1, zerosI⟩] concatenates_S1_S1_S2_d0 i = 0#32 := by
  by_cases h : (i 0).val < 1
  · rw [concatenate_pair_apply_left (t := S2) (s₁ := S1) (s₂ := S1) (0 : Fin 1) zerosI zerosI concatenates_S1_S1_S2_d0 i rfl
        (ix1 ⟨(i 0).val, h⟩) (fun d => match d with | ⟨0, _⟩ => rfl)]
    exact zerosI_apply _
  · rw [concatenate_pair_apply_right (t := S2) (s₁ := S1) (s₂ := S1) (0 : Fin 1) zerosI zerosI concatenates_S1_S1_S2_d0 i rfl rfl
        (ix1 ⟨(i 0).val - 1, by have h2 : (i 0).val < 2 := (i 0).isLt; show (i 0).val - 1 < 1; omega⟩)
        (fun d hd => match d, hd with | ⟨0, _⟩, hd => absurd rfl hd)
        (by show (i 0).val - 1 + 1 = (i 0).val; omega)]
    exact zerosI_apply _

/-- Two `128 × 128` blocks laid side by side, read at `(a, b)`: the left block where `b < 128`, else the right one
    at column `b - 128`. -/
private theorem cols_apply (l r : Vec Ideal S128x128 .f32) (a : Fin 128) (b : Fin 256) :
    concatenate S128x256 1 [⟨S128x128, l⟩, ⟨S128x128, r⟩] concatenates_S128x128_S128x128_S128x256_d1 (ix2 a b)
      = if h : b.val < 128 then l (ix2 a ⟨b.val, h⟩) else r (ix2 a ⟨b.val - 128, by have := b.isLt; omega⟩) := by
  by_cases h : b.val < 128
  · rw [dif_pos h]
    exact concatenate_pair_apply_left (t := S128x256) (s₁ := S128x128) (s₂ := S128x128) (1 : Fin 2) _ _ _ (ix2 a b) rfl
      (ix2 a ⟨b.val, h⟩) (fun d => match d with | ⟨0, _⟩ => rfl | ⟨1, _⟩ => rfl)
  · rw [dif_neg h]
    exact concatenate_pair_apply_right (t := S128x256) (s₁ := S128x128) (s₂ := S128x128) (1 : Fin 2) _ _ _ (ix2 a b) rfl rfl
      (ix2 a ⟨b.val - 128, by have := b.isLt; omega⟩)
      (fun d hd => match d, hd with | ⟨0, _⟩, _ => rfl | ⟨1, _⟩, hd => absurd rfl hd)
      (by show b.val - 128 + 128 = b.val; omega)

/-- Two `128 × 256` blocks one above the other, read at `(a, b)`: the upper block where `a < 128`, else the lower one
    at row `a - 128`. -/
private theorem rows_apply (t u : Vec Ideal S128x256 .f32) (a b : Fin 256) :
    concatenate S256x256 0 [⟨S128x256, t⟩, ⟨S128x256, u⟩] concatenates_S128x256_S128x256_S256x256_d0 (ix2 a b)
      = if h : a.val < 128 then t (ix2 ⟨a.val, h⟩ b) else u (ix2 ⟨a.val - 128, by have := a.isLt; omega⟩ b) := by
  by_cases h : a.val < 128
  · rw [dif_pos h]
    exact concatenate_pair_apply_left (t := S256x256) (s₁ := S128x256) (s₂ := S128x256) (0 : Fin 2) _ _ _ (ix2 a b) rfl
      (ix2 ⟨a.val, h⟩ b) (fun d => match d with | ⟨0, _⟩ => rfl | ⟨1, _⟩ => rfl)
  · rw [dif_neg h]
    exact concatenate_pair_apply_right (t := S256x256) (s₁ := S128x256) (s₂ := S128x256) (0 : Fin 2) _ _ _ (ix2 a b) rfl rfl
      (ix2 ⟨a.val - 128, by have := a.isLt; omega⟩ b)
      (fun d hd => match d, hd with | ⟨0, _⟩, hd => absurd rfl hd | ⟨1, _⟩, _ => rfl)
      (by show a.val - 128 + 128 = a.val; omega)

/-- The node features with the leading unit axis dropped. -/
theorem x_apply (c : Dev nD) (a : Fin 4096) (b : Fin 128) :
    (V1 m ρ c main_call0_v0 : Vec Ideal S4096x128 .f32) (ix2 a b) = X m c a b := by
  rw [v0_term]
  exact shapeCast_1ab_ab_apply _ _ a b

/-- The adjacency with the leading unit axis dropped. -/
theorem adj_apply (c : Dev nD) (a b : Fin 4096) :
    (V1 m ρ c main_call0_v1 : Vec Ideal S4096x4096 .f32) (ix2 a b) = ADJ m c a b := by
  rw [v1_term]
  exact shapeCast_1ab_ab_apply _ _ a b

/-- The self-loop weight as a `[1, 1]` array. -/
theorem la_apply (c : Dev nD) :
    (V1 m ρ c main_call0_v2 : Vec Ideal S1x1 .f32) (ix2 0 0) = LA m c := by
  rw [v2_term]
  refine shapeCast_apply _ _ _ ix0 ?_
  rw [Shape.rowMajor_val_two]
  show (Shape.rowMajorPi _ _).val = 0 * 1 + 0
  rw [Shape.rowMajorPi_zero]

/-- The two first-layer weight matrices side by side. -/
theorem wenc_apply (c : Dev nD) (a : Fin 128) (b : Fin 256) :
    (V1 m ρ c main_call0_v3 : Vec Ideal S128x256 .f32) (ix2 a b) = sideBySide (WE1 m c) (WH1 m c) a b := by
  rw [v3_term, cols_apply]
  rfl

/-- The two second-layer weight matrices on the diagonal of a `256 × 256` matrix. -/
theorem w2_apply (c : Dev nD) (a b : Fin 256) :
    (V1 m ρ c main_call0_v7 : Vec Ideal S256x256 .f32) (ix2 a b) = blockDiag (WE2 m c) (WH2 m c) a b := by
  rw [v7_term, rows_apply]
  unfold blockDiag
  by_cases hk : a.val < 128
  · rw [dif_pos hk, dif_pos hk, cols_apply]
    by_cases hq : b.val < 128
    · rw [dif_pos hq, dif_pos hq]; rfl
    · rw [dif_neg hq, dif_neg hq]; exact zerosF_apply _ _ _
  · rw [dif_neg hk, dif_neg hk, cols_apply]
    by_cases hq : b.val < 128
    · rw [dif_pos hq, dif_pos hq]; exact zerosF_apply _ _ _
    · rw [dif_neg hq, dif_neg hq]; rfl

/-- The decoder weights written into the first 40 columns of a zero `128 × 128` matrix. -/
theorem wd_apply (c : Dev nD) (a b : Fin 128) :
    (V1 m ρ c main_call0_v10 : Vec Ideal S128x128 .f32) (ix2 a b) = padCols (WD m c) a b := by
  rw [v10_term, ScatterPad.pad_cols_apply _ _ zerosI_apply]
  unfold padCols
  by_cases h : b.val < 40
  · rw [dif_pos h, dif_pos h]; rfl
  · rw [dif_neg h, dif_neg h]; exact zerosF_apply _ _ _

/-- The head weights written into the first 40 columns of a zero `128 × 128` matrix. -/
theorem wm_apply (c : Dev nD) (a b : Fin 128) :
    (V1 m ρ c main_call0_v13 : Vec Ideal S128x128 .f32) (ix2 a b) = padCols (WMLP m c) a b := by
  rw [v13_term, ScatterPad.pad_cols_apply _ _ zerosI_apply]
  unfold padCols
  by_cases h : b.val < 40
  · rw [dif_pos h, dif_pos h]; rfl
  · rw [dif_neg h, dif_neg h]; exact zerosF_apply _ _ _

/-- The head bias written into the first 40 entries of a zero `[1, 128]` row. -/
theorem b_apply (c : Dev nD) (u : Fin 1) (a : Fin 128) :
    (V1 m ρ c main_call0_v18 : Vec Ideal S1x128 .f32) (ix2 u a) = padVec (BMLP m c) a := by
  rw [v18_term, ScatterPad.pad_row_apply _ _ zerosI2_apply]
  unfold padVec
  by_cases h : a.val < 40
  · rw [dif_pos h, dif_pos h]; rfl
  · rw [dif_neg h, dif_neg h]; exact zerosF_apply _ _ _

end Cert.KernelIdeal.HostPre

end
-- ==== Proof.HostPost.lean ====
import proofs.«117501_g49246095016346_cont_8to1c4_490_2_alg».proof.Proof.Gen.KernelIdeal.Frame
import proofs.«117501_g49246095016346_cont_8to1c4_490_2_alg».proof.Proof.Spec
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.HostPost

open Cert.KernelIdeal Cert.KernelIdeal.Gen Cert.Gcn

variable (m : (ℓ : Loc nD τ sig) → Buf (Elt Ideal) ℓ) (ρ : Dev nD → PrngReg)

/-- The first 40 columns of a 128-column matrix, under a leading unit axis, read at `(u, p, q)`. -/
theorem keep40_apply (Y : Vec Ideal S4096x128 .f32) (u : Fin 1) (p : Fin 4096) (q : Fin 40) :
    broadcastInDim S1x4096x40 ![1, 2] bcast_S4096x40_S1x4096x40_1_2
        (extractStridedSlice S4096x40 ![0, 0] Y slices_S4096x128_S4096x40_0_0) (ix3 u p q)
      = Y (ix2 p ⟨q.val, by have := q.isLt; omega⟩) := by
  rw [broadcastInDim_apply _ _ _ (ix3 u p q) (ix2 p q) (fun a => by
    match a with
    | ⟨0, _⟩ => rfl
    | ⟨1, _⟩ => rfl)]
  exact extractStridedSlice_apply _ _ _ _ _ (fun a => by
    match a with
    | ⟨0, _⟩ => exact (Nat.zero_add _).symm
    | ⟨1, _⟩ => exact (Nat.zero_add _).symm)

/-- The decoder's logits: the kept columns of pass 3's result array. -/
theorem logits_apply (c : Dev nD) (u : Fin 1) (p : Fin 4096) (q : Fin 40) :
    (W6 m ρ c (Proc.devRef .tc main_v0_0) : Vec Ideal S1x4096x40 .f32) (ix3 u p q)
      = (W5 m ρ c (Proc.devRef .tc main_call0_v22) : Vec Ideal S4096x128 .f32) (ix2 p ⟨q.val, by have := q.isLt; omega⟩) := by
  have e : (W6 m ρ c (Proc.devRef .tc main_v0_0) : Vec Ideal S1x4096x40 .f32)
      = broadcastInDim S1x4096x40 ![1, 2] bcast_S4096x40_S1x4096x40_1_2
          (extractStridedSlice S4096x40 ![0, 0] (W5 m ρ c (Proc.devRef .tc main_call0_v22) : Vec Ideal S4096x128 .f32) slices_S4096x128_S4096x40_0_0) := by
    show StableHlo.after hostOps4 (W5 m ρ c) (Proc.devRef .tc main_v0_0) = _
    after_results
    rfl
  rw [e]
  exact keep40_apply _ u p q

/-- The node head's logits: the kept columns of pass 2's third result array. -/
theorem logitsNode_apply (c : Dev nD) (u : Fin 1) (p : Fin 4096) (q : Fin 40) :
    (W6 m ρ c (Proc.devRef .tc main_v0_1) : Vec Ideal S1x4096x40 .f32) (ix3 u p q)
      = (W5 m ρ c (Proc.devRef .tc main_call0_v21_2) : Vec Ideal S4096x128 .f32) (ix2 p ⟨q.val, by have := q.isLt; omega⟩) := by
  have e : (W6 m ρ c (Proc.devRef .tc main_v0_1) : Vec Ideal S1x4096x40 .f32)
      = broadcastInDim S1x4096x40 ![1, 2] bcast_S4096x40_S1x4096x40_1_2
          (extractStridedSlice S4096x40 ![0, 0] (W5 m ρ c (Proc.devRef .tc main_call0_v21_2) : Vec Ideal S4096x128 .f32) slices_S4096x128_S4096x40_0_0) := by
    show StableHlo.after hostOps4 (W5 m ρ c) (Proc.devRef .tc main_v0_1) = _
    after_results
    rfl
  rw [e]
  exact keep40_apply _ u p q

/-- The closing host operations do not write the first branch's output. -/
theorem e2_keep (c : Dev nD) : W6 m ρ c (Proc.devRef .tc main_v0_2) = W5 m ρ c (Proc.devRef .tc main_v0_2) := by
  show StableHlo.after hostOps4 (W5 m ρ c) (Proc.devRef .tc main_v0_2) = _
  after_results

/-- Nor the second branch's. -/
theorem hh2_keep (c : Dev nD) : W6 m ρ c (Proc.devRef .tc main_v0_3) = W5 m ρ c (Proc.devRef .tc main_v0_3) := by
  show StableHlo.after hostOps4 (W5 m ρ c) (Proc.devRef .tc main_v0_3) = _
  after_results

end Cert.KernelIdeal.HostPost

end
-- ==== Proof.LibLastAxis.lean ====
/-
  A matrix reduced along its rows, and the column that result is kept in, read at an index.

  A row-wise normalisation (a softmax, a mean, a norm) of an `[a, b]` matrix takes a reduction over the last axis, which
  leaves one number per row, stores those numbers as an `[a, 1]` column ("keepdims"), and spreads the column back over the
  `b` entries of each row. This file reads each of those three steps at an index written by coordinates:

  * the column made from a vector, `[a] → [a, 1]`, at `(i, u)` is the vector at `i`;
  * the column spread over the rows' entries, `[a, 1] → [a, b]`, at `(p, c)` is the column at `(p, 0)`;
  * at the exact (extended real) values a sum along the last axis, at row `p`, is `∑ e : Fin b` of the matrix at `(p, e)`,
    and a maximum along it is the fold of `max` over `e : Fin b` from the value of the accumulator's word: both for the
    vector unit's `multi_reduction` and for a host `reduce`.

  The reduction facts rest on one index identity: the reduced index `p` with the coordinate `k` put back on the last axis
  is `(p, k)`.
-/
import Idealize.ShloMosaic.Lib.Pipeline.Value
import Idealize.ShloMosaic.Lib.ValueIdx
import Idealize.ShloMosaic.PureOps.Ideal.Laws

namespace Cert.LastAxis

open Idealize.ShloMosaic Idealize.ShloMosaic.ValueIdx

variable {α : Type}

/-! ## The kept column -/

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The last axis put back -/

/-- Row `p` with the coordinate `k` put back on the last axis is the index `(p, k)`. -/
theorem lift_last {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-! ## A sum and a maximum along the last axis, at the exact values -/

/-- The vector unit's sum along the last axis of an `[a, b]` matrix, at row `p`: the sum of that row's `b` entries. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ e : Fin b, src (ix2 p e) := by
  refine (Ideal.multiReduction_add_single src acc h hφ hacc (ix1 p)).trans ?_
  show ∑ k : Fin b, src (h.lift (ix1 p) k) = ∑ e : Fin b, src (ix2 p e)
  exact Finset.sum_congr rfl fun k _ => congrArg src (lift_last h p k)

/-- The vector unit's maximum along the last axis, at row `p`: the fold of `max` over that row's `b` entries, from the
    value the accumulator's word denotes. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun e => src (ix2 p e)) := by
  refine (Ideal.multiReduction_maximumf_single src acc h hφ hacc (ix1 p)).trans ?_
  have hf : (src ∘ h.lift (ix1 p)) = fun k : Fin b => src (ix2 p k) := funext fun k => congrArg src (lift_last h p k)
  exact congrArg (fun f => Finset.fold max (Ideal.ofBits .f32 acc) f (Finset.univ : Finset (Fin b))) hf

/-- A host `reduce` with a maximum body along the last axis, at row `p`: the same fold, from the initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun e => x (ix2 p e)) := by
  refine (Host.reduce_eq_fold_single FloatOps.maximumf x init h' h hu (ix1 p)).trans ?_
  have hf : (x ∘ h.lift (ix1 p)) = fun k : Fin b => x (ix2 p k) := funext fun k => congrArg x (lift_last h p k)
  exact congrArg (fun f => Finset.fold max (init (Shape.Idx.first hu)) f (Finset.univ : Finset (Fin b))) hf

end Cert.LastAxis
-- ==== Proof.Region0.lean ====
/-
  Pass 0 of the graph-convolution pipeline, read off its 16 grid points.

  Grid point `t` holds rows `256 t … 256 t + 255` of the adjacency `adj` and of the features `x`, all of the weights `w`
  and the self-loop weight `la`. From them it computes, row by row,

  * the degree `deg r = (Σ_j adj r j) + la` and the scaling `d r = deg r ^ (-1/2)` where `deg r > 0`, `0` elsewhere, kept as a
    column of 256 numbers;
  * the scaled projection `d r · Σ_k x r k · w k q`, a 256 × 256 block,

  and writes the column to rows `256 t …` of a 4096 × 1 array and the block to rows `256 t …` of a 4096 × 256 array.

  The file has three parts. First the arithmetic of one point, at an index of its block: the lane sum is the sum of the
  row's 4096 entries, the comparison with zero and the selection are an `if`, the product with the weights is the sum
  over the 128 shared coordinates, and the column spread over 256 lanes reads its own row. Second, each input block
  at a point is the matching rows of its array (row `r` of block `t` is row `256 t + r`; the weights and `la` are whole).
  Third, what a point writes back is therefore block `t` of ONE function of the arrays, the 16 blocks cover every row
  (row `n` lies in block `n / 256`), and so each result array holds that function at every index.
-/
import proofs.«117501_g49246095016346_cont_8to1c4_490_2_alg».proof.Proof.Gen.KernelIdeal.Frame
import proofs.«117501_g49246095016346_cont_8to1c4_490_2_alg».proof.Proof.Spec
import proofs.«117501_g49246095016346_cont_8to1c4_490_2_alg».proof.Proof.LibLastAxis
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gcn

/-- The offsets `(0, 0)`, however the zeros are spelt. -/
private theorem zeros2 : (![0, 0] : Fin 2 → Nat) = fun _ => 0 := funext fun a => by fin_cases a <;> rfl

/-! ## The arithmetic of one point, at an index of its block -/

/-- The one entry of a 1 × 1 block. -/
private theorem extract_one (v : Vec Ideal S1x1 .f32) : extractAt ![0, 0] v inpos_S1x1_p0_0 = v (ix2 0 0) :=
  congrArg v (funext fun a => Fin.ext (by match a with | ⟨0, _⟩ => rfl | ⟨1, _⟩ => rfl))

/-- The sum along the rows of a 256 × 4096 block, at row `r`: the sum of that row's 4096 entries. -/
private theorem rowSum_block (a : Vec Ideal S256x4096 .f32) (hφ : FKind.Formats .f32)
    (hacc : (0x00000000#32 : BitVec 32) = 0x00000000#32) (r : Fin 256) :
    multiReduction (F := Ideal) .add [1] S256 (shapeCast S256x4096 a shapeCasts_S256x4096_S256x4096) 0x00000000#32
        reduces_S256x4096_S256 hφ hacc (ix1 r) = ∑ j : Fin 4096, a (ix2 r j) := by
  refine (Cert.LastAxis.rowSum_apply (shapeCast S256x4096 a shapeCasts_S256x4096_S256x4096) 0x00000000#32
    reduces_S256x4096_S256 hφ hacc r).trans ?_
  rw [shapeCast_self]

/-- The degree column of a block of 256 rows: each row's sum, plus the self-loop weight. -/
private def degCol (la : Vec Ideal S1x1 .f32) (a : Vec Ideal S256x4096 .f32) : FVec Ideal S256x1 .f32 :=
  addf (shapeCast S256x1 (multiReduction (F := Ideal) .add [1] S256 (shapeCast S256x4096 a shapeCasts_S256x4096_S256x4096)
      0x00000000#32 reduces_S256x4096_S256 (.inl rfl) rfl) shapeCasts_S256_S256x1)
    (broadcast S256x1 (extractAt ![0, 0] la inpos_S1x1_p0_0))

/-- The degree column at row `r`: `(Σ_j a r j) + la`. -/
private theorem degCol_apply (la : Vec Ideal S1x1 .f32) (a : Vec Ideal S256x4096 .f32) (r : Fin 256) (u : Fin 1) :
    degCol la a (ix2 r u) = (∑ j : Fin 4096, a (ix2 r j)) + la (ix2 0 0) := by
  unfold degCol
  show shapeCast S256x1 _ shapeCasts_S256_S256x1 (ix2 r u) + extractAt ![0, 0] la inpos_S1x1_p0_0 = _
  rw [Cert.LastAxis.shapeCast_a_a1_apply]
  exact congrArg₂ (· + ·) (rowSum_block a _ _ r) (extract_one la)

/-- A value kept where a number is positive and replaced by zero elsewhere: the comparison `D > 0` gives the bit
    `1` exactly when `0 < D`, and the selection on that bit is the `if`. -/
private theorem select_pos (D A : EReal) : Scalar.select (Ideal.cmp .ogt D 0) A (0 : EReal) = if 0 < D then A else 0 := by
  unfold Ideal.cmp Scalar.select
  by_cases h : 0 < D
  · simp [h]
  · simp [h]

/-- The scaling column of a block at row `r`: the reciprocal square root of the row's degree where that is positive,
    zero elsewhere. -/
private theorem pay1_apply (la : Vec Ideal S1x1 .f32) (a : Vec Ideal S256x4096 .f32) (r : Fin 256) (u : Fin 1) :
    k0_pay1 (F := Ideal) la a (ix2 r u)
      = if 0 < (∑ j : Fin 4096, a (ix2 r j)) + la (ix2 0 0) then Ideal.rsqrt ((∑ j : Fin 4096, a (ix2 r j)) + la (ix2 0 0)) else 0 := by
  show Scalar.select (Ideal.cmp .ogt (degCol la a (ix2 r u)) (Ideal.ofBits .f32 0x00000000#32)) (Ideal.rsqrt (degCol la a (ix2 r u)))
      (Ideal.ofBits .f32 0x00000000#32) = _
  rw [degCol_apply, Ideal.ofBits_zero_f32]
  exact select_pos _ _

/-! ### The projection: a block of `x` times the weights

The product contracts the second axis of the left operand with the first of the right one. At the output index `(r, q)`
and the shared coordinate `k` the operands are read at `(r, k)` and `(k, q)`: one fact per operand and axis. -/

/-- Left operand, first axis: the output's row. -/
private theorem lhs_xw_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
/-- Left operand, second axis: the shared coordinate. -/
private theorem lhs_xw_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
/-- Right operand, first axis: the shared coordinate. -/
private theorem rhs_xw_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
/-- Right operand, second axis: the output's column. -/
private theorem rhs_xw_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The product of a 256 × 128 block with the 128 × 256 weights, accumulated from zero, at `(r, q)`: the sum over the
    128 shared coordinates. -/
private theorem matmul_xw_apply (x : FVec Ideal S256x128 .f32) (w : FVec Ideal S128x256 .f32) (r : Fin 256) (q : Fin 256) :
    matmul (F := Ideal) dot_S256x128_S128x256_S256x256_1_0_0_1_n_n none x w (constant (F := Ideal) S256x256 .f32 0x00000000#32) (ix2 r q)
      = ∑ k : Fin 128, x (ix2 r k) * w (ix2 k q) := by
  refine (Ideal.matmul_constant_zero_apply dot_S256x128_S128x256_S256x256_1_0_0_1_n_n none x w (ix2 r q)).trans ?_
  rw [← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 r q) ((contrEquiv1 dot_S256x128_S128x256_S256x256_1_0_0_1_n_n 128 rfl rfl).symm k) = ix2 r k := funext fun a => Fin.ext (by
    match a with
    | ⟨0, _⟩ => exact lhs_xw_0 _ _
    | ⟨1, _⟩ => exact (lhs_xw_1 _ _).trans hk)
  have er : dot_S256x128_S128x256_S256x256_1_0_0_1_n_n.rhsIdx (ix2 r q) ((contrEquiv1 dot_S256x128_S128x256_S256x256_1_0_0_1_n_n 128 rfl rfl).symm k) = ix2 k q := funext fun a => Fin.ext (by
    match a with
    | ⟨0, _⟩ => exact (rhs_xw_0 _ _).trans hk
    | ⟨1, _⟩ => exact rhs_xw_1 _ _)
  rw [el, er]

/-- The scaled projection of a block at `(r, q)`: row `r`'s scaling (the column, spread over the 256 lanes, reads its own
    row) times `Σ_k x r k · w k q`. -/
private theorem pay2_apply (la : Vec Ideal S1x1 .f32) (a : Vec Ideal S256x4096 .f32) (x : Vec Ideal S256x128 .f32)
    (w : Vec Ideal S128x256 .f32) (r : Fin 256) (q : Fin 256) :
    k0_pay2 (F := Ideal) la a x w (ix2 r q)
      = k0_pay1 (F := Ideal) la a (ix2 r 0) * ∑ k : Fin 128, x (ix2 r k) * w (ix2 k q) := by
  unfold k0_pay2
  show broadcastTo S256x256 (k0_pay1 (F := Ideal) la a) broadcasts_S256x1_S256x256 (ix2 r q)
    * matmul dot_S256x128_S128x256_S256x256_1_0_0_1_n_n none (shapeCast S256x128 x shapeCasts_S256x128_S256x128)
        (shapeCast S128x256 w shapeCasts_S128x256_S128x256) (constant (F := Ideal) S256x256 .f32 0x00000000#32) (ix2 r q) = _
  rw [Cert.LastAxis.broadcastTo_a1_ab_apply, shapeCast_self, shapeCast_self, matmul_xw_apply]

/-- The scaling of a block's row `r`, when the block holds the rows `ρ r` of `adj`: the pipeline's `kD` at row `ρ r`. -/
private theorem d_block (adjB : Vec Ideal S256x4096 .f32) (laB : Vec Ideal S1x1 .f32) (adj : Mat 4096 4096) (la : EReal)
    (ρ : Fin 256 → Fin 4096) (hB : ∀ r j, adjB (ix2 r j) = adj (ρ r) j) (hl : laB (ix2 0 0) = la) (r : Fin 256) (u : Fin 1) :
    k0_pay1 (F := Ideal) laB adjB (ix2 r u) = kD adj la (ρ r) := by
  rw [pay1_apply]
  unfold kD kDeg
  simp only [hB, hl]

/-- The scaled projection of a block's row `r`, likewise: the pipeline's `kProj` at row `ρ r`. -/
private theorem dxw_block (adjB : Vec Ideal S256x4096 .f32) (laB : Vec Ideal S1x1 .f32) (xB : Vec Ideal S256x128 .f32)
    (wB : Vec Ideal S128x256 .f32) (adj : Mat 4096 4096) (la : EReal) (x : Mat 4096 128) (w : Mat 128 256)
    (ρ : Fin 256 → Fin 4096) (hB : ∀ r j, adjB (ix2 r j) = adj (ρ r) j) (hl : laB (ix2 0 0) = la)
    (hx : ∀ r k, xB (ix2 r k) = x (ρ r) k) (hw : ∀ k q, wB (ix2 k q) = w k q) (r : Fin 256) (q : Fin 256) :
    k0_pay2 (F := Ideal) laB adjB xB wB (ix2 r q) = kProj (kD adj la) x w (ρ r) q := by
  rw [pay2_apply, d_block adjB laB adj la ρ hB hl r 0]
  unfold kProj
  simp only [hx, hw]

/-! ## The blocks: which rows of the arrays a grid point holds -/

variable (V : (c : Dev nD) → (b : Ref sig .tc) → Buf (Elt Ideal) ((c : Thread nD τ).loc b))

/-- The four input arrays as the region finds them, and the four input blocks at a point, each named at its own shape. -/
private abbrev adjArr (c : Dev nD) : Vec Ideal S4096x4096 .f32 := V c main_call0_v1
private abbrev xArr (c : Dev nD) : Vec Ideal S4096x128 .f32 := V c main_call0_v0
private abbrev wArr (c : Dev nD) : Vec Ideal S128x256 .f32 := V c main_call0_v3
private abbrev laArr (c : Dev nD) : Vec Ideal S1x1 .f32 := V c main_call0_v2
private abbrev adjBlk (c : Dev nD) (t : Fin cfg0.N) : Vec Ideal S256x4096 .f32 := iblk0 V c 0 t
private abbrev xBlk (c : Dev nD) (t : Fin cfg0.N) : Vec Ideal S256x128 .f32 := iblk0 V c 1 t
private abbrev wBlk (c : Dev nD) (t : Fin cfg0.N) : Vec Ideal S128x256 .f32 := iblk0 V c 2 t
private abbrev laBlk (c : Dev nD) (t : Fin cfg0.N) : Vec Ideal S1x1 .f32 := iblk0 V c 3 t

/-- Row `r` of the block of grid point `t` is row `256 t + r` of the array. -/
private def rowOf (t : Fin cfg0.N) (r : Fin 256) : Fin 4096 :=
  ⟨256 * t.val + r.val, by have h : t.val < 16 := lt_of_lt_of_eq t.isLt N_0; have := r.isLt; omega⟩

/-- The block index of every window at every point of the grid: the windows over rows sit at block row `t`, block
    column `0`; the windows over a whole array at the origin. -/
private theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The adjacency block at point `t` is rows `256 t …` of the adjacency: a block's coordinate on an axis is its block
    index times the block's extent plus the coordinate inside the block. -/
private theorem adjBlk_apply (c : Dev nD) (t : Fin cfg0.N) (r : Fin 256) (j : Fin 4096) :
    adjBlk V c t (ix2 r j) = adjArr V c (ix2 (rowOf t r) j) := by
  obtain ⟨e0, e1, -⟩ := idx_rows t
  show V c main_call0_v1 (((cfg0.win 0).blk t).view.emb (ix2 r j)) = V c main_call0_v1 (ix2 (rowOf t r) j)
  congr 1
  funext a; apply Fin.ext
  match a with
  | ⟨0, _⟩ => show win0_0.index t (0 : Fin 2) * 256 + 1 * r.val = 256 * t.val + r.val; rw [e0]; omega
  | ⟨1, _⟩ => show win0_0.index t (1 : Fin 2) * 4096 + 1 * j.val = j.val; rw [e1]; omega

/-- The feature block at point `t` is rows `256 t …` of the features. -/
private theorem xBlk_apply (c : Dev nD) (t : Fin cfg0.N) (r : Fin 256) (k : Fin 128) :
    xBlk V c t (ix2 r k) = xArr V c (ix2 (rowOf t r) k) := by
  obtain ⟨-, -, e0, e1, -⟩ := idx_rows t
  show V c main_call0_v0 (((cfg0.win 1).blk t).view.emb (ix2 r k)) = V c main_call0_v0 (ix2 (rowOf t r) k)
  congr 1
  funext a; apply Fin.ext
  match a with
  | ⟨0, _⟩ => show win0_1.index t (0 : Fin 2) * 256 + 1 * r.val = 256 * t.val + r.val; rw [e0]; omega
  | ⟨1, _⟩ => show win0_1.index t (1 : Fin 2) * 128 + 1 * k.val = k.val; rw [e1]; omega

/-- The weight block at any point is the whole weight array. -/
private theorem wBlk_apply (c : Dev nD) (t : Fin cfg0.N) (k : Fin 128) (q : Fin 256) :
    wBlk V c t (ix2 k q) = wArr V c (ix2 k q) := by
  obtain ⟨-, -, -, -, e0, e1, -⟩ := idx_rows t
  show V c main_call0_v3 (((cfg0.win 2).blk t).view.emb (ix2 k q)) = V c main_call0_v3 (ix2 k q)
  congr 1
  funext a; apply Fin.ext
  match a with
  | ⟨0, _⟩ => show win0_2.index t (0 : Fin 2) * 128 + 1 * k.val = k.val; rw [e0]; omega
  | ⟨1, _⟩ => show win0_2.index t (1 : Fin 2) * 256 + 1 * q.val = q.val; rw [e1]; omega

/-- The self-loop weight's block at any point is its one-entry array. -/
private theorem laBlk_apply (c : Dev nD) (t : Fin cfg0.N) :
    laBlk V c t (ix2 0 0) = laArr V c (ix2 0 0) := by
  obtain ⟨-, -, -, -, -, -, e0, e1, -⟩ := idx_rows t
  show V c main_call0_v2 (((cfg0.win 3).blk t).view.emb (ix2 0 0)) = V c main_call0_v2 (ix2 0 0)
  congr 1
  funext a; apply Fin.ext
  match a with
  | ⟨0, _⟩ => show win0_3.index t (0 : Fin 2) * 1 + 1 * 0 = 0; rw [e0]
  | ⟨1, _⟩ => show win0_3.index t (1 : Fin 2) * 1 + 1 * 0 = 0; rw [e1]

/-! ## From the blocks to the arrays -/

/-- The column of scalings, as the contents of a 4096 × 1 array. -/
private def dCol (adj : Mat 4096 4096) (la : EReal) : Vec Ideal S4096x1 .f32 := fun i => kD adj la (i 0)
/-- The scaled projection, as the contents of a 4096 × 256 array. -/
private def dxwArr (adj : Mat 4096 4096) (la : EReal) (x : Mat 4096 128) (w : Mat 128 256) : Vec Ideal S4096x256 .f32 :=
  fun i => kProj (kD adj la) x w (i 0) (i 1)

/-- What point `t` writes back to the first result is block `t` of the column of scalings. -/
private theorem flushed4_eq (c : Dev nD) (adj : Mat 4096 4096) (la : EReal)
    (hadj : ∀ a b, adjArr V c (ix2 a b) = adj a b) (hla : laArr V c (ix2 0 0) = la) (t : Fin cfg0.N) :
    (dat0 (F := Ideal) V c).flushed 4 t = ((cfg0.win 4).blk t).view.read (Elt Ideal) (dCol adj la) := by
  show (cfg0.win 4).cut (grid0.coords t) ((dat0 (F := Ideal) V c).after 4 t) = _
  rw [after0_4]
  unfold out0_4
  rw [View.canon_unit_zero zeros2]
  simp only [View.ld_unit_zero (S := S1x1) zeros2, View.ld_unit_zero (S := S256x4096) zeros2]
  have key : ∀ y : S256x1.Idx,
      k0_pay1 (F := Ideal) (laBlk V c t) (adjBlk V c t) y = dCol adj la (((cfg0.win 4).blk t).view.emb y) := by
    intro y
    obtain ⟨r, u, rfl⟩ : ∃ (r : Fin 256) (u : Fin 1), y = ix2 r u := ⟨y 0, y 1, eq_ix2 y⟩
    have hrow : (((cfg0.win 4).blk t).view.emb (ix2 r u)) 0 = rowOf t r := Fin.ext (by
      show win0_4.index t (0 : Fin 2) * 256 + 1 * r.val = 256 * t.val + r.val
      rw [(idx_rows t).2.2.2.2.2.2.2.2.1]; omega)
    show _ = kD adj la ((((cfg0.win 4).blk t).view.emb (ix2 r u)) 0)
    rw [hrow]
    exact d_block (adjBlk V c t) (laBlk V c t) adj la (rowOf t)
      (fun r j => (adjBlk_apply V c t r j).trans (hadj _ _)) ((laBlk_apply V c t).trans hla) r u
  exact funext key

/-- What point `t` writes back to the second result is block `t` of the scaled projection. -/
private theorem flushed5_eq (c : Dev nD) (adj : Mat 4096 4096) (la : EReal) (x : Mat 4096 128) (w : Mat 128 256)
    (hadj : ∀ a b, adjArr V c (ix2 a b) = adj a b) (hla : laArr V c (ix2 0 0) = la)
    (hx : ∀ a b, xArr V c (ix2 a b) = x a b) (hw : ∀ a b, wArr V c (ix2 a b) = w a b) (t : Fin cfg0.N) :
    (dat0 (F := Ideal) V c).flushed 5 t = ((cfg0.win 5).blk t).view.read (Elt Ideal) (dxwArr adj la x w) := by
  show (cfg0.win 5).cut (grid0.coords t) ((dat0 (F := Ideal) V c).after 5 t) = _
  rw [after0_5]
  unfold out0_5
  rw [View.canon_unit_zero zeros2]
  simp only [View.ld_unit_zero (S := S1x1) zeros2, View.ld_unit_zero (S := S256x4096) zeros2,
    View.ld_unit_zero (S := S256x128) zeros2, View.ld_unit_zero (S := S128x256) zeros2]
  have key : ∀ y : S256x256.Idx,
      k0_pay2 (F := Ideal) (laBlk V c t) (adjBlk V c t) (xBlk V c t) (wBlk V c t) y
        = dxwArr adj la x w (((cfg0.win 5).blk t).view.emb y) := by
    intro y
    obtain ⟨r, q, rfl⟩ : ∃ (r : Fin 256) (q : Fin 256), y = ix2 r q := ⟨y 0, y 1, eq_ix2 y⟩
    have hrow : (((cfg0.win 5).blk t).view.emb (ix2 r q)) 0 = rowOf t r := Fin.ext (by
      show win0_5.index t (0 : Fin 2) * 256 + 1 * r.val = 256 * t.val + r.val
      rw [(idx_rows t).2.2.2.2.2.2.2.2.2.2.1]; omega)
    have hcol : (((cfg0.win 5).blk t).view.emb (ix2 r q)) 1 = q := Fin.ext (by
      show win0_5.index t (1 : Fin 2) * 256 + 1 * q.val = q.val
      rw [(idx_rows t).2.2.2.2.2.2.2.2.2.2.2]; omega)
    show _ = kProj (kD adj la) x w ((((cfg0.win 5).blk t).view.emb (ix2 r q)) 0) ((((cfg0.win 5).blk t).view.emb (ix2 r q)) 1)
    rw [hrow, hcol]
    exact dxw_block (adjBlk V c t) (laBlk V c t) (xBlk V c t) (wBlk V c t) adj la x w (rowOf t)
      (fun r j => (adjBlk_apply V c t r j).trans (hadj _ _)) ((laBlk_apply V c t).trans hla)
      (fun r k => (xBlk_apply V c t r k).trans (hx _ _)) (fun k q => (wBlk_apply V c t k q).trans (hw _ _)) r q
  exact funext key

/-- An index of the first result is in point `t`'s block iff each coordinate is in the block's range on its axis. -/
private theorem mem_blk4 (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_call0_v19_0).slice (win0_4.rect t)).set ↔ _
  rw [View.set_slice_whole, Rect.mem_set_unit]
  exact Iff.rfl

/-- The same for the second result. -/
private theorem mem_blk5 (t : Fin cfg0.N) (i : S4096x256.Idx) :
    i ∈ ((cfg0.win 5).blk t).view.set ↔ ∀ a : Fin 2, win0_5.index t a * S256x256.size a ≤ (i a).val
      ∧ (i a).val < win0_5.index t a * S256x256.size a + S256x256.size a := by
  show i ∈ ((View.whole main_call0_v19_1).slice (win0_5.rect t)).set ↔ _
  rw [View.set_slice_whole, Rect.mem_set_unit]
  exact Iff.rfl

/-- The point whose block holds row `n`: `n / 256`. -/
private def pointOf (n : Fin 4096) : Fin cfg0.N := ⟨n.val / 256, by rw [show cfg0.N = 16 from N_0]; have := n.isLt; omega⟩

/-- Every index of the first result lies in the block of the point that holds its row: `(n / 256) · 256 ≤ n < (n / 256) · 256 + 256`. -/
private theorem cover4 (i : S4096x1.Idx) : ∃ t : Fin cfg0.N, (cfg0.win 4).flush t = true ∧ i ∈ ((cfg0.win 4).blk t).view.set := by
  have h0 : (i 0).val < 4096 := (i 0).isLt
  have h1 : (i 1).val < 1 := (i 1).isLt
  refine ⟨pointOf (i 0), flush0_4 _, ?_⟩
  rw [mem_blk4]
  obtain ⟨-, -, -, -, -, -, -, -, e0, e1, -⟩ := idx_rows (pointOf (i 0))
  have hp : (pointOf (i 0)).val = (i 0).val / 256 := rfl
  intro a
  match a with
  | ⟨0, _⟩ =>
    show win0_4.index (pointOf (i 0)) (0 : Fin 2) * 256 ≤ (i 0).val ∧ (i 0).val < win0_4.index (pointOf (i 0)) (0 : Fin 2) * 256 + 256
    rw [e0, hp]; omega
  | ⟨1, _⟩ =>
    show win0_4.index (pointOf (i 0)) (1 : Fin 2) * 1 ≤ (i 1).val ∧ (i 1).val < win0_4.index (pointOf (i 0)) (1 : Fin 2) * 1 + 1
    rw [e1]; omega

/-- The same for the second result, whose blocks span all 256 columns. -/
private theorem cover5 (i : S4096x256.Idx) : ∃ t : Fin cfg0.N, (cfg0.win 5).flush t = true ∧ i ∈ ((cfg0.win 5).blk t).view.set := by
  have h0 : (i 0).val < 4096 := (i 0).isLt
  have h1 : (i 1).val < 256 := (i 1).isLt
  refine ⟨pointOf (i 0), flush0_5 _, ?_⟩
  rw [mem_blk5]
  obtain ⟨-, -, -, -, -, -, -, -, -, -, e0, e1⟩ := idx_rows (pointOf (i 0))
  have hp : (pointOf (i 0)).val = (i 0).val / 256 := rfl
  intro a
  match a with
  | ⟨0, _⟩ =>
    show win0_5.index (pointOf (i 0)) (0 : Fin 2) * 256 ≤ (i 0).val ∧ (i 0).val < win0_5.index (pointOf (i 0)) (0 : Fin 2) * 256 + 256
    rw [e0, hp]; omega
  | ⟨1, _⟩ =>
    show win0_5.index (pointOf (i 0)) (1 : Fin 2) * 256 ≤ (i 1).val ∧ (i 1).val < win0_5.index (pointOf (i 0)) (1 : Fin 2) * 256 + 256
    rw [e1]; omega

/-- Pass 0, first result: the column of scalings. -/
theorem d_apply (c : Dev nD) (adj : Mat 4096 4096) (la : EReal)
    (hadj : ∀ a b, (V c main_call0_v1 : Vec Ideal S4096x4096 .f32) (ix2 a b) = adj a b)
    (hla : (V c main_call0_v2 : Vec Ideal S1x1 .f32) (ix2 0 0) = la)
    (p : Fin 4096) (u : Fin 1) :
    ((dat0 (F := Ideal) V c).arrAt 4 cfg0.N : Vec Ideal S4096x1 .f32) (ix2 p u) = kD adj la p := by
  have h := (dat0 (F := Ideal) V c).arrAt_eq_of_cover 4 (dCol adj la) (fun t _ => flushed4_eq V c adj la hadj hla t) cover4
  exact congrFun h (ix2 p u)

/-- Pass 0, second result: the scaled encoder inputs. -/
theorem dxw_apply (c : Dev nD) (adj : Mat 4096 4096) (la : EReal) (x : Mat 4096 128) (w : Mat 128 256)
    (hadj : ∀ a b, (V c main_call0_v1 : Vec Ideal S4096x4096 .f32) (ix2 a b) = adj a b)
    (hla : (V c main_call0_v2 : Vec Ideal S1x1 .f32) (ix2 0 0) = la)
    (hx : ∀ a b, (V c main_call0_v0 : Vec Ideal S4096x128 .f32) (ix2 a b) = x a b)
    (hw : ∀ a b, (V c main_call0_v3 : Vec Ideal S128x256 .f32) (ix2 a b) = w a b)
    (p : Fin 4096) (q : Fin 256) :
    ((dat0 (F := Ideal) V c).arrAt 5 cfg0.N : Vec Ideal S4096x256 .f32) (ix2 p q) = kProj (kD adj la) x w p q := by
  have h := (dat0 (F := Ideal) V c).arrAt_eq_of_cover 5 (dxwArr adj la x w)
    (fun t _ => flushed5_eq V c adj la x w hadj hla hx hw t) cover5
  exact congrFun h (ix2 p q)

end Cert.KernelIdeal.Region0

end
-- ==== Proof.Region1.lean ====
/-
  The first-layer pass, region by rows: what the second kernel call leaves in its result array.

  The call runs over 16 grid points; point `t` holds rows `256·t … 256·t + 255` of the adjacency and of the scaling column
  `d`, the whole operand `v` (4096 × 256), the self-loop weight `la` and the weights `w2` (256 × 256), and stores the
  256 × 256 block

      d p · Σ_k max (d p · ((Σ_j adj p j · v j k) + la · v p k)) 0 · w2 k q        (p = 256·t + r),

  the loop term `la · v p k` read from the operand's own rows `256·t …`. Three steps:

  * the stored block is the body's arithmetic over the blocks it loads, and that arithmetic read at an entry `(r, q)`:
    the two products are sums over their one contracted axis, the scaling column is spread along each row, the
    rectifier is `max · 0`;
  * each loaded block read off its array: a row-block window's entry `(r, ·)` at point `t` is the array's entry
    `(256·t + r, ·)`, a whole-array window's block is the array, and the body's own row offset is `256·t`;
  * so what point `t` writes back is its 256 rows of the one function `kLayer1 adj la d v w2`, the 16 blocks tile the
    4096 rows (row `p` lies in the block of point `p / 256`), and the array ends holding that function.
-/
import proofs.«117501_g49246095016346_cont_8to1c4_490_2_alg».proof.Proof.Gen.KernelIdeal.Frame
import proofs.«117501_g49246095016346_cont_8to1c4_490_2_alg».proof.Proof.Spec
import Idealize.ShloMosaic.Lib.Pipeline.Value
import Idealize.ShloMosaic.Lib.ValueIdx
import Idealize.ShloMosaic.PureOps.Ideal.Laws
import proofs.«117501_g49246095016346_cont_8to1c4_490_2_alg».proof.Proof.LibLastAxis
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gcn

variable (V : (c : Dev nD) → (b : Ref sig .tc) → Buf (Elt Ideal) ((c : Thread nD τ).loc b))

/-! ## What the body leaves in the output block -/

section Piece
variable {F : FTy → Type} [FloatOps F]

/-- The zero offsets of a whole-block access. -/
private theorem hz : (![0, 0] : Fin 2 → Nat) = fun _ => 0 := funext fun a => by fin_cases a <;> rfl

/-- On any staging buffers holding the blocks `x0 … x4`, the body's one store covers the output block, so the block ends
    at the body's arithmetic over what its loads read: each whole buffer, and rows `k1_off1 i …` of the whole operand. -/
private theorem out_piece (c : Dev nD) (i : grid1.Coords)
    (a1 : Memref sig .tc .vmem S256x4096 .f32) (h1 : a1.IsWhole) (a2 : Memref sig .tc .vmem S4096x256 .f32) (h2 : a2.IsWhole)
    (a3 : Memref sig .tc .vmem S256x1 .f32) (h3 : a3.IsWhole) (a4 : Memref sig .tc .vmem S1x1 .f32) (h4 : a4.IsWhole)
    (a5 : Memref sig .tc .vmem S256x256 .f32) (h5 : a5.IsWhole) (a6 : Memref sig .tc .vmem S256x256 .f32) (h6 : a6.IsWhole)
    (x0 : Vec F S256x4096 .f32) (x1 : Vec F S4096x256 .f32) (x2 : Vec F S256x1 .f32) (x3 : Vec F S1x1 .f32) (x4 : Vec F S256x256 .f32) :
    out1_A_5 c i a1 h1 a2 h2 a3 h3 a4 h4 a5 h5 a6 h6 x0 x1 x2 x3 x4
      = k1_pay1 x3 x0 x1 (View.ld x1 (Rect.unit (s := S4096x256) (k1_off1 i) S256x256.size (k1_off1_inb i))) x2 x2 x4 := by
  unfold out1_A_5
  rw [View.read_writes_eq_canon _ _ _ (cover1_A_5 c i a1 h1 a2 h2 a3 h3 a4 h4 a5 h5 a6 h6 x0 x1 x2 x3 x4)]
  unfold kernelRun1_A
  dsimp only
  sl_unfold_words
  rw [View.canon_unit_zero hz]
  simp only [View.readAt_eq_ld, h1.read_unread, h2.read_unread, h3.read_unread, h4.read_unread, h5.read_unread,
    View.ld_unit_zero (S := S256x4096) hz, View.ld_unit_zero (S := S4096x256) hz, View.ld_unit_zero (S := S256x1) hz,
    View.ld_unit_zero (S := S1x1) hz, View.ld_unit_zero (S := S256x256) hz]
end Piece

/-! ## The two products, entry by entry -/

section Products

/-- The aggregation product's operand indices: the left operand at (row, contracted), the right at (contracted, column). -/
private theorem aggL_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
private theorem aggL_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
private theorem aggR_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
private theorem aggR_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The aggregation product at `(p, q)`: row `p` of the 256 × 4096 block against column `q` of the 4096 × 256 operand. -/
private theorem agg_apply (A : FVec Ideal S256x4096 .f32) (B : FVec Ideal S4096x256 .f32) (p q : Fin 256) :
    matmul dot_S256x4096_S4096x256_S256x256_1_0_0_1_n_n none A B (constant (F := Ideal) S256x256 .f32 0x00000000#32) (ix2 p q)
      = ∑ j : Fin 4096, A (ix2 p j) * B (ix2 j q) := by
  refine (Ideal.matmul_constant_zero_apply dot_S256x4096_S4096x256_S256x256_1_0_0_1_n_n none A B (ix2 p q)).trans ?_
  rw [← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q) ((contrEquiv1 dot_S256x4096_S4096x256_S256x256_1_0_0_1_n_n 4096 rfl rfl).symm k) = ix2 p k := funext fun a => Fin.ext (by
    match a with
    | ⟨0, _⟩ => exact aggL_0 _ _
    | ⟨1, _⟩ => exact (aggL_1 _ _).trans hk)
  have er : dot_S256x4096_S4096x256_S256x256_1_0_0_1_n_n.rhsIdx (ix2 p q) ((contrEquiv1 dot_S256x4096_S4096x256_S256x256_1_0_0_1_n_n 4096 rfl rfl).symm k) = ix2 k q := funext fun a => Fin.ext (by
    match a with
    | ⟨0, _⟩ => exact (aggR_0 _ _).trans hk
    | ⟨1, _⟩ => exact aggR_1 _ _)
  rw [el, er]

/-- The projection product's operand indices, likewise. -/
private theorem projL_0 (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
private theorem projL_1 (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
private theorem projR_0 (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
private theorem projR_1 (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

/-- The projection product at `(p, q)`: row `p` of the rectified block against column `q` of the 256 × 256 weights. -/
private theorem proj_apply (H : FVec Ideal S256x256 .f32) (W : FVec Ideal S256x256 .f32) (p q : Fin 256) :
    matmul dot_S256x256_S256x256_S256x256_1_0_0_1_n_n none H W (constant (F := Ideal) S256x256 .f32 0x00000000#32) (ix2 p q)
      = ∑ k : Fin 256, H (ix2 p k) * W (ix2 k q) := by
  refine (Ideal.matmul_constant_zero_apply dot_S256x256_S256x256_S256x256_1_0_0_1_n_n none H W (ix2 p q)).trans ?_
  rw [← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 p q) ((contrEquiv1 dot_S256x256_S256x256_S256x256_1_0_0_1_n_n 256 rfl rfl).symm k) = ix2 p k := funext fun a => Fin.ext (by
    match a with
    | ⟨0, _⟩ => exact projL_0 _ _
    | ⟨1, _⟩ => exact (projL_1 _ _).trans hk)
  have er : dot_S256x256_S256x256_S256x256_1_0_0_1_n_n.rhsIdx (ix2 p q) ((contrEquiv1 dot_S256x256_S256x256_S256x256_1_0_0_1_n_n 256 rfl rfl).symm k) = ix2 k q := funext fun a => Fin.ext (by
    match a with
    | ⟨0, _⟩ => exact (projR_0 _ _).trans hk
    | ⟨1, _⟩ => exact projR_1 _ _)
  rw [el, er]

end Products

section Payload

/-- The one entry of a 1 × 1 block. -/
private theorem extract00 {α : Type} (la : S1x1.Idx → α) (h : ∀ a, (![0, 0] : Fin 2 → Nat) a < S1x1.size a) :
    extractAt ![0, 0] la h = la (ix2 (0 : Fin 1) (0 : Fin 1)) := by
  unfold extractAt
  congr 1
  funext a
  match a with
  | ⟨0, _⟩ => rfl
  | ⟨1, _⟩ => rfl

/-- The body's result block at `(p, q)`, over the blocks it loads: the adjacency rows `A`, the whole operand `v`, its rows
    `vr` that belong to the block, the scaling column `d` (loaded twice: `d`, `d'`), the self-loop weight `la`, the weights `w2`. -/
private theorem pay_apply (la : Vec Ideal S1x1 .f32) (A : Vec Ideal S256x4096 .f32) (v : Vec Ideal S4096x256 .f32) (vr : Vec Ideal S256x256 .f32)
    (d d' : Vec Ideal S256x1 .f32) (w2 : Vec Ideal S256x256 .f32) (p q : Fin 256) :
    k1_pay1 (F := Ideal) la A v vr d d' w2 (ix2 p q)
      = d' (ix2 p (0 : Fin 1)) * ∑ k : Fin 256, max (d (ix2 p (0 : Fin 1)) * ((∑ j : Fin 4096, A (ix2 p j) * v (ix2 j k)) + la (ix2 (0 : Fin 1) (0 : Fin 1)) * vr (ix2 p k))) 0 * w2 (ix2 k q) := by
  unfold k1_pay1
  simp only [shapeCast_self, mulf_apply, addf_apply, maximumf_apply, broadcast_apply, Cert.LastAxis.broadcastTo_a1_ab_apply,
    proj_apply, agg_apply, extract00, Ideal.ofBits_def, Ideal.ofBits_zero_f32]

end Payload

/-! ## The blocks a point loads, read off the arrays -/

/-- The blocks the body finds at point `t`: 256 adjacency rows, the whole operand, 256 entries of the scaling column, the
    self-loop weight, the weights. -/
private abbrev adjBlk (c : Dev nD) (t : Fin cfg1.N) : Vec Ideal S256x4096 .f32 := iblk1 (F := Ideal) V c 0 t
private abbrev vAll (c : Dev nD) (t : Fin cfg1.N) : Vec Ideal S4096x256 .f32 := iblk1 (F := Ideal) V c 1 t
private abbrev dBlk (c : Dev nD) (t : Fin cfg1.N) : Vec Ideal S256x1 .f32 := iblk1 (F := Ideal) V c 2 t
private abbrev laBlk (c : Dev nD) (t : Fin cfg1.N) : Vec Ideal S1x1 .f32 := iblk1 (F := Ideal) V c 3 t
private abbrev wBlk (c : Dev nD) (t : Fin cfg1.N) : Vec Ideal S256x256 .f32 := iblk1 (F := Ideal) V c 4 t
/-- The arrays they are blocks of. -/
private abbrev adjArr (c : Dev nD) : Vec Ideal S4096x4096 .f32 := V c main_call0_v1
private abbrev vArr (c : Dev nD) : Vec Ideal S4096x256 .f32 := V c main_call0_v19_1
private abbrev dArr (c : Dev nD) : Vec Ideal S4096x1 .f32 := V c main_call0_v19_0
private abbrev laArr (c : Dev nD) : Vec Ideal S1x1 .f32 := V c main_call0_v2
private abbrev wArr (c : Dev nD) : Vec Ideal S256x256 .f32 := V c main_call0_v7

/-- Where each window's block sits at point `t`: the row-block windows (adjacency, scaling column, result) at block row `t`,
    the whole-array windows at the origin; and the body's own row offset into the whole operand is `256 · t`. -/
private theorem idx_facts : ∀ t : Fin cfg1.N,
    (win1_0.index t 0 = t.val ∧ win1_0.index t 1 = 0) ∧ (win1_1.index t 0 = 0 ∧ win1_1.index t 1 = 0)
    ∧ (win1_2.index t 0 = t.val ∧ win1_2.index t 1 = 0) ∧ (win1_3.index t 0 = 0 ∧ win1_3.index t 1 = 0)
    ∧ (win1_4.index t 0 = 0 ∧ win1_4.index t 1 = 0) ∧ (win1_5.index t 0 = t.val ∧ win1_5.index t 1 = 0)
    ∧ (k1_off1 (grid1.coords t) 0 = 256 * t.val ∧ k1_off1 (grid1.coords t) 1 = 0) :=
  (by decide +kernel : ∀ t : Fin grid1.N, _)

/-- Row `r` of the adjacency block at point `t` is row `256 · t + r` of the adjacency. -/
private theorem adjBlk_apply (c : Dev nD) (t : Fin cfg1.N) (r : Fin 256) (j : Fin 4096) (P : Fin 4096) (hP : P.val = 256 * t.val + r.val) :
    adjBlk V c t (ix2 r j) = adjArr V c (ix2 P j) := by
  obtain ⟨⟨e0, e1⟩, -⟩ := idx_facts t
  show iblk1 (F := Ideal) V c 0 t (ix2 r j) = V c main_call0_v1 (ix2 P j)
  unfold iblk1
  rw [View.read_apply]
  show V c main_call0_v1 _ = V c main_call0_v1 _
  congr 1
  funext a
  apply Fin.ext
  match a with
  | ⟨0, _⟩ => show win1_0.index t 0 * 256 + 1 * r.val = P.val; rw [e0, hP]; omega
  | ⟨1, _⟩ => show win1_0.index t 1 * 4096 + 1 * j.val = j.val; rw [e1]; omega

/-- The whole operand's block is the operand. -/
private theorem vAll_apply (c : Dev nD) (t : Fin cfg1.N) (y : S4096x256.Idx) (j : Fin 4096) (k : Fin 256) (h0 : (y 0).val = j.val) (h1 : (y 1).val = k.val) :
    vAll V c t y = vArr V c (ix2 j k) := by
  obtain ⟨-, ⟨e0, e1⟩, -⟩ := idx_facts t
  show iblk1 (F := Ideal) V c 1 t y = V c main_call0_v19_1 (ix2 j k)
  unfold iblk1
  rw [View.read_apply]
  show V c main_call0_v19_1 _ = V c main_call0_v19_1 _
  congr 1
  funext a
  apply Fin.ext
  match a with
  | ⟨0, _⟩ => show win1_1.index t 0 * 4096 + 1 * (y 0).val = j.val; rw [e0, h0]; omega
  | ⟨1, _⟩ => show win1_1.index t 1 * 256 + 1 * (y 1).val = k.val; rw [e1, h1]; omega

/-- Entry `r` of the scaling column's block at point `t` is entry `256 · t + r` of the column. -/
private theorem dBlk_apply (c : Dev nD) (t : Fin cfg1.N) (r : Fin 256) (u : Fin 1) (P : Fin 4096) (hP : P.val = 256 * t.val + r.val) :
    dBlk V c t (ix2 r u) = dArr V c (ix2 P u) := by
  obtain ⟨-, -, ⟨e0, e1⟩, -⟩ := idx_facts t
  show iblk1 (F := Ideal) V c 2 t (ix2 r u) = V c main_call0_v19_0 (ix2 P u)
  unfold iblk1
  rw [View.read_apply]
  show V c main_call0_v19_0 _ = V c main_call0_v19_0 _
  congr 1
  funext a
  apply Fin.ext
  match a with
  | ⟨0, _⟩ => show win1_2.index t 0 * 256 + 1 * r.val = P.val; rw [e0, hP]; omega
  | ⟨1, _⟩ => show win1_2.index t 1 * 1 + 1 * u.val = u.val; rw [e1]; omega

/-- The self-loop weight's block is its one entry. -/
private theorem laBlk_apply (c : Dev nD) (t : Fin cfg1.N) :
    laBlk V c t (ix2 (0 : Fin 1) (0 : Fin 1)) = laArr V c (ix2 (0 : Fin 1) (0 : Fin 1)) := by
  obtain ⟨-, -, -, ⟨e0, e1⟩, -⟩ := idx_facts t
  show iblk1 (F := Ideal) V c 3 t (ix2 (0 : Fin 1) (0 : Fin 1)) = V c main_call0_v2 (ix2 (0 : Fin 1) (0 : Fin 1))
  unfold iblk1
  rw [View.read_apply]
  show V c main_call0_v2 _ = V c main_call0_v2 _
  congr 1
  funext a
  apply Fin.ext
  match a with
  | ⟨0, _⟩ => show win1_3.index t 0 * 1 + 1 * 0 = 0; rw [e0]
  | ⟨1, _⟩ => show win1_3.index t 1 * 1 + 1 * 0 = 0; rw [e1]

/-- The weights' block is the weights. -/
private theorem wBlk_apply (c : Dev nD) (t : Fin cfg1.N) (k q : Fin 256) :
    wBlk V c t (ix2 k q) = wArr V c (ix2 k q) := by
  obtain ⟨-, -, -, -, ⟨e0, e1⟩, -⟩ := idx_facts t
  show iblk1 (F := Ideal) V c 4 t (ix2 k q) = V c main_call0_v7 (ix2 k q)
  unfold iblk1
  rw [View.read_apply]
  show V c main_call0_v7 _ = V c main_call0_v7 _
  congr 1
  funext a
  apply Fin.ext
  match a with
  | ⟨0, _⟩ => show win1_4.index t 0 * 256 + 1 * k.val = k.val; rw [e0]; omega
  | ⟨1, _⟩ => show win1_4.index t 1 * 256 + 1 * q.val = q.val; rw [e1]; omega

/-- The rows the body itself reads of the whole operand at point `t`: row `r` of them is row `256 · t + r`. -/
private theorem vRows_apply (c : Dev nD) (t : Fin cfg1.N) (r k : Fin 256) (P : Fin 4096) (hP : P.val = 256 * t.val + r.val) :
    View.ld (vAll V c t) (Rect.unit (s := S4096x256) (k1_off1 (grid1.coords t)) S256x256.size (k1_off1_inb (grid1.coords t))) (ix2 r k)
      = vArr V c (ix2 P k) := by
  obtain ⟨-, -, -, -, -, -, ⟨e0, e1⟩⟩ := idx_facts t
  show vAll V c t ((Rect.unit (s := S4096x256) (k1_off1 (grid1.coords t)) S256x256.size (k1_off1_inb (grid1.coords t))).toLoadRect.idx (ix2 r k)) = _
  refine vAll_apply V c t _ P k ?_ ?_
  · show k1_off1 (grid1.coords t) 0 + 1 * r.val = P.val; rw [e0, hP]; omega
  · show k1_off1 (grid1.coords t) 1 + 1 * k.val = k.val; rw [e1]; omega

/-! ## One point's block is its rows of the pass's result; the blocks tile the result -/

section Result
variable (c : Dev nD) (adj : Mat 4096 4096) (la : EReal) (d : Fin 4096 → EReal) (v : Mat 4096 256) (w2 : Mat 256 256)

/-- The pass's result as an array: `kLayer1` at the index's coordinates. -/
private abbrev resArr : Vec Ideal S4096x256 .f32 := fun i => kLayer1 adj la d v w2 (i 0) (i 1)

/-- At point `t`, entry `(r, q)` of what the body stores is entry `(256 · t + r, q)` of the pass's result. -/
private theorem point_value
    (hadj : ∀ a b, (V c main_call0_v1 : Vec Ideal S4096x4096 .f32) (ix2 a b) = adj a b)
    (hv : ∀ a b, (V c main_call0_v19_1 : Vec Ideal S4096x256 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (hw : ∀ a b, (V c main_call0_v7 : Vec Ideal S256x256 .f32) (ix2 a b) = w2 a b)
    (t : Fin cfg1.N) (r q : Fin 256) (P : Fin 4096) (hP : P.val = 256 * t.val + r.val) :
    k1_pay1 (F := Ideal) (laBlk V c t) (adjBlk V c t) (vAll V c t)
        (View.ld (vAll V c t) (Rect.unit (s := S4096x256) (k1_off1 (grid1.coords t)) S256x256.size (k1_off1_inb (grid1.coords t))))
        (dBlk V c t) (dBlk V c t) (wBlk V c t) (ix2 r q)
      = kLayer1 adj la d v w2 P q := by
  refine (pay_apply (laBlk V c t) (adjBlk V c t) (vAll V c t)
    (View.ld (vAll V c t) (Rect.unit (s := S4096x256) (k1_off1 (grid1.coords t)) S256x256.size (k1_off1_inb (grid1.coords t))))
    (dBlk V c t) (dBlk V c t) (wBlk V c t) r q).trans ?_
  have e_d : dBlk V c t (ix2 r (0 : Fin 1)) = d P := (dBlk_apply V c t r 0 P hP).trans (hd P 0)
  have e_la : laBlk V c t (ix2 (0 : Fin 1) (0 : Fin 1)) = la := (laBlk_apply V c t).trans hla
  have e_A : ∀ j : Fin 4096, adjBlk V c t (ix2 r j) = adj P j := fun j => (adjBlk_apply V c t r j P hP).trans (hadj P j)
  have e_v : ∀ (j : Fin 4096) (k : Fin 256), vAll V c t (ix2 j k) = v j k := fun j k => (vAll_apply V c t (ix2 j k) j k rfl rfl).trans (hv j k)
  have e_vr : ∀ k : Fin 256, View.ld (vAll V c t) (Rect.unit (s := S4096x256) (k1_off1 (grid1.coords t)) S256x256.size (k1_off1_inb (grid1.coords t))) (ix2 r k) = v P k :=
    fun k => (vRows_apply V c t r k P hP).trans (hv P k)
  have e_w : ∀ k : Fin 256, wBlk V c t (ix2 k q) = w2 k q := fun k => (wBlk_apply V c t k q).trans (hw k q)
  rw [e_d, e_la]
  unfold kLayer1 kScaledAgg kAgg
  refine congrArg (d P * ·) (Finset.sum_congr rfl fun k _ => ?_)
  rw [e_vr k, e_w k]
  refine congrArg (fun s => max (d P * (s + la * v P k)) 0 * w2 k q) (Finset.sum_congr rfl fun j _ => ?_)
  rw [e_A j, e_v j k]

/-- What point `t` writes back is its block of the pass's result. -/
private theorem flushed_eq
    (hadj : ∀ a b, (V c main_call0_v1 : Vec Ideal S4096x4096 .f32) (ix2 a b) = adj a b)
    (hv : ∀ a b, (V c main_call0_v19_1 : Vec Ideal S4096x256 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (hw : ∀ a b, (V c main_call0_v7 : Vec Ideal S256x256 .f32) (ix2 a b) = w2 a b)
    (t : Fin cfg1.N) :
    (dat1 (F := Ideal) V c).flushed 5 t = ((cfg1.win 5).blk t).view.read (Elt Ideal) (resArr adj la d v w2) := by
  show (cfg1.win 5).cut (grid1.coords t) ((dat1 (F := Ideal) V c).after 5 t) = _
  rw [after1_5]
  unfold outsAt1
  rw [out_piece (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 (F := Ideal) V c 0 t) (iblk1 (F := Ideal) V c 1 t) (iblk1 (F := Ideal) V c 2 t) (iblk1 (F := Ideal) V c 3 t) (iblk1 (F := Ideal) V c 4 t)]
  obtain ⟨-, -, -, -, -, ⟨e0, e1⟩, -⟩ := idx_facts t
  funext y
  obtain ⟨r, q, rfl⟩ : ∃ (r : Fin 256) (q : Fin 256), y = ix2 r q := ⟨y 0, y 1, eq_ix2 y⟩
  have hP : (((cfg1.win 5).blk t).view.emb (ix2 r q) 0).val = 256 * t.val + r.val := by
    show win1_5.index t 0 * 256 + 1 * r.val = _; rw [e0]; omega
  have hQ : ((cfg1.win 5).blk t).view.emb (ix2 r q) 1 = q := Fin.ext (by
    show win1_5.index t 1 * 256 + 1 * q.val = q.val; rw [e1]; omega)
  show k1_pay1 (F := Ideal) (laBlk V c t) (adjBlk V c t) (vAll V c t)
        (View.ld (vAll V c t) (Rect.unit (s := S4096x256) (k1_off1 (grid1.coords t)) S256x256.size (k1_off1_inb (grid1.coords t))))
        (dBlk V c t) (dBlk V c t) (wBlk V c t) (ix2 r q)
      = kLayer1 adj la d v w2 (((cfg1.win 5).blk t).view.emb (ix2 r q) 0) (((cfg1.win 5).blk t).view.emb (ix2 r q) 1)
  rw [hQ]
  exact point_value V c adj la d v w2 hadj hv hd hla hw t r q _ hP

/-- An index of the result array is in point `t`'s block iff its row is one of the block's 256 rows. -/
private theorem mem_blk (t : Fin cfg1.N) (i : S4096x256.Idx) :
    i ∈ ((cfg1.win 5).blk t).view.set ↔ ∀ a : Fin 2, win1_5.index t a * S256x256.size a ≤ (i a).val ∧ (i a).val < win1_5.index t a * S256x256.size a + S256x256.size a := by
  show i ∈ ((View.whole main_call0_v20).slice (win1_5.rect t)).set ↔ _
  rw [View.set_slice_whole, Rect.mem_set_unit]
  exact Iff.rfl

/-- Every row of the result lies in the block of the point `row / 256`. -/
private theorem cover (i : S4096x256.Idx) : ∃ t : Fin cfg1.N, (cfg1.win 5).flush t = true ∧ i ∈ ((cfg1.win 5).blk t).view.set := by
  have hN : cfg1.N = 16 := N_1
  have hi0 : (i 0).val < 4096 := (i 0).isLt
  have hi1 : (i 1).val < 256 := (i 1).isLt
  let t : Fin cfg1.N := ⟨(i 0).val / 256, by rw [hN]; omega⟩
  obtain ⟨-, -, -, -, -, ⟨e0, e1⟩, -⟩ := idx_facts t
  have ht : t.val = (i 0).val / 256 := rfl
  refine ⟨t, flush1_5 t, ?_⟩
  rw [mem_blk]
  intro a
  match a with
  | ⟨0, _⟩ => show win1_5.index t 0 * 256 ≤ (i 0).val ∧ (i 0).val < win1_5.index t 0 * 256 + 256; rw [e0, ht]; omega
  | ⟨1, _⟩ => show win1_5.index t 1 * 256 ≤ (i 1).val ∧ (i 1).val < win1_5.index t 1 * 256 + 256; rw [e1]; omega

end Result

/-- Pass 1's result array. -/
theorem dhw_apply (c : Dev nD) (adj : Mat 4096 4096) (la : EReal) (d : Fin 4096 → EReal) (v : Mat 4096 256) (w2 : Mat 256 256)
    (hadj : ∀ a b, (V c main_call0_v1 : Vec Ideal S4096x4096 .f32) (ix2 a b) = adj a b)
    (hv : ∀ a b, (V c main_call0_v19_1 : Vec Ideal S4096x256 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (hw : ∀ a b, (V c main_call0_v7 : Vec Ideal S256x256 .f32) (ix2 a b) = w2 a b)
    (p : Fin 4096) (q : Fin 256) :
    ((dat1 (F := Ideal) V c).arrAt 5 cfg1.N : Vec Ideal S4096x256 .f32) (ix2 p q) = kLayer1 adj la d v w2 p q := by
  have h := (dat1 (F := Ideal) V c).arrAt_eq_of_cover 5 (resArr adj la d v w2)
    (fun t _ => flushed_eq V c adj la d v w2 hadj hv hd hla hw t) cover
  exact congrFun h (ix2 p q)

end Cert.KernelIdeal.Region1

end
-- ==== Proof.Region2.lean ====
import proofs.«117501_g49246095016346_cont_8to1c4_490_2_alg».proof.Proof.Gen.KernelIdeal.Frame
import proofs.«117501_g49246095016346_cont_8to1c4_490_2_alg».proof.Proof.Spec
import Idealize.ShloMosaic.Lib.Pipeline.Value
import Idealize.ShloMosaic.Lib.ValueIdx
import Idealize.ShloMosaic.PureOps.Ideal.Laws
import Idealize.ShloMosaic.Lib.ValueLayout
import proofs.«117501_g49246095016346_cont_8to1c4_490_2_alg».proof.Proof.LibLastAxis

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gcn

variable (V : (c : Dev nD) → (b : Ref sig .tc) → Buf (Elt Ideal) ((c : Thread nD τ).loc b))

section Pieces

variable {F : FTy → Type} [FloatOps F]

/-- The zero offsets of a rank-two access, however they are spelt. -/
theorem hz : (![0, 0] : Fin 2 → Nat) = fun _ => 0 := funext fun a => by fin_cases a <;> rfl

/-- Rows `256·i … 256·i + 255` of the whole `v` buffer, as the body itself loads them at grid point `i`. -/
abbrev vrows (i : grid2.Coords) (x1 : Vec F S4096x256 .f32) : Vec F S256x256 .f32 :=
  View.ld x1 (Rect.unit (s := S4096x256) (k2_off1 i) S256x256.size (k2_off1_inb i))

/-- What the body leaves in the first output's block: the left half of the scaled aggregate of its loads. -/
theorem out7_eq (c : Dev nD) (i : grid2.Coords) (a1 : Memref sig .tc .vmem S256x4096 .f32) (h1 : a1.IsWhole) (a2 : Memref sig .tc .vmem S4096x256 .f32) (h2 : a2.IsWhole) (a3 : Memref sig .tc .vmem S256x1 .f32) (h3 : a3.IsWhole) (a4 : Memref sig .tc .vmem S1x1 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole) (a11 : Memref sig .tc .vmem S256x128 .f32) (h11 : a11.IsWhole)
    (x0 : Vec F S256x4096 .f32) (x1 : Vec F S4096x256 .f32) (x2 : Vec F S256x1 .f32) (x3 : Vec F S1x1 .f32) (x4 : Vec F S128x128 .f32) (x5 : Vec F S128x128 .f32) (x6 : Vec F S1x128 .f32) :
    out2_A_7 c i a1 h1 a2 h2 a3 h3 a4 h4 a5 h5 a6 h6 a7 h7 a8 h8 a9 h9 a10 h10 a11 h11 x0 x1 x2 x3 x4 x5 x6 = k2_pay3 x3 x0 x1 (vrows i x1) x2 := by
  unfold out2_A_7
  rw [View.read_writes_eq_canon _ _ _ (cover2_A_7 c i a1 h1 a2 h2 a3 h3 a4 h4 a5 h5 a6 h6 a7 h7 a8 h8 a9 h9 a10 h10 a11 h11 x0 x1 x2 x3 x4 x5 x6)]
  unfold kernelRun2_A
  dsimp only
  try sl_unfold_words
  rw [View.canon_unit_zero hz]
  simp only [View.readAt_eq_ld, h1.read_unread, h2.read_unread, h3.read_unread, h4.read_unread,
    View.ld_unit_zero (S := S256x4096) hz, View.ld_unit_zero (S := S4096x256) hz, View.ld_unit_zero (S := S256x1) hz,
    View.ld_unit_zero (S := S1x1) hz]
  rfl

/-- What the body leaves in the second output's block: the right half of the scaled aggregate of its loads. -/
theorem out8_eq (c : Dev nD) (i : grid2.Coords) (a1 : Memref sig .tc .vmem S256x4096 .f32) (h1 : a1.IsWhole) (a2 : Memref sig .tc .vmem S4096x256 .f32) (h2 : a2.IsWhole) (a3 : Memref sig .tc .vmem S256x1 .f32) (h3 : a3.IsWhole) (a4 : Memref sig .tc .vmem S1x1 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole) (a11 : Memref sig .tc .vmem S256x128 .f32) (h11 : a11.IsWhole)
    (x0 : Vec F S256x4096 .f32) (x1 : Vec F S4096x256 .f32) (x2 : Vec F S256x1 .f32) (x3 : Vec F S1x1 .f32) (x4 : Vec F S128x128 .f32) (x5 : Vec F S128x128 .f32) (x6 : Vec F S1x128 .f32) :
    out2_A_8 c i a1 h1 a2 h2 a3 h3 a4 h4 a5 h5 a6 h6 a7 h7 a8 h8 a9 h9 a10 h10 a11 h11 x0 x1 x2 x3 x4 x5 x6 = k2_pay4 x3 x0 x1 (vrows i x1) x2 := by
  unfold out2_A_8
  rw [View.read_writes_eq_canon _ _ _ (cover2_A_8 c i a1 h1 a2 h2 a3 h3 a4 h4 a5 h5 a6 h6 a7 h7 a8 h8 a9 h9 a10 h10 a11 h11 x0 x1 x2 x3 x4 x5 x6)]
  unfold kernelRun2_A
  dsimp only
  try sl_unfold_words
  rw [View.canon_unit_zero hz]
  simp only [View.readAt_eq_ld, h1.read_unread, h2.read_unread, h3.read_unread, h4.read_unread,
    View.ld_unit_zero (S := S256x4096) hz, View.ld_unit_zero (S := S4096x256) hz, View.ld_unit_zero (S := S256x1) hz,
    View.ld_unit_zero (S := S1x1) hz]
  rfl

/-- What the body leaves in the third output's block: the head's projection of the left half, plus the bias row. -/
theorem out9_eq (c : Dev nD) (i : grid2.Coords) (a1 : Memref sig .tc .vmem S256x4096 .f32) (h1 : a1.IsWhole) (a2 : Memref sig .tc .vmem S4096x256 .f32) (h2 : a2.IsWhole) (a3 : Memref sig .tc .vmem S256x1 .f32) (h3 : a3.IsWhole) (a4 : Memref sig .tc .vmem S1x1 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole) (a11 : Memref sig .tc .vmem S256x128 .f32) (h11 : a11.IsWhole)
    (x0 : Vec F S256x4096 .f32) (x1 : Vec F S4096x256 .f32) (x2 : Vec F S256x1 .f32) (x3 : Vec F S1x1 .f32) (x4 : Vec F S128x128 .f32) (x5 : Vec F S128x128 .f32) (x6 : Vec F S1x128 .f32) :
    out2_A_9 c i a1 h1 a2 h2 a3 h3 a4 h4 a5 h5 a6 h6 a7 h7 a8 h8 a9 h9 a10 h10 a11 h11 x0 x1 x2 x3 x4 x5 x6 = k2_pay5 x3 x0 x1 (vrows i x1) x2 x5 x6 := by
  unfold out2_A_9
  rw [View.read_writes_eq_canon _ _ _ (cover2_A_9 c i a1 h1 a2 h2 a3 h3 a4 h4 a5 h5 a6 h6 a7 h7 a8 h8 a9 h9 a10 h10 a11 h11 x0 x1 x2 x3 x4 x5 x6)]
  unfold kernelRun2_A
  dsimp only
  try sl_unfold_words
  rw [View.canon_unit_zero hz]
  simp only [View.readAt_eq_ld, h1.read_unread, h2.read_unread, h3.read_unread, h4.read_unread, h6.read_unread, h7.read_unread,
    View.ld_unit_zero (S := S256x4096) hz, View.ld_unit_zero (S := S4096x256) hz, View.ld_unit_zero (S := S256x1) hz,
    View.ld_unit_zero (S := S1x1) hz, View.ld_unit_zero (S := S128x128) hz, View.ld_unit_zero (S := S1x128) hz]
  rfl

/-- What the body leaves in the fourth output's block: the decoder's projection of the right half, scaled by the row. -/
theorem out10_eq (c : Dev nD) (i : grid2.Coords) (a1 : Memref sig .tc .vmem S256x4096 .f32) (h1 : a1.IsWhole) (a2 : Memref sig .tc .vmem S4096x256 .f32) (h2 : a2.IsWhole) (a3 : Memref sig .tc .vmem S256x1 .f32) (h3 : a3.IsWhole) (a4 : Memref sig .tc .vmem S1x1 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole) (a11 : Memref sig .tc .vmem S256x128 .f32) (h11 : a11.IsWhole)
    (x0 : Vec F S256x4096 .f32) (x1 : Vec F S4096x256 .f32) (x2 : Vec F S256x1 .f32) (x3 : Vec F S1x1 .f32) (x4 : Vec F S128x128 .f32) (x5 : Vec F S128x128 .f32) (x6 : Vec F S1x128 .f32) :
    out2_A_10 c i a1 h1 a2 h2 a3 h3 a4 h4 a5 h5 a6 h6 a7 h7 a8 h8 a9 h9 a10 h10 a11 h11 x0 x1 x2 x3 x4 x5 x6 = k2_pay1 (k2_pay4 x3 x0 x1 (vrows i x1) x2) (k2_pay6 x2) x4 := by
  unfold out2_A_10
  rw [View.read_writes_eq_canon _ _ _ (cover2_A_10 c i a1 h1 a2 h2 a3 h3 a4 h4 a5 h5 a6 h6 a7 h7 a8 h8 a9 h9 a10 h10 a11 h11 x0 x1 x2 x3 x4 x5 x6)]
  unfold kernelRun2_A
  dsimp only
  try sl_unfold_words
  rw [View.canon_unit_zero hz]
  simp only [View.readAt_eq_ld, h1.read_unread, h2.read_unread, h3.read_unread, h4.read_unread, h5.read_unread,
    View.ld_unit_zero (S := S256x4096) hz, View.ld_unit_zero (S := S4096x256) hz, View.ld_unit_zero (S := S256x1) hz,
    View.ld_unit_zero (S := S1x1) hz, View.ld_unit_zero (S := S128x128) hz]
  rfl

end Pieces

/-! ## The body's arithmetic at an index, at the exact values -/

/-- The aggregation's product: output row `(i 0)` … -/
theorem lhs_agg_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
/-- … against the contraction coordinate on the left operand's columns, -/
theorem lhs_agg_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
/-- the same coordinate on the right operand's rows, -/
theorem rhs_agg_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
/-- and output column `(i 1)`. -/
theorem rhs_agg_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- A `[256, 4096] × [4096, 256]` product into the zero block, at `(p, q)`: `Σ_k A p k · B k q`. -/
theorem agg_matmul_apply (A : FVec Ideal S256x4096 .f32) (B : FVec Ideal S4096x256 .f32) (p q : Fin 256) :
    matmul dot_S256x4096_S4096x256_S256x256_1_0_0_1_n_n none A B (constant (F := Ideal) S256x256 .f32 0x00000000#32) (ix2 p q)
      = ∑ k : Fin 4096, A (ix2 p k) * B (ix2 k q) := by
  refine (Ideal.matmul_constant_zero_apply dot_S256x4096_S4096x256_S256x256_1_0_0_1_n_n none A B (ix2 p q)).trans ?_
  rw [← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q) ((contrEquiv1 dot_S256x4096_S4096x256_S256x256_1_0_0_1_n_n 4096 rfl rfl).symm k) = ix2 p k := funext fun a => Fin.ext (by
    match a with
    | ⟨0, _⟩ => exact lhs_agg_0 _ _
    | ⟨1, _⟩ => exact (lhs_agg_1 _ _).trans hk)
  have er : dot_S256x4096_S4096x256_S256x256_1_0_0_1_n_n.rhsIdx (ix2 p q) ((contrEquiv1 dot_S256x4096_S4096x256_S256x256_1_0_0_1_n_n 4096 rfl rfl).symm k) = ix2 k q := funext fun a => Fin.ext (by
    match a with
    | ⟨0, _⟩ => exact (rhs_agg_0 _ _).trans hk
    | ⟨1, _⟩ => exact rhs_agg_1 _ _)
  rw [el, er]

/-- The projections' product: output row `(i 0)` … -/
theorem lhs_proj_0 (i : S256x128.Idx) (q : dot_S256x128_S128x128_S256x128_1_0_0_1_n_n.contr.Idx) :
    (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
/-- … against the contraction coordinate on the left operand's columns, -/
theorem lhs_proj_1 (i : S256x128.Idx) (q : dot_S256x128_S128x128_S256x128_1_0_0_1_n_n.contr.Idx) :
    (dot_S256x128_S128x128_S256x128_1_0_0_1_n_n.lhsIdx i q 1).val = (q ⟨0, by decide⟩).val :=
  dot_S256x128_S128x128_S256x128_1_0_0_1_n_n.lhsIdx_val_of_single rfl i q
/-- the same coordinate on the right operand's rows, -/
theorem rhs_proj_0 (i : S256x128.Idx) (q : dot_S256x128_S128x128_S256x128_1_0_0_1_n_n.contr.Idx) :
    (dot_S256x128_S128x128_S256x128_1_0_0_1_n_n.rhsIdx i q 0).val = (q ⟨0, by decide⟩).val :=
  dot_S256x128_S128x128_S256x128_1_0_0_1_n_n.rhsIdx_val_of_single rfl i q
/-- and output column `(i 1)`. -/
theorem rhs_proj_1 (i : S256x128.Idx) (q : dot_S256x128_S128x128_S256x128_1_0_0_1_n_n.contr.Idx) :
    (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- A `[256, 128] × [128, 128]` product into the zero block, at `(p, q)`: `Σ_k A p k · B k q`. -/
theorem proj_matmul_apply (A : FVec Ideal S256x128 .f32) (B : FVec Ideal S128x128 .f32) (p : Fin 256) (q : Fin 128) :
    matmul dot_S256x128_S128x128_S256x128_1_0_0_1_n_n none A B (constant (F := Ideal) S256x128 .f32 0x00000000#32) (ix2 p q)
      = ∑ k : Fin 128, A (ix2 p k) * B (ix2 k q) := by
  refine (Ideal.matmul_constant_zero_apply dot_S256x128_S128x128_S256x128_1_0_0_1_n_n none A B (ix2 p q)).trans ?_
  rw [← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 p q) ((contrEquiv1 dot_S256x128_S128x128_S256x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S256x128_S128x128_S256x128_1_0_0_1_n_n.rhsIdx (ix2 p q) ((contrEquiv1 dot_S256x128_S128x128_S256x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-- The one entry of a `[1, 1]` array, taken out as a number. -/
theorem extract00 {α : Type} (v0 : S1x1.Idx → α) (h : ∀ a, (![0, 0] : Fin 2 → Nat) a < S1x1.size a) :
    extractAt ![0, 0] v0 h = v0 (ix2 (0 : Fin 1) (0 : Fin 1)) := by
  unfold extractAt
  congr 1
  funext a
  apply Fin.ext
  match a with
  | ⟨0, _⟩ => rfl
  | ⟨1, _⟩ => rfl

/-- The scaled aggregate of the body's loads, at `(p, q)`: the row's scale times (the row of the adjacency block
    against column `q` of `v`, plus the loop weight times the row's own entry of `v`). -/
theorem pay2_apply (v0 : FVec Ideal S1x1 .f32) (v2 : FVec Ideal S256x4096 .f32) (v4 : FVec Ideal S4096x256 .f32)
    (v9 : FVec Ideal S256x256 .f32) (v14 : FVec Ideal S256x1 .f32) (p q : Fin 256) :
    k2_pay2 (F := Ideal) v0 v2 v4 v9 v14 (ix2 p q)
      = v14 (ix2 p (0 : Fin 1)) * ((∑ k : Fin 4096, v2 (ix2 p k) * v4 (ix2 k q)) + v0 (ix2 (0 : Fin 1) (0 : Fin 1)) * v9 (ix2 p q)) := by
  unfold k2_pay2
  have e1 : broadcastTo S256x256 (shapeCast S256x1 v14 shapeCasts_S256x1_S256x1) broadcasts_S256x1_S256x256 (ix2 p q)
      = v14 (ix2 p (0 : Fin 1)) :=
    (Cert.LastAxis.broadcastTo_a1_ab_apply _ broadcasts_S256x1_S256x256 p q).trans (congrFun (shapeCast_self v14 _) _)
  have e2 : matmul dot_S256x4096_S4096x256_S256x256_1_0_0_1_n_n none (shapeCast S256x4096 v2 shapeCasts_S256x4096_S256x4096)
      (shapeCast S4096x256 v4 shapeCasts_S4096x256_S4096x256) (constant (F := Ideal) S256x256 .f32 0x00000000#32) (ix2 p q)
      = ∑ k : Fin 4096, v2 (ix2 p k) * v4 (ix2 k q) := by
    rw [shapeCast_self v2, shapeCast_self v4]; exact agg_matmul_apply v2 v4 p q
  have e3 := extract00 v0 inpos_S1x1_p0_0
  have e4 : shapeCast S256x256 v9 shapeCasts_S256x256_S256x256 (ix2 p q) = v9 (ix2 p q) := congrFun (shapeCast_self v9 _) _
  simp only [mulf_apply, addf_apply, broadcast_apply]
  rw [e1, e2, e3, e4]

/-- The left half of a `[256, 256]` block at `(r, q)` is the block at `(r, q)`. -/
theorem pay3_apply (v0 : FVec Ideal S1x1 .f32) (v2 : FVec Ideal S256x4096 .f32) (v4 : FVec Ideal S4096x256 .f32)
    (v9 : FVec Ideal S256x256 .f32) (v14 : FVec Ideal S256x1 .f32) (r : Fin 256) (q : Fin 128) :
    k2_pay3 (F := Ideal) v0 v2 v4 v9 v14 (ix2 r q)
      = k2_pay2 (F := Ideal) v0 v2 v4 v9 v14 (ix2 r (⟨q.val, by have := q.isLt; omega⟩ : Fin 256)) := by
  unfold k2_pay3
  exact slice2_axis1_apply 0 (k2_pay2 (F := Ideal) v0 v2 v4 v9 v14) slices_S256x256_o0_0_S256x128 r q _ (Nat.zero_add _).symm

/-- The right half of a `[256, 256]` block at `(r, q)` is the block at `(r, 128 + q)`. -/
theorem pay4_apply (v0 : FVec Ideal S1x1 .f32) (v2 : FVec Ideal S256x4096 .f32) (v4 : FVec Ideal S4096x256 .f32)
    (v9 : FVec Ideal S256x256 .f32) (v14 : FVec Ideal S256x1 .f32) (r : Fin 256) (q : Fin 128) :
    k2_pay4 (F := Ideal) v0 v2 v4 v9 v14 (ix2 r q)
      = k2_pay2 (F := Ideal) v0 v2 v4 v9 v14 (ix2 r (⟨128 + q.val, by have := q.isLt; omega⟩ : Fin 256)) := by
  unfold k2_pay4
  exact slice2_axis1_apply 128 (k2_pay2 (F := Ideal) v0 v2 v4 v9 v14) slices_S256x256_o0_128_S256x128 r q _ rfl

/-- The head's block at `(r, q)`: the left half's row against column `q` of the head's weights, plus the bias at `q`. -/
theorem pay5_apply (v0 : FVec Ideal S1x1 .f32) (v2 : FVec Ideal S256x4096 .f32) (v4 : FVec Ideal S4096x256 .f32)
    (v9 : FVec Ideal S256x256 .f32) (v14 : FVec Ideal S256x1 .f32) (v22 : FVec Ideal S128x128 .f32) (v25 : FVec Ideal S1x128 .f32)
    (r : Fin 256) (q : Fin 128) :
    k2_pay5 (F := Ideal) v0 v2 v4 v9 v14 v22 v25 (ix2 r q)
      = (∑ k : Fin 128, k2_pay3 (F := Ideal) v0 v2 v4 v9 v14 (ix2 r k) * v22 (ix2 k q)) + v25 (ix2 (0 : Fin 1) q) := by
  unfold k2_pay5
  have e1 : matmul dot_S256x128_S128x128_S256x128_1_0_0_1_n_n none (k2_pay3 (F := Ideal) v0 v2 v4 v9 v14) (shapeCast S128x128 v22 shapeCasts_S128x128_S128x128)
      (constant (F := Ideal) S256x128 .f32 0x00000000#32) (ix2 r q)
      = ∑ k : Fin 128, k2_pay3 (F := Ideal) v0 v2 v4 v9 v14 (ix2 r k) * v22 (ix2 k q) := by
    rw [shapeCast_self v22]; exact proj_matmul_apply _ v22 r q
  have e2 : broadcastTo S256x128 (shapeCast S1x128 v25 shapeCasts_S1x128_S1x128) broadcasts_S1x128_S256x128 (ix2 r q)
      = v25 (ix2 (0 : Fin 1) q) :=
    (broadcastTo_1b_ab_apply _ broadcasts_S1x128_S256x128 r q).trans (congrFun (shapeCast_self v25 _) _)
  simp only [addf_apply]
  rw [e1, e2]

/-- The row scales pass through their identity cast unchanged. -/
theorem pay6_eq (v30 : FVec Ideal S256x1 .f32) : k2_pay6 (F := Ideal) v30 = v30 := by
  unfold k2_pay6
  exact shapeCast_self v30 _

/-- The decoder's block at `(r, q)`: the row's scale times the given half's row against column `q` of the decoder's weights. -/
theorem pay1_apply (v19 : FVec Ideal S256x128 .f32) (v31 : FVec Ideal S256x1 .f32) (v32 : FVec Ideal S128x128 .f32)
    (r : Fin 256) (q : Fin 128) :
    k2_pay1 (F := Ideal) v19 v31 v32 (ix2 r q)
      = v31 (ix2 r (0 : Fin 1)) * ∑ k : Fin 128, v19 (ix2 r k) * v32 (ix2 k q) := by
  unfold k2_pay1
  have e1 : matmul dot_S256x128_S128x128_S256x128_1_0_0_1_n_n none v19 (shapeCast S128x128 v32 shapeCasts_S128x128_S128x128)
      (constant (F := Ideal) S256x128 .f32 0x00000000#32) (ix2 r q)
      = ∑ k : Fin 128, v19 (ix2 r k) * v32 (ix2 k q) := by
    rw [shapeCast_self v32]; exact proj_matmul_apply v19 v32 r q
  have e2 : broadcastTo S256x128 v31 broadcasts_S256x1_S256x128 (ix2 r q) = v31 (ix2 r (0 : Fin 1)) :=
    Cert.LastAxis.broadcastTo_a1_ab_apply v31 broadcasts_S256x1_S256x128 r q
  simp only [mulf_apply]
  rw [e1, e2]

/-! ## The blocks at a point, read off the region's entry contents -/

/-- The index maps of the row-block windows over the grid: at point `t` the block index is `(t, 0)`. -/
theorem idx_rows : ∀ t : Fin cfg2.N,
    (win2_0.index t 0 = t.val ∧ win2_0.index t 1 = 0) ∧ (win2_2.index t 0 = t.val ∧ win2_2.index t 1 = 0)
    ∧ (win2_7.index t 0 = t.val ∧ win2_7.index t 1 = 0) ∧ (win2_8.index t 0 = t.val ∧ win2_8.index t 1 = 0)
    ∧ (win2_9.index t 0 = t.val ∧ win2_9.index t 1 = 0) ∧ (win2_10.index t 0 = t.val ∧ win2_10.index t 1 = 0) :=
  (by decide +kernel : ∀ t : Fin grid2.N, _)

/-- The index maps of the whole-array windows over the grid: the block index is `(0, 0)` at every point. -/
theorem idx_whole : ∀ t : Fin cfg2.N,
    (win2_1.index t 0 = 0 ∧ win2_1.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_6.index t 0 = 0 ∧ win2_6.index t 1 = 0) :=
  (by decide +kernel : ∀ t : Fin grid2.N, _)

/-- The body's own load of `v` at point `t` starts at row `256·t`, column `0`. -/
theorem off_rows : ∀ t : Fin cfg2.N, k2_off1 (grid2.coords t) 0 = 256 * t.val ∧ k2_off1 (grid2.coords t) 1 = 0 :=
  (by decide +kernel : ∀ t : Fin grid2.N, _)

/-- Each input block at a point, by its literal type. -/
abbrev adjB (c : Dev nD) (t : Fin cfg2.N) : Vec Ideal S256x4096 .f32 := iblk2 V c 0 t
abbrev vB (c : Dev nD) (t : Fin cfg2.N) : Vec Ideal S4096x256 .f32 := iblk2 V c 1 t
abbrev dB (c : Dev nD) (t : Fin cfg2.N) : Vec Ideal S256x1 .f32 := iblk2 V c 2 t
abbrev laB (c : Dev nD) (t : Fin cfg2.N) : Vec Ideal S1x1 .f32 := iblk2 V c 3 t
abbrev wdB (c : Dev nD) (t : Fin cfg2.N) : Vec Ideal S128x128 .f32 := iblk2 V c 4 t
abbrev wmB (c : Dev nD) (t : Fin cfg2.N) : Vec Ideal S128x128 .f32 := iblk2 V c 5 t
abbrev bB (c : Dev nD) (t : Fin cfg2.N) : Vec Ideal S1x128 .f32 := iblk2 V c 6 t

/-- Row `r` of the adjacency block at point `t` is row `256·t + r` of the adjacency. -/
theorem adjB_apply (c : Dev nD) (t : Fin cfg2.N) (r : Fin 256) (k : Fin 4096) (P : Fin 4096) (hP : P.val = 256 * t.val + r.val) :
    adjB V c t (ix2 r k) = (V c main_call0_v1 : Vec Ideal S4096x4096 .f32) (ix2 P k) := by
  obtain ⟨⟨e0, e1⟩, -⟩ := idx_rows t
  unfold adjB iblk2
  rw [View.read_apply]
  show V c main_call0_v1 _ = V c main_call0_v1 _
  congr 1
  funext a
  apply Fin.ext
  match a with
  | ⟨0, _⟩ => show win2_0.index t 0 * 256 + 1 * r.val = P.val; rw [e0, hP]; omega
  | ⟨1, _⟩ => show win2_0.index t 1 * 4096 + 1 * k.val = k.val; rw [e1]; omega

/-- The `v` window's block is the whole array at every point. -/
theorem vB_apply (c : Dev nD) (t : Fin cfg2.N) (k : Fin 4096) (q : Fin 256) :
    vB V c t (ix2 k q) = (V c main_call0_v20 : Vec Ideal S4096x256 .f32) (ix2 k q) := by
  obtain ⟨⟨e0, e1⟩, -⟩ := idx_whole t
  unfold vB iblk2
  rw [View.read_apply]
  show V c main_call0_v20 _ = V c main_call0_v20 _
  congr 1
  funext a
  apply Fin.ext
  match a with
  | ⟨0, _⟩ => show win2_1.index t 0 * 4096 + 1 * k.val = k.val; rw [e0]; omega
  | ⟨1, _⟩ => show win2_1.index t 1 * 256 + 1 * q.val = q.val; rw [e1]; omega

/-- Row `r` of the scale block at point `t` is entry `256·t + r` of the scales. -/
theorem dB_apply (c : Dev nD) (t : Fin cfg2.N) (r : Fin 256) (u : Fin 1) (P : Fin 4096) (hP : P.val = 256 * t.val + r.val) :
    dB V c t (ix2 r u) = (V c main_call0_v19_0 : Vec Ideal S4096x1 .f32) (ix2 P u) := by
  obtain ⟨-, ⟨e0, e1⟩, -⟩ := idx_rows t
  unfold dB iblk2
  rw [View.read_apply]
  show V c main_call0_v19_0 _ = V c main_call0_v19_0 _
  congr 1
  funext a
  apply Fin.ext
  match a with
  | ⟨0, _⟩ => show win2_2.index t 0 * 256 + 1 * r.val = P.val; rw [e0, hP]; omega
  | ⟨1, _⟩ => show win2_2.index t 1 * 1 + 1 * u.val = u.val; rw [e1]; omega

/-- The loop weight's block is its one-entry array. -/
theorem laB_apply (c : Dev nD) (t : Fin cfg2.N) :
    laB V c t (ix2 (0 : Fin 1) (0 : Fin 1)) = (V c main_call0_v2 : Vec Ideal S1x1 .f32) (ix2 (0 : Fin 1) (0 : Fin 1)) := by
  obtain ⟨-, ⟨e0, e1⟩, -⟩ := idx_whole t
  unfold laB iblk2
  rw [View.read_apply]
  show V c main_call0_v2 _ = V c main_call0_v2 _
  congr 1
  funext a
  apply Fin.ext
  match a with
  | ⟨0, _⟩ => show win2_3.index t 0 * 1 + 1 * 0 = 0; rw [e0]
  | ⟨1, _⟩ => show win2_3.index t 1 * 1 + 1 * 0 = 0; rw [e1]

/-- The body's own rows of `v` at point `t`: row `r` is row `256·t + r` of the block it is given. -/
theorem vrows_apply (t : Fin cfg2.N) (x1 : Vec Ideal S4096x256 .f32) (r q : Fin 256) (P : Fin 4096) (hP : P.val = 256 * t.val + r.val) :
    vrows (F := Ideal) (grid2.coords t) x1 (ix2 r q) = x1 (ix2 P q) := by
  obtain ⟨o0, o1⟩ := off_rows t
  show x1 _ = x1 _
  congr 1
  funext a
  apply Fin.ext
  match a with
  | ⟨0, _⟩ => show k2_off1 (grid2.coords t) 0 + 1 * r.val = P.val; rw [o0, hP]; omega
  | ⟨1, _⟩ => show k2_off1 (grid2.coords t) 1 + 1 * q.val = q.val; rw [o1]; omega

/-- The decoder's weights: the window's block is the whole array. -/
theorem wdB_apply (c : Dev nD) (t : Fin cfg2.N) (k q : Fin 128) :
    wdB V c t (ix2 k q) = (V c main_call0_v10 : Vec Ideal S128x128 .f32) (ix2 k q) := by
  obtain ⟨-, -, ⟨e0, e1⟩, -⟩ := idx_whole t
  unfold wdB iblk2
  rw [View.read_apply]
  show V c main_call0_v10 _ = V c main_call0_v10 _
  congr 1
  funext a
  apply Fin.ext
  match a with
  | ⟨0, _⟩ => show win2_4.index t 0 * 128 + 1 * k.val = k.val; rw [e0]; omega
  | ⟨1, _⟩ => show win2_4.index t 1 * 128 + 1 * q.val = q.val; rw [e1]; omega

/-- The head's weights: the window's block is the whole array. -/
theorem wmB_apply (c : Dev nD) (t : Fin cfg2.N) (k q : Fin 128) :
    wmB V c t (ix2 k q) = (V c main_call0_v13 : Vec Ideal S128x128 .f32) (ix2 k q) := by
  obtain ⟨-, -, -, ⟨e0, e1⟩, -⟩ := idx_whole t
  unfold wmB iblk2
  rw [View.read_apply]
  show V c main_call0_v13 _ = V c main_call0_v13 _
  congr 1
  funext a
  apply Fin.ext
  match a with
  | ⟨0, _⟩ => show win2_5.index t 0 * 128 + 1 * k.val = k.val; rw [e0]; omega
  | ⟨1, _⟩ => show win2_5.index t 1 * 128 + 1 * q.val = q.val; rw [e1]; omega

/-- The head's bias row: the window's block is the whole array. -/
theorem bB_apply (c : Dev nD) (t : Fin cfg2.N) (u : Fin 1) (q : Fin 128) :
    bB V c t (ix2 u q) = (V c main_call0_v18 : Vec Ideal S1x128 .f32) (ix2 u q) := by
  obtain ⟨-, -, -, -, e0, e1⟩ := idx_whole t
  unfold bB iblk2
  rw [View.read_apply]
  show V c main_call0_v18 _ = V c main_call0_v18 _
  congr 1
  funext a
  apply Fin.ext
  match a with
  | ⟨0, _⟩ => show win2_6.index t 0 * 1 + 1 * u.val = u.val; rw [e0]; omega
  | ⟨1, _⟩ => show win2_6.index t 1 * 128 + 1 * q.val = q.val; rw [e1]; omega

/-- An index of the first output's array lies in point `t`'s block iff each coordinate lies in the block's range. -/
theorem mem_blk7 (t : Fin cfg2.N) (i : S4096x128.Idx) :
    i ∈ ((cfg2.win 7).blk t).view.set ↔ ∀ a : Fin 2, win2_7.index t a * S256x128.size a ≤ (i a).val ∧ (i a).val < win2_7.index t a * S256x128.size a + S256x128.size a := by
  show i ∈ ((View.whole main_v0_2).slice (win2_7.rect t)).set ↔ _
  rw [View.set_slice_whole, Rect.mem_set_unit]
  exact Iff.rfl

/-- Row `r` of the first output's array is written back by point `r / 256`. -/
theorem cover7 (i : S4096x128.Idx) : ∃ t : Fin cfg2.N, (cfg2.win 7).flush t = true ∧ i ∈ ((cfg2.win 7).blk t).view.set := by
  have h0 : (i 0).val < 4096 := (i 0).isLt
  have h1 : (i 1).val < 128 := (i 1).isLt
  have hN : cfg2.N = 16 := N_2
  have ht : (i 0).val / 256 < cfg2.N := by rw [hN]; omega
  refine ⟨⟨(i 0).val / 256, ht⟩, flush2_7 _, ?_⟩
  rw [mem_blk7]
  obtain ⟨-, -, ⟨e0, e1⟩, -⟩ := idx_rows ⟨(i 0).val / 256, ht⟩
  have e0' : win2_7.index ⟨(i 0).val / 256, ht⟩ 0 = (i 0).val / 256 := e0
  intro a
  match a with
  | ⟨0, _⟩ =>
    show win2_7.index ⟨(i 0).val / 256, ht⟩ 0 * 256 ≤ (i 0).val ∧ (i 0).val < win2_7.index ⟨(i 0).val / 256, ht⟩ 0 * 256 + 256
    rw [e0']; omega
  | ⟨1, _⟩ =>
    show win2_7.index ⟨(i 0).val / 256, ht⟩ 1 * 128 ≤ (i 1).val ∧ (i 1).val < win2_7.index ⟨(i 0).val / 256, ht⟩ 1 * 128 + 128
    rw [e1]; omega

/-- An entry `(r, q)` of point `t`'s block of the first output's array is entry `(256·t + r, q)` of the array. -/
theorem emb7 (t : Fin cfg2.N) (r : Fin 256) (q : Fin 128) (P : Fin 4096) (hP : P.val = 256 * t.val + r.val) :
    ((cfg2.win 7).blk t).view.emb (ix2 r q) = (ix2 P q : S4096x128.Idx) := by
  obtain ⟨-, -, ⟨e0, e1⟩, -⟩ := idx_rows t
  funext a
  apply Fin.ext
  match a with
  | ⟨0, _⟩ => show win2_7.index t 0 * 256 + 1 * r.val = P.val; rw [e0, hP]; omega
  | ⟨1, _⟩ => show win2_7.index t 1 * 128 + 1 * q.val = q.val; rw [e1]; omega

/-- An index of the second output's array lies in point `t`'s block iff each coordinate lies in the block's range. -/
theorem mem_blk8 (t : Fin cfg2.N) (i : S4096x128.Idx) :
    i ∈ ((cfg2.win 8).blk t).view.set ↔ ∀ a : Fin 2, win2_8.index t a * S256x128.size a ≤ (i a).val ∧ (i a).val < win2_8.index t a * S256x128.size a + S256x128.size a := by
  show i ∈ ((View.whole main_v0_3).slice (win2_8.rect t)).set ↔ _
  rw [View.set_slice_whole, Rect.mem_set_unit]
  exact Iff.rfl

/-- Row `r` of the second output's array is written back by point `r / 256`. -/
theorem cover8 (i : S4096x128.Idx) : ∃ t : Fin cfg2.N, (cfg2.win 8).flush t = true ∧ i ∈ ((cfg2.win 8).blk t).view.set := by
  have h0 : (i 0).val < 4096 := (i 0).isLt
  have h1 : (i 1).val < 128 := (i 1).isLt
  have hN : cfg2.N = 16 := N_2
  have ht : (i 0).val / 256 < cfg2.N := by rw [hN]; omega
  refine ⟨⟨(i 0).val / 256, ht⟩, flush2_8 _, ?_⟩
  rw [mem_blk8]
  obtain ⟨-, -, -, ⟨e0, e1⟩, -⟩ := idx_rows ⟨(i 0).val / 256, ht⟩
  have e0' : win2_8.index ⟨(i 0).val / 256, ht⟩ 0 = (i 0).val / 256 := e0
  intro a
  match a with
  | ⟨0, _⟩ =>
    show win2_8.index ⟨(i 0).val / 256, ht⟩ 0 * 256 ≤ (i 0).val ∧ (i 0).val < win2_8.index ⟨(i 0).val / 256, ht⟩ 0 * 256 + 256
    rw [e0']; omega
  | ⟨1, _⟩ =>
    show win2_8.index ⟨(i 0).val / 256, ht⟩ 1 * 128 ≤ (i 1).val ∧ (i 1).val < win2_8.index ⟨(i 0).val / 256, ht⟩ 1 * 128 + 128
    rw [e1]; omega

/-- An entry `(r, q)` of point `t`'s block of the second output's array is entry `(256·t + r, q)` of the array. -/
theorem emb8 (t : Fin cfg2.N) (r : Fin 256) (q : Fin 128) (P : Fin 4096) (hP : P.val = 256 * t.val + r.val) :
    ((cfg2.win 8).blk t).view.emb (ix2 r q) = (ix2 P q : S4096x128.Idx) := by
  obtain ⟨-, -, -, ⟨e0, e1⟩, -⟩ := idx_rows t
  funext a
  apply Fin.ext
  match a with
  | ⟨0, _⟩ => show win2_8.index t 0 * 256 + 1 * r.val = P.val; rw [e0, hP]; omega
  | ⟨1, _⟩ => show win2_8.index t 1 * 128 + 1 * q.val = q.val; rw [e1]; omega

/-- An index of the third output's array lies in point `t`'s block iff each coordinate lies in the block's range. -/
theorem mem_blk9 (t : Fin cfg2.N) (i : S4096x128.Idx) :
    i ∈ ((cfg2.win 9).blk t).view.set ↔ ∀ a : Fin 2, win2_9.index t a * S256x128.size a ≤ (i a).val ∧ (i a).val < win2_9.index t a * S256x128.size a + S256x128.size a := by
  show i ∈ ((View.whole main_call0_v21_2).slice (win2_9.rect t)).set ↔ _
  rw [View.set_slice_whole, Rect.mem_set_unit]
  exact Iff.rfl

/-- Row `r` of the third output's array is written back by point `r / 256`. -/
theorem cover9 (i : S4096x128.Idx) : ∃ t : Fin cfg2.N, (cfg2.win 9).flush t = true ∧ i ∈ ((cfg2.win 9).blk t).view.set := by
  have h0 : (i 0).val < 4096 := (i 0).isLt
  have h1 : (i 1).val < 128 := (i 1).isLt
  have hN : cfg2.N = 16 := N_2
  have ht : (i 0).val / 256 < cfg2.N := by rw [hN]; omega
  refine ⟨⟨(i 0).val / 256, ht⟩, flush2_9 _, ?_⟩
  rw [mem_blk9]
  obtain ⟨-, -, -, -, ⟨e0, e1⟩, -⟩ := idx_rows ⟨(i 0).val / 256, ht⟩
  have e0' : win2_9.index ⟨(i 0).val / 256, ht⟩ 0 = (i 0).val / 256 := e0
  intro a
  match a with
  | ⟨0, _⟩ =>
    show win2_9.index ⟨(i 0).val / 256, ht⟩ 0 * 256 ≤ (i 0).val ∧ (i 0).val < win2_9.index ⟨(i 0).val / 256, ht⟩ 0 * 256 + 256
    rw [e0']; omega
  | ⟨1, _⟩ =>
    show win2_9.index ⟨(i 0).val / 256, ht⟩ 1 * 128 ≤ (i 1).val ∧ (i 1).val < win2_9.index ⟨(i 0).val / 256, ht⟩ 1 * 128 + 128
    rw [e1]; omega

/-- An entry `(r, q)` of point `t`'s block of the third output's array is entry `(256·t + r, q)` of the array. -/
theorem emb9 (t : Fin cfg2.N) (r : Fin 256) (q : Fin 128) (P : Fin 4096) (hP : P.val = 256 * t.val + r.val) :
    ((cfg2.win 9).blk t).view.emb (ix2 r q) = (ix2 P q : S4096x128.Idx) := by
  obtain ⟨-, -, -, -, ⟨e0, e1⟩, -⟩ := idx_rows t
  funext a
  apply Fin.ext
  match a with
  | ⟨0, _⟩ => show win2_9.index t 0 * 256 + 1 * r.val = P.val; rw [e0, hP]; omega
  | ⟨1, _⟩ => show win2_9.index t 1 * 128 + 1 * q.val = q.val; rw [e1]; omega

/-- An index of the fourth output's array lies in point `t`'s block iff each coordinate lies in the block's range. -/
theorem mem_blk10 (t : Fin cfg2.N) (i : S4096x128.Idx) :
    i ∈ ((cfg2.win 10).blk t).view.set ↔ ∀ a : Fin 2, win2_10.index t a * S256x128.size a ≤ (i a).val ∧ (i a).val < win2_10.index t a * S256x128.size a + S256x128.size a := by
  show i ∈ ((View.whole main_call0_v21_3).slice (win2_10.rect t)).set ↔ _
  rw [View.set_slice_whole, Rect.mem_set_unit]
  exact Iff.rfl

/-- Row `r` of the fourth output's array is written back by point `r / 256`. -/
theorem cover10 (i : S4096x128.Idx) : ∃ t : Fin cfg2.N, (cfg2.win 10).flush t = true ∧ i ∈ ((cfg2.win 10).blk t).view.set := by
  have h0 : (i 0).val < 4096 := (i 0).isLt
  have h1 : (i 1).val < 128 := (i 1).isLt
  have hN : cfg2.N = 16 := N_2
  have ht : (i 0).val / 256 < cfg2.N := by rw [hN]; omega
  refine ⟨⟨(i 0).val / 256, ht⟩, flush2_10 _, ?_⟩
  rw [mem_blk10]
  obtain ⟨-, -, -, -, -, e0, e1⟩ := idx_rows ⟨(i 0).val / 256, ht⟩
  have e0' : win2_10.index ⟨(i 0).val / 256, ht⟩ 0 = (i 0).val / 256 := e0
  intro a
  match a with
  | ⟨0, _⟩ =>
    show win2_10.index ⟨(i 0).val / 256, ht⟩ 0 * 256 ≤ (i 0).val ∧ (i 0).val < win2_10.index ⟨(i 0).val / 256, ht⟩ 0 * 256 + 256
    rw [e0']; omega
  | ⟨1, _⟩ =>
    show win2_10.index ⟨(i 0).val / 256, ht⟩ 1 * 128 ≤ (i 1).val ∧ (i 1).val < win2_10.index ⟨(i 0).val / 256, ht⟩ 1 * 128 + 128
    rw [e1]; omega

/-- An entry `(r, q)` of point `t`'s block of the fourth output's array is entry `(256·t + r, q)` of the array. -/
theorem emb10 (t : Fin cfg2.N) (r : Fin 256) (q : Fin 128) (P : Fin 4096) (hP : P.val = 256 * t.val + r.val) :
    ((cfg2.win 10).blk t).view.emb (ix2 r q) = (ix2 P q : S4096x128.Idx) := by
  obtain ⟨-, -, -, -, -, e0, e1⟩ := idx_rows t
  funext a
  apply Fin.ext
  match a with
  | ⟨0, _⟩ => show win2_10.index t 0 * 256 + 1 * r.val = P.val; rw [e0, hP]; omega
  | ⟨1, _⟩ => show win2_10.index t 1 * 128 + 1 * q.val = q.val; rw [e1]; omega

/-! ## The four results as whole arrays -/

/-- The left columns of the scaled aggregate, as an array. -/
abbrev leftArr (adj : Mat 4096 4096) (la : EReal) (d : Fin 4096 → EReal) (v : Mat 4096 256) : Vec Ideal S4096x128 .f32 :=
  fun i => leftCols (kScaledAgg adj la d v) (i 0) (i 1)
/-- The right columns of the scaled aggregate, as an array. -/
abbrev rightArr (adj : Mat 4096 4096) (la : EReal) (d : Fin 4096 → EReal) (v : Mat 4096 256) : Vec Ideal S4096x128 .f32 :=
  fun i => rightCols (kScaledAgg adj la d v) (i 0) (i 1)
/-- The node head over the left columns, as an array. -/
abbrev headArr (adj : Mat 4096 4096) (la : EReal) (d : Fin 4096 → EReal) (v : Mat 4096 256) (wm : Mat 128 128)
    (b : Fin 128 → EReal) : Vec Ideal S4096x128 .f32 :=
  fun i => kHead (leftCols (kScaledAgg adj la d v)) wm b (i 0) (i 1)
/-- The decoder's scaled projection of the right columns, as an array. -/
abbrev decArr (adj : Mat 4096 4096) (la : EReal) (d : Fin 4096 → EReal) (v : Mat 4096 256) (wd : Mat 128 128) :
    Vec Ideal S4096x128 .f32 :=
  fun i => kProj d (rightCols (kScaledAgg adj la d v)) wd (i 0) (i 1)

section
variable (c : Dev nD) (adj : Mat 4096 4096) (la : EReal) (d : Fin 4096 → EReal) (v : Mat 4096 256)
    (wd wm : Mat 128 128) (b : Fin 128 → EReal)
    (hadj : ∀ a b, (V c main_call0_v1 : Vec Ideal S4096x4096 .f32) (ix2 a b) = adj a b)
    (hv : ∀ a b, (V c main_call0_v20 : Vec Ideal S4096x256 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (hwd : ∀ a b, (V c main_call0_v10 : Vec Ideal S128x128 .f32) (ix2 a b) = wd a b)
    (hwm : ∀ a b, (V c main_call0_v13 : Vec Ideal S128x128 .f32) (ix2 a b) = wm a b)
    (hb : ∀ (u : Fin 1) a, (V c main_call0_v18 : Vec Ideal S1x128 .f32) (ix2 u a) = b a)
include hadj hv hd hla

/-- At point `t`, entry `(r, q)` of the blocks' scaled aggregate is entry `(256·t + r, q)` of the pipeline's: the
    adjacency block's row `r` is the adjacency's row `256·t + r`, `v` is whole, and the body's own rows of `v` start at
    row `256·t`. -/
theorem agg_point (t : Fin cfg2.N) (r q : Fin 256) (P : Fin 4096) (hP : P.val = 256 * t.val + r.val) :
    k2_pay2 (F := Ideal) (laB V c t) (adjB V c t) (vB V c t) (vrows (grid2.coords t) (vB V c t)) (dB V c t) (ix2 r q) = kScaledAgg adj la d v P q := by
  refine (pay2_apply (laB V c t) (adjB V c t) (vB V c t) (vrows (grid2.coords t) (vB V c t)) (dB V c t) r q).trans ?_
  have e2 : dB V c t (ix2 r (0 : Fin 1)) = d P := (dB_apply V c t r 0 P hP).trans (hd P 0)
  have e3 : laB V c t (ix2 (0 : Fin 1) (0 : Fin 1)) = la := (laB_apply V c t).trans hla
  have e9 : vrows (F := Ideal) (grid2.coords t) (vB V c t) (ix2 r q) = v P q :=
    (vrows_apply t (vB V c t) r q P hP).trans ((vB_apply V c t P q).trans (hv P q))
  have e0 : ∀ k : Fin 4096, adjB V c t (ix2 r k) = adj P k := fun k => (adjB_apply V c t r k P hP).trans (hadj P k)
  have e1 : ∀ k : Fin 4096, vB V c t (ix2 k q) = v k q := fun k => (vB_apply V c t k q).trans (hv k q)
  rw [e2, e3, e9]
  simp only [e0, e1]
  rfl

/-- The left half at a point. -/
theorem left_point (t : Fin cfg2.N) (r : Fin 256) (q : Fin 128) (P : Fin 4096) (hP : P.val = 256 * t.val + r.val) :
    k2_pay3 (F := Ideal) (laB V c t) (adjB V c t) (vB V c t) (vrows (grid2.coords t) (vB V c t)) (dB V c t) (ix2 r q) = leftCols (kScaledAgg adj la d v) P q :=
  (pay3_apply (laB V c t) (adjB V c t) (vB V c t) (vrows (grid2.coords t) (vB V c t)) (dB V c t) r q).trans (agg_point V c adj la d v hadj hv hd hla t r _ P hP)

/-- The right half at a point. -/
theorem right_point (t : Fin cfg2.N) (r : Fin 256) (q : Fin 128) (P : Fin 4096) (hP : P.val = 256 * t.val + r.val) :
    k2_pay4 (F := Ideal) (laB V c t) (adjB V c t) (vB V c t) (vrows (grid2.coords t) (vB V c t)) (dB V c t) (ix2 r q) = rightCols (kScaledAgg adj la d v) P q :=
  (pay4_apply (laB V c t) (adjB V c t) (vB V c t) (vrows (grid2.coords t) (vB V c t)) (dB V c t) r q).trans (agg_point V c adj la d v hadj hv hd hla t r _ P hP)

include hwm hb in
/-- The head at a point. -/
theorem head_point (t : Fin cfg2.N) (r : Fin 256) (q : Fin 128) (P : Fin 4096) (hP : P.val = 256 * t.val + r.val) :
    k2_pay5 (F := Ideal) (laB V c t) (adjB V c t) (vB V c t) (vrows (grid2.coords t) (vB V c t)) (dB V c t) (wmB V c t) (bB V c t) (ix2 r q)
      = kHead (leftCols (kScaledAgg adj la d v)) wm b P q := by
  refine (pay5_apply (laB V c t) (adjB V c t) (vB V c t) (vrows (grid2.coords t) (vB V c t)) (dB V c t) (wmB V c t) (bB V c t) r q).trans ?_
  have eb : bB V c t (ix2 (0 : Fin 1) q) = b q := (bB_apply V c t 0 q).trans (hb 0 q)
  have ew : ∀ k : Fin 128, wmB V c t (ix2 k q) = wm k q := fun k => (wmB_apply V c t k q).trans (hwm k q)
  have el : ∀ k : Fin 128, k2_pay3 (F := Ideal) (laB V c t) (adjB V c t) (vB V c t) (vrows (grid2.coords t) (vB V c t)) (dB V c t) (ix2 r k) = leftCols (kScaledAgg adj la d v) P k :=
    fun k => left_point V c adj la d v hadj hv hd hla t r k P hP
  rw [eb]
  simp only [el, ew]
  rfl

include hwd in
/-- The decoder's projection at a point. -/
theorem dec_point (t : Fin cfg2.N) (r : Fin 256) (q : Fin 128) (P : Fin 4096) (hP : P.val = 256 * t.val + r.val) :
    k2_pay1 (F := Ideal) (k2_pay4 (F := Ideal) (laB V c t) (adjB V c t) (vB V c t) (vrows (grid2.coords t) (vB V c t)) (dB V c t)) (k2_pay6 (F := Ideal) (dB V c t)) (wdB V c t) (ix2 r q)
      = kProj d (rightCols (kScaledAgg adj la d v)) wd P q := by
  rw [pay6_eq (dB V c t)]
  refine (pay1_apply (k2_pay4 (F := Ideal) (laB V c t) (adjB V c t) (vB V c t) (vrows (grid2.coords t) (vB V c t)) (dB V c t)) (dB V c t) (wdB V c t) r q).trans ?_
  have e2 : dB V c t (ix2 r (0 : Fin 1)) = d P := (dB_apply V c t r 0 P hP).trans (hd P 0)
  have ew : ∀ k : Fin 128, wdB V c t (ix2 k q) = wd k q := fun k => (wdB_apply V c t k q).trans (hwd k q)
  have er : ∀ k : Fin 128, k2_pay4 (F := Ideal) (laB V c t) (adjB V c t) (vB V c t) (vrows (grid2.coords t) (vB V c t)) (dB V c t) (ix2 r k) = rightCols (kScaledAgg adj la d v) P k :=
    fun k => right_point V c adj la d v hadj hv hd hla t r k P hP
  rw [e2]
  simp only [er, ew]
  rfl

/-- What point `t` writes back to the first output is block `t` of the left columns of the scaled aggregate. -/
theorem flushed7_eq (t : Fin cfg2.N) :
    (dat2 (F := Ideal) V c).flushed 7 t = ((cfg2.win 7).blk t).view.read (Elt Ideal) (leftArr adj la d v) := by
  show (cfg2.win 7).cut (grid2.coords t) ((dat2 (F := Ideal) V c).after 7 t) = _
  rw [after2_7 V c t]
  unfold outsAt2
  dsimp only
  rw [out7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext y
  obtain ⟨r, q, rfl⟩ : ∃ (r : Fin 256) (q : Fin 128), y = ix2 r q := ⟨y 0, y 1, eq_ix2 y⟩
  have hN : cfg2.N = 16 := N_2
  have hlt : 256 * t.val + r.val < 4096 := by have := t.isLt; have := r.isLt; omega
  refine (left_point V c adj la d v hadj hv hd hla t r q ⟨256 * t.val + r.val, hlt⟩ rfl).trans ?_
  rw [View.read_apply, emb7 t r q ⟨256 * t.val + r.val, hlt⟩ rfl]
  rfl

/-- What point `t` writes back to the second output is block `t` of the right columns of the scaled aggregate. -/
theorem flushed8_eq (t : Fin cfg2.N) :
    (dat2 (F := Ideal) V c).flushed 8 t = ((cfg2.win 8).blk t).view.read (Elt Ideal) (rightArr adj la d v) := by
  show (cfg2.win 8).cut (grid2.coords t) ((dat2 (F := Ideal) V c).after 8 t) = _
  rw [after2_8 V c t]
  unfold outsAt2
  dsimp only
  rw [out8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext y
  obtain ⟨r, q, rfl⟩ : ∃ (r : Fin 256) (q : Fin 128), y = ix2 r q := ⟨y 0, y 1, eq_ix2 y⟩
  have hN : cfg2.N = 16 := N_2
  have hlt : 256 * t.val + r.val < 4096 := by have := t.isLt; have := r.isLt; omega
  refine (right_point V c adj la d v hadj hv hd hla t r q ⟨256 * t.val + r.val, hlt⟩ rfl).trans ?_
  rw [View.read_apply, emb8 t r q ⟨256 * t.val + r.val, hlt⟩ rfl]
  rfl

include hwm hb in
/-- What point `t` writes back to the third output is block `t` of the node head over the left columns. -/
theorem flushed9_eq (t : Fin cfg2.N) :
    (dat2 (F := Ideal) V c).flushed 9 t = ((cfg2.win 9).blk t).view.read (Elt Ideal) (headArr adj la d v wm b) := by
  show (cfg2.win 9).cut (grid2.coords t) ((dat2 (F := Ideal) V c).after 9 t) = _
  rw [after2_9 V c t]
  unfold outsAt2
  dsimp only
  rw [out9_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext y
  obtain ⟨r, q, rfl⟩ : ∃ (r : Fin 256) (q : Fin 128), y = ix2 r q := ⟨y 0, y 1, eq_ix2 y⟩
  have hN : cfg2.N = 16 := N_2
  have hlt : 256 * t.val + r.val < 4096 := by have := t.isLt; have := r.isLt; omega
  refine (head_point V c adj la d v wm b hadj hv hd hla hwm hb t r q ⟨256 * t.val + r.val, hlt⟩ rfl).trans ?_
  rw [View.read_apply, emb9 t r q ⟨256 * t.val + r.val, hlt⟩ rfl]
  rfl

include hwd in
/-- What point `t` writes back to the fourth output is block `t` of the decoder's scaled projection of the right columns. -/
theorem flushed10_eq (t : Fin cfg2.N) :
    (dat2 (F := Ideal) V c).flushed 10 t = ((cfg2.win 10).blk t).view.read (Elt Ideal) (decArr adj la d v wd) := by
  show (cfg2.win 10).cut (grid2.coords t) ((dat2 (F := Ideal) V c).after 10 t) = _
  rw [after2_10 V c t]
  unfold outsAt2
  dsimp only
  rw [out10_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (iblk2 V c 0 t) (iblk2 V c 1 t) (iblk2 V c 2 t) (iblk2 V c 3 t) (iblk2 V c 4 t) (iblk2 V c 5 t) (iblk2 V c 6 t)]
  funext y
  obtain ⟨r, q, rfl⟩ : ∃ (r : Fin 256) (q : Fin 128), y = ix2 r q := ⟨y 0, y 1, eq_ix2 y⟩
  have hN : cfg2.N = 16 := N_2
  have hlt : 256 * t.val + r.val < 4096 := by have := t.isLt; have := r.isLt; omega
  refine (dec_point V c adj la d v wd hadj hv hd hla hwd t r q ⟨256 * t.val + r.val, hlt⟩ rfl).trans ?_
  rw [View.read_apply, emb10 t r q ⟨256 * t.val + r.val, hlt⟩ rfl]
  rfl

/-- Pass 2, first result: the left columns of the scaled aggregate. -/
theorem e2_apply (p : Fin 4096) (q : Fin 128) :
    ((dat2 (F := Ideal) V c).arrAt 7 cfg2.N : Vec Ideal S4096x128 .f32) (ix2 p q) = leftCols (kScaledAgg adj la d v) p q := by
  have h := (dat2 (F := Ideal) V c).arrAt_eq_of_cover 7 (leftArr adj la d v)
    (fun t _ => flushed7_eq V c adj la d v hadj hv hd hla t) cover7
  exact congrFun h (ix2 p q)

/-- Pass 2, second result: the right columns of the scaled aggregate. -/
theorem hh2_apply (p : Fin 4096) (q : Fin 128) :
    ((dat2 (F := Ideal) V c).arrAt 8 cfg2.N : Vec Ideal S4096x128 .f32) (ix2 p q) = rightCols (kScaledAgg adj la d v) p q := by
  have h := (dat2 (F := Ideal) V c).arrAt_eq_of_cover 8 (rightArr adj la d v)
    (fun t _ => flushed8_eq V c adj la d v hadj hv hd hla t) cover8
  exact congrFun h (ix2 p q)

include hwm hb in
/-- Pass 2, third result: the node head over the left columns. -/
theorem ln_apply (p : Fin 4096) (q : Fin 128) :
    ((dat2 (F := Ideal) V c).arrAt 9 cfg2.N : Vec Ideal S4096x128 .f32) (ix2 p q) = kHead (leftCols (kScaledAgg adj la d v)) wm b p q := by
  have h := (dat2 (F := Ideal) V c).arrAt_eq_of_cover 9 (headArr adj la d v wm b)
    (fun t _ => flushed9_eq V c adj la d v wm b hadj hv hd hla hwm hb t) cover9
  exact congrFun h (ix2 p q)

include hwd in
/-- Pass 2, fourth result: the decoder's projection of the right columns, scaled. -/
theorem dz_apply (p : Fin 4096) (q : Fin 128) :
    ((dat2 (F := Ideal) V c).arrAt 10 cfg2.N : Vec Ideal S4096x128 .f32) (ix2 p q) = kProj d (rightCols (kScaledAgg adj la d v)) wd p q := by
  have h := (dat2 (F := Ideal) V c).arrAt_eq_of_cover 10 (decArr adj la d v wd)
    (fun t _ => flushed10_eq V c adj la d v wd hadj hv hd hla hwd t) cover10
  exact congrFun h (ix2 p q)
end

end Cert.KernelIdeal.Region2

end
-- ==== Proof.Region3.lean ====
import proofs.«117501_g49246095016346_cont_8to1c4_490_2_alg».proof.Proof.Gen.KernelIdeal.Frame
import proofs.«117501_g49246095016346_cont_8to1c4_490_2_alg».proof.Proof.Spec
import proofs.«117501_g49246095016346_cont_8to1c4_490_2_alg».proof.Proof.LibLastAxis
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gcn

variable (V : (c : Dev nD) → (b : Ref sig .tc) → Buf (Elt Ideal) ((c : Thread nD τ).loc b))

private theorem hz : (![0, 0] : Fin 2 → Nat) = fun _ => 0 := funext fun a => by fin_cases a <;> rfl

/-! ## What the body leaves in the output block, as a term over its loads -/

/-- The 256 rows of the whole `v` buffer that the body loads itself at grid coordinates `i`
    (the rows of its own row block: offsets `(256 · i, 0)`). -/
private abbrev vRows {F : FTy → Type} (i : grid3.Coords) (x1 : Vec F S4096x128 .f32) : Vec F S256x128 .f32 :=
  View.ld x1 (Rect.unit (s := S4096x128) (k3_off1 i) S256x128.size (k3_off1_inb i))

/-- The body's one store covers the output block, so the block holds the stored term: the pass's arithmetic over the
    adjacency row block `x0`, the whole `v` buffer `x1`, its own rows of it, the scaling column `x2` and the
    self-loop weight `x3`. -/
private theorem piece {F : FTy → Type} [FloatOps F] (c : Dev nD) (i : grid3.Coords)
    (a1 : Memref sig .tc .vmem S256x4096 .f32) (h1 : a1.IsWhole)
    (a2 : Memref sig .tc .vmem S4096x128 .f32) (h2 : a2.IsWhole)
    (a3 : Memref sig .tc .vmem S256x1 .f32) (h3 : a3.IsWhole)
    (a4 : Memref sig .tc .vmem S1x1 .f32) (h4 : a4.IsWhole)
    (a5 : Memref sig .tc .vmem S256x128 .f32) (h5 : a5.IsWhole)
    (x0 : Vec F S256x4096 .f32) (x1 : Vec F S4096x128 .f32) (x2 : Vec F S256x1 .f32) (x3 : Vec F S1x1 .f32) :
    out3_A_4 c i a1 h1 a2 h2 a3 h3 a4 h4 a5 h5 x0 x1 x2 x3 = k3_pay1 x3 x0 x1 (vRows i x1) x2 := by
  unfold out3_A_4
  rw [View.read_writes_eq_canon _ _ _ (cover3_A_4 c i a1 h1 a2 h2 a3 h3 a4 h4 a5 h5 x0 x1 x2 x3)]
  unfold kernelRun3_A
  dsimp only
  sl_unfold_words
  rw [View.canon_unit_zero hz]
  simp only [View.readAt_eq_ld, h1.read_unread, h2.read_unread, h3.read_unread, h4.read_unread,
    View.ld_unit_zero (S := S256x4096) hz, View.ld_unit_zero (S := S4096x128) hz, View.ld_unit_zero (S := S256x1) hz,
    View.ld_unit_zero (S := S1x1) hz]
  rfl

/-! ## The stored term at an index, over the extended reals -/

/-- The product's operand indices at output index `i` and contraction index `k`: the left operand is read at
    `(i₀, k)`, the right one at `(k, i₁)`. One lemma per axis. -/
private theorem lhs_axis0 (i : S256x128.Idx) (k : dot_S256x4096_S4096x128_S256x128_1_0_0_1_n_n.contr.Idx) :
    (dot_S256x4096_S4096x128_S256x128_1_0_0_1_n_n.lhsIdx i k 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
private theorem lhs_axis1 (i : S256x128.Idx) (k : dot_S256x4096_S4096x128_S256x128_1_0_0_1_n_n.contr.Idx) :
    (dot_S256x4096_S4096x128_S256x128_1_0_0_1_n_n.lhsIdx i k 1).val = (k ⟨0, by decide⟩).val :=
  dot_S256x4096_S4096x128_S256x128_1_0_0_1_n_n.lhsIdx_val_of_single rfl i k
private theorem rhs_axis0 (i : S256x128.Idx) (k : dot_S256x4096_S4096x128_S256x128_1_0_0_1_n_n.contr.Idx) :
    (dot_S256x4096_S4096x128_S256x128_1_0_0_1_n_n.rhsIdx i k 0).val = (k ⟨0, by decide⟩).val :=
  dot_S256x4096_S4096x128_S256x128_1_0_0_1_n_n.rhsIdx_val_of_single rfl i k
private theorem rhs_axis1 (i : S256x128.Idx) (k : dot_S256x4096_S4096x128_S256x128_1_0_0_1_n_n.contr.Idx) :
    (dot_S256x4096_S4096x128_S256x128_1_0_0_1_n_n.rhsIdx i k 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The row block times the whole right operand, from the zero accumulator, at `(r, q)`: `∑ j, L (r, j) · R (j, q)`. -/
private theorem matmul_at (L : FVec Ideal S256x4096 .f32) (R : FVec Ideal S4096x128 .f32) (r : Fin 256) (q : Fin 128) :
    matmul dot_S256x4096_S4096x128_S256x128_1_0_0_1_n_n none L R (constant (F := Ideal) S256x128 .f32 0x00000000#32) (ix2 r q)
      = ∑ j : Fin 4096, L (ix2 r j) * R (ix2 j q) := by
  simp only [matmul]
  rw [Ideal.matmul_constant_zero_apply, ← Equiv.sum_comp (ValueIdx.contrEquiv1 dot_S256x4096_S4096x128_S256x128_1_0_0_1_n_n 4096 rfl rfl).symm]
  refine Finset.sum_congr rfl fun k _ => ?_
  have hk := ValueIdx.contrEquiv1_symm_val dot_S256x4096_S4096x128_S256x128_1_0_0_1_n_n 4096 rfl rfl k
  have el : dot_S256x4096_S4096x128_S256x128_1_0_0_1_n_n.lhsIdx (ix2 r q) ((ValueIdx.contrEquiv1 dot_S256x4096_S4096x128_S256x128_1_0_0_1_n_n 4096 rfl rfl).symm k) = ix2 r k := funext fun a => Fin.ext (by
    match a with
    | ⟨0, _⟩ => exact lhs_axis0 _ _
    | ⟨1, _⟩ => exact (lhs_axis1 _ _).trans hk)
  have er : dot_S256x4096_S4096x128_S256x128_1_0_0_1_n_n.rhsIdx (ix2 r q) ((ValueIdx.contrEquiv1 dot_S256x4096_S4096x128_S256x128_1_0_0_1_n_n 4096 rfl rfl).symm k) = ix2 k q := funext fun a => Fin.ext (by
    match a with
    | ⟨0, _⟩ => exact (rhs_axis0 _ _).trans hk
    | ⟨1, _⟩ => exact rhs_axis1 _ _)
  rw [el, er]

/-- The one entry of a `[1, 1]` vector. -/
private theorem extract_one (x3 : Vec Ideal S1x1 .f32) (h : ∀ a, (![0, 0] : Fin 2 → Nat) a < S1x1.size a) :
    extractAt ![0, 0] x3 h = x3 (ix2 (0 : Fin 1) (0 : Fin 1)) := by
  unfold extractAt
  exact congrArg x3 (funext fun a => Fin.ext (by match a with | ⟨0, _⟩ => rfl | ⟨1, _⟩ => rfl))

/-- The stored term at row `r` of the block and column `q`: the scaling of the row times (the row of the adjacency
    block against column `q` of `v`, plus the self-loop weight times the row's own entry of `v`). -/
private theorem pay_apply (x3 : Vec Ideal S1x1 .f32) (x0 : Vec Ideal S256x4096 .f32) (x1 : Vec Ideal S4096x128 .f32)
    (x9 : Vec Ideal S256x128 .f32) (x2 : Vec Ideal S256x1 .f32) (r : Fin 256) (q : Fin 128) :
    k3_pay1 x3 x0 x1 x9 x2 (ix2 r q)
      = x2 (ix2 r (0 : Fin 1)) * ((∑ j : Fin 4096, x0 (ix2 r j) * x1 (ix2 j q)) + x3 (ix2 (0 : Fin 1) (0 : Fin 1)) * x9 (ix2 r q)) := by
  unfold k3_pay1
  simp only [shapeCast_self, mulf_apply, addf_apply, broadcast_apply]
  rw [Cert.LastAxis.broadcastTo_a1_ab_apply, matmul_at, extract_one]

/-! ## The blocks of a grid point, read off the arrays as the pass finds them -/

/-- The index maps over the grid: the row-block windows (adjacency rows, scaling rows, output rows) sit at block
    `(t, 0)`, the whole-array windows (`v`, the self-loop weight) at block `(0, 0)`; the point's one grid coordinate
    is its number. -/
private theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ (grid3.coords t 0).val = t.val :=
  (by decide +kernel : ∀ t : Fin grid3.N, _)

/-- Row `r` of grid point `t`'s row block, as a row of the whole array: `256 · t + r`. -/
private def rowOf (t : Fin cfg3.N) (r : Fin 256) : Fin 4096 :=
  ⟨256 * t.val + r.val, by have := t.isLt; have hN : cfg3.N = 16 := N_3; have := r.isLt; omega⟩

/-- The adjacency row block of point `t` reads the adjacency at rows `256 · t + r`. -/
private theorem adjBlk_apply (c : Dev nD) (t : Fin cfg3.N) (r : Fin 256) (j : Fin 4096) :
    (iblk3 V c 0 t : Vec Ideal S256x4096 .f32) (ix2 r j) = (V c main_call0_v1 : Vec Ideal S4096x4096 .f32) (ix2 (rowOf t r) j) := by
  obtain ⟨e0, e1, -⟩ := idx_facts t
  unfold iblk3
  rw [View.read_apply]
  show V c main_call0_v1 _ = V c main_call0_v1 _
  congr 1
  funext a
  apply Fin.ext
  match a with
  | ⟨0, _⟩ => show win3_0.index t 0 * 256 + 1 * r.val = 256 * t.val + r.val; rw [e0]; omega
  | ⟨1, _⟩ => show win3_0.index t 1 * 4096 + 1 * j.val = j.val; rw [e1]; omega

/-- The `v` window is the whole array at every point. -/
private theorem vBlk_apply (c : Dev nD) (t : Fin cfg3.N) (a : Fin 4096) (b : Fin 128) :
    (iblk3 V c 1 t : Vec Ideal S4096x128 .f32) (ix2 a b) = (V c main_call0_v21_3 : Vec Ideal S4096x128 .f32) (ix2 a b) := by
  obtain ⟨-, -, e0, e1, -⟩ := idx_facts t
  unfold iblk3
  rw [View.read_apply]
  show V c main_call0_v21_3 _ = V c main_call0_v21_3 _
  congr 1
  funext x
  apply Fin.ext
  match x with
  | ⟨0, _⟩ => show win3_1.index t 0 * 4096 + 1 * a.val = a.val; rw [e0]; omega
  | ⟨1, _⟩ => show win3_1.index t 1 * 128 + 1 * b.val = b.val; rw [e1]; omega

/-- The scaling row block of point `t` reads the scaling column at rows `256 · t + r`. -/
private theorem dBlk_apply (c : Dev nD) (t : Fin cfg3.N) (r : Fin 256) (u : Fin 1) :
    (iblk3 V c 2 t : Vec Ideal S256x1 .f32) (ix2 r u) = (V c main_call0_v19_0 : Vec Ideal S4096x1 .f32) (ix2 (rowOf t r) u) := by
  obtain ⟨-, -, -, -, e0, e1, -⟩ := idx_facts t
  unfold iblk3
  rw [View.read_apply]
  show V c main_call0_v19_0 _ = V c main_call0_v19_0 _
  congr 1
  funext x
  apply Fin.ext
  match x with
  | ⟨0, _⟩ => show win3_2.index t 0 * 256 + 1 * r.val = 256 * t.val + r.val; rw [e0]; omega
  | ⟨1, _⟩ => show win3_2.index t 1 * 1 + 1 * u.val = u.val; rw [e1]; omega

/-- The self-loop weight's window is its whole `[1, 1]` array at every point. -/
private theorem laBlk_apply (c : Dev nD) (t : Fin cfg3.N) :
    (iblk3 V c 3 t : Vec Ideal S1x1 .f32) (ix2 (0 : Fin 1) (0 : Fin 1)) = (V c main_call0_v2 : Vec Ideal S1x1 .f32) (ix2 (0 : Fin 1) (0 : Fin 1)) := by
  obtain ⟨-, -, -, -, -, -, e0, e1, -⟩ := idx_facts t
  unfold iblk3
  rw [View.read_apply]
  show V c main_call0_v2 _ = V c main_call0_v2 _
  congr 1
  funext x
  apply Fin.ext
  match x with
  | ⟨0, _⟩ => show win3_3.index t 0 * 1 + 1 * 0 = 0; rw [e0]
  | ⟨1, _⟩ => show win3_3.index t 1 * 1 + 1 * 0 = 0; rw [e1]

/-- The body's own load of `v`: row `r` of it is row `256 · i₀ + r` of the whole buffer (an entry of a unit-stride
    rectangle sits at offset plus coordinate). -/
private theorem vRows_apply (i : grid3.Coords) (x1 : Vec Ideal S4096x128 .f32) (r : Fin 256) (q : Fin 128) (p : Fin 4096)
    (hp : p.val = 256 * (i 0).val + r.val) : vRows i x1 (ix2 r q) = x1 (ix2 p q) := by
  show x1 _ = x1 _
  congr 1
  funext a
  apply Fin.ext
  match a with
  | ⟨0, _⟩ => show k3_off1 i 0 + 1 * r.val = p.val; rw [k3_off1_eq i, hp]; show 256 * (i 0).val + 1 * r.val = _; omega
  | ⟨1, _⟩ => show k3_off1 i 1 + 1 * q.val = q.val; rw [k3_off1_eq i]; show 0 + 1 * q.val = _; omega

/-! ## The block's value -/

/-- Over any loaded blocks that read the matrices `adj` (at the rows `row r`), `v`, `d` (at those rows) and the
    number `la`, the stored term at `(r, q)` is the scaled aggregation at `(row r, q)`. -/
private theorem block_value (adj : Mat 4096 4096) (la : EReal) (d : Fin 4096 → EReal) (v : Mat 4096 128)
    (x0 : Vec Ideal S256x4096 .f32) (x1 : Vec Ideal S4096x128 .f32) (x2 : Vec Ideal S256x1 .f32) (x3 : Vec Ideal S1x1 .f32)
    (i : grid3.Coords) (row : Fin 256 → Fin 4096) (hrow : ∀ r, (row r).val = 256 * (i 0).val + r.val)
    (h0 : ∀ r j, x0 (ix2 r j) = adj (row r) j) (h1 : ∀ a b, x1 (ix2 a b) = v a b)
    (h2 : ∀ r, x2 (ix2 r (0 : Fin 1)) = d (row r)) (h3 : x3 (ix2 (0 : Fin 1) (0 : Fin 1)) = la)
    (y : S256x128.Idx) :
    k3_pay1 x3 x0 x1 (vRows i x1) x2 y = kScaledAgg adj la d v (row (y 0)) (y 1) := by
  obtain ⟨r, q, rfl⟩ : ∃ (r : Fin 256) (q : Fin 128), y = ix2 r q := ⟨y 0, y 1, eq_ix2 y⟩
  refine (pay_apply x3 x0 x1 (vRows i x1) x2 r q).trans ?_
  rw [vRows_apply i x1 r q (row r) (hrow r), h2, h3, h1]
  show _ = d (row r) * ((∑ j, adj (row r) j * v j q) + la * v (row r) q)
  congr 2
  exact Finset.sum_congr rfl fun j _ => by rw [h0, h1]

/-! ## From the blocks to the array -/

/-- The pass's result array as one function of the matrices. -/
private abbrev G (adj : Mat 4096 4096) (la : EReal) (d : Fin 4096 → EReal) (v : Mat 4096 128) : Vec Ideal S4096x128 .f32 :=
  fun i => kScaledAgg adj la d v (i 0) (i 1)

/-- What point `t` writes back is block `t` of that function. -/
private theorem flushed_eq (c : Dev nD) (adj : Mat 4096 4096) (la : EReal) (d : Fin 4096 → EReal) (v : Mat 4096 128)
    (hadj : ∀ a b, (V c main_call0_v1 : Vec Ideal S4096x4096 .f32) (ix2 a b) = adj a b)
    (hv : ∀ a b, (V c main_call0_v21_3 : Vec Ideal S4096x128 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (t : Fin cfg3.N) :
    (dat3 (F := Ideal) V c).flushed 4 t = ((cfg3.win 4).blk t).view.read (Elt Ideal) (G adj la d v) := by
  show (cfg3.win 4).cut (grid3.coords t) ((dat3 (F := Ideal) V c).after 4 t) = _
  rw [after3_4]
  unfold outsAt3
  rw [piece (F := Ideal) c (grid3.coords t) (ms3_0 t) (hs3_0 t) (ms3_1 t) (hs3_1 t) (ms3_2 t) (hs3_2 t) (ms3_3 t) (hs3_3 t)
    (ms3_4 t) (hs3_4 t) (iblk3 V c 0 t) (iblk3 V c 1 t) (iblk3 V c 2 t) (iblk3 V c 3 t)]
  obtain ⟨-, -, -, -, -, -, -, -, e0, e1, ec⟩ := idx_facts t
  funext y
  have f0 : ((cfg3.win 4).blk t).view.emb y 0 = rowOf t (y 0) :=
    Fin.ext (by show win3_4.index t 0 * 256 + 1 * (y 0).val = 256 * t.val + (y 0).val; rw [e0]; omega)
  have f1 : ((cfg3.win 4).blk t).view.emb y 1 = y 1 :=
    Fin.ext (by show win3_4.index t 1 * 128 + 1 * (y 1).val = (y 1).val; rw [e1]; omega)
  show _ = kScaledAgg adj la d v (((cfg3.win 4).blk t).view.emb y 0) (((cfg3.win 4).blk t).view.emb y 1)
  rw [f0, f1]
  exact block_value adj la d v (iblk3 V c 0 t) (iblk3 V c 1 t) (iblk3 V c 2 t) (iblk3 V c 3 t) (grid3.coords t) (rowOf t)
    (fun r => by show 256 * t.val + r.val = 256 * (grid3.coords t 0).val + r.val; rw [ec])
    (fun r j => (adjBlk_apply V c t r j).trans (hadj _ _))
    (fun a b => (vBlk_apply V c t a b).trans (hv _ _))
    (fun r => (dBlk_apply V c t r 0).trans (hd _ _))
    ((laBlk_apply V c t).trans hla) y

/-- An index of the result array is in point `t`'s block iff each coordinate is in the block's range on its axis. -/
private theorem mem_blk (t : Fin cfg3.N) (i : S4096x128.Idx) :
    i ∈ ((cfg3.win 4).blk t).view.set ↔ ∀ a : Fin 2, win3_4.index t a * S256x128.size a ≤ (i a).val ∧ (i a).val < win3_4.index t a * S256x128.size a + S256x128.size a := by
  show i ∈ ((View.whole main_call0_v22).slice (win3_4.rect t)).set ↔ _
  rw [View.set_slice_whole, Rect.mem_set_unit]
  exact Iff.rfl

/-- Every row of the result array is in the block of the point `row / 256`. -/
private theorem cover (i : S4096x128.Idx) : ∃ t : Fin cfg3.N, (cfg3.win 4).flush t = true ∧ i ∈ ((cfg3.win 4).blk t).view.set := by
  have hN : cfg3.N = 16 := N_3
  have h0 : (i 0).val < 4096 := (i 0).isLt
  have h1 : (i 1).val < 128 := (i 1).isLt
  let t : Fin cfg3.N := ⟨(i 0).val / 256, by rw [hN]; omega⟩
  obtain ⟨-, -, -, -, -, -, -, -, e0, e1, -⟩ := idx_facts t
  have ht : t.val = (i 0).val / 256 := rfl
  refine ⟨t, flush3_4 t, ?_⟩
  rw [mem_blk]
  intro a
  match a with
  | ⟨0, _⟩ => show win3_4.index t 0 * 256 ≤ (i 0).val ∧ (i 0).val < win3_4.index t 0 * 256 + 256; rw [e0, ht]; omega
  | ⟨1, _⟩ => show win3_4.index t 1 * 128 ≤ (i 1).val ∧ (i 1).val < win3_4.index t 1 * 128 + 128; rw [e1]; omega

/-- Pass 3's result array. -/
theorem out_apply (c : Dev nD) (adj : Mat 4096 4096) (la : EReal) (d : Fin 4096 → EReal) (v : Mat 4096 128)
    (hadj : ∀ a b, (V c main_call0_v1 : Vec Ideal S4096x4096 .f32) (ix2 a b) = adj a b)
    (hv : ∀ a b, (V c main_call0_v21_3 : Vec Ideal S4096x128 .f32) (ix2 a b) = v a b)
    (hd : ∀ a (u : Fin 1), (V c main_call0_v19_0 : Vec Ideal S4096x1 .f32) (ix2 a u) = d a)
    (hla : (V c main_call0_v2 : Vec Ideal S1x1 .f32) (ix2 0 0) = la)
    (p : Fin 4096) (q : Fin 128) :
    ((dat3 (F := Ideal) V c).arrAt 4 cfg3.N : Vec Ideal S4096x128 .f32) (ix2 p q) = kScaledAgg adj la d v p q := by
  have h := (dat3 (F := Ideal) V c).arrAt_eq_of_cover 4 (G adj la d v)
    (fun t _ => flushed_eq V c adj la d v hadj hv hd hla t) cover
  exact congrFun h (ix2 p q)

end Cert.KernelIdeal.Region3

end
-- ==== Proof.KernelValue.lean ====
import proofs.«117501_g49246095016346_cont_8to1c4_490_2_alg».proof.Proof.Gen.KernelIdeal.Frame
import proofs.«117501_g49246095016346_cont_8to1c4_490_2_alg».proof.Proof.Spec
import Idealize.ShloMosaic.Lib.Pipeline.Value
import Idealize.ShloMosaic.Lib.ValueIdx
import Idealize.ShloMosaic.PureOps.Ideal.Laws
import proofs.«117501_g49246095016346_cont_8to1c4_490_2_alg».proof.Proof.Coords
import proofs.«117501_g49246095016346_cont_8to1c4_490_2_alg».proof.Proof.HostPre
import proofs.«117501_g49246095016346_cont_8to1c4_490_2_alg».proof.Proof.HostPost
import proofs.«117501_g49246095016346_cont_8to1c4_490_2_alg».proof.Proof.Region0
import proofs.«117501_g49246095016346_cont_8to1c4_490_2_alg».proof.Proof.Region1
import proofs.«117501_g49246095016346_cont_8to1c4_490_2_alg».proof.Proof.Region2
import proofs.«117501_g49246095016346_cont_8to1c4_490_2_alg».proof.Proof.Region3

noncomputable section

open Idealize.ShloMosaic Idealize.ShloMosaic.TcCoe Idealize.SL.Sem Idealize.ShloMosaic.ValueIdx
open Idealize.ShloMosaic.Pipeline (Dat)

/-
  The kernel program's four results as functions of its arguments.

  @main is a stretch of host operations, four passes over the adjacency, and a closing stretch. The contents of the
  buffers at the boundary after each item are a fold from the launch memory; this file walks that fold: what a pass
  reads is what an earlier item left (an argument re-laid by the opening stretch, or an earlier pass's result array; a
  buffer a pass only reads, or does not touch, keeps its contents across it), and each pass's result arrays are the
  pipeline's functions of what it reads. At the end the four results are `kLogits`, `kLogitsNode`, `kE2`, `kHh2` of the
  arguments read by coordinates.
-/
namespace Cert.KernelIdeal.KernelValue

open Cert.KernelIdeal Cert.KernelIdeal.Gen Cert.Gcn Cert.KernelIdeal.HostPre

variable (m : (ℓ : Loc nD τ sig) → Buf (Elt Ideal) ℓ) (ρ : Dev nD → PrngReg)

/-! ## Buffers carried unchanged across a pass -/

section Carry
variable (c : Dev nD)

-- the adjacency: every pass reads it through its first window
theorem adj2 : V2 m ρ c main_call0_v1 = V1 m ρ c main_call0_v1 :=
  (W2_arr m ρ c 0).trans (((dat0 (V1 m ρ) c).arrAt_in 0 rfl _).trans (A_eq0 (V1 m ρ) c 0))
theorem adj3 : V3 m ρ c main_call0_v1 = V2 m ρ c main_call0_v1 :=
  (W3_arr m ρ c 0).trans (((dat1 (V2 m ρ) c).arrAt_in 0 rfl _).trans (A_eq1 (V2 m ρ) c 0))
theorem adj4 : V4 m ρ c main_call0_v1 = V3 m ρ c main_call0_v1 :=
  (W4_arr m ρ c 0).trans (((dat2 (V3 m ρ) c).arrAt_in 0 rfl _).trans (A_eq2 (V3 m ρ) c 0))

-- the self-loop weight: pass 0 reads it through window 3, and so do the later passes
theorem la2 : V2 m ρ c main_call0_v2 = V1 m ρ c main_call0_v2 :=
  (W2_arr m ρ c 3).trans (((dat0 (V1 m ρ) c).arrAt_in 3 rfl _).trans (A_eq0 (V1 m ρ) c 3))
theorem la3 : V3 m ρ c main_call0_v2 = V2 m ρ c main_call0_v2 :=
  (W3_arr m ρ c 3).trans (((dat1 (V2 m ρ) c).arrAt_in 3 rfl _).trans (A_eq1 (V2 m ρ) c 3))
theorem la4 : V4 m ρ c main_call0_v2 = V3 m ρ c main_call0_v2 :=
  (W4_arr m ρ c 3).trans (((dat2 (V3 m ρ) c).arrAt_in 3 rfl _).trans (A_eq2 (V3 m ρ) c 3))

-- the column of scalings: pass 0 writes it (window 4), passes 1 and 2 read it through window 2
theorem d2 : V2 m ρ c main_call0_v19_0 = (dat0 (V1 m ρ) c).arrAt 4 cfg0.N := W2_arr m ρ c 4
theorem d3 : V3 m ρ c main_call0_v19_0 = V2 m ρ c main_call0_v19_0 :=
  (W3_arr m ρ c 2).trans (((dat1 (V2 m ρ) c).arrAt_in 2 rfl _).trans (A_eq1 (V2 m ρ) c 2))
theorem d4 : V4 m ρ c main_call0_v19_0 = V3 m ρ c main_call0_v19_0 :=
  (W4_arr m ρ c 2).trans (((dat2 (V3 m ρ) c).arrAt_in 2 rfl _).trans (A_eq2 (V3 m ρ) c 2))

-- the weights the opening stretch lays out, untouched until the pass that reads them
theorem w2_2 : V2 m ρ c main_call0_v7 = V1 m ρ c main_call0_v7 := W2_of_ne m ρ c main_call0_v7 (by decide)
theorem wd2 : V2 m ρ c main_call0_v10 = V1 m ρ c main_call0_v10 := W2_of_ne m ρ c main_call0_v10 (by decide)
theorem wd3 : V3 m ρ c main_call0_v10 = V2 m ρ c main_call0_v10 := W3_of_ne m ρ c main_call0_v10 (by decide)
theorem wm2 : V2 m ρ c main_call0_v13 = V1 m ρ c main_call0_v13 := W2_of_ne m ρ c main_call0_v13 (by decide)
theorem wm3 : V3 m ρ c main_call0_v13 = V2 m ρ c main_call0_v13 := W3_of_ne m ρ c main_call0_v13 (by decide)
theorem b2 : V2 m ρ c main_call0_v18 = V1 m ρ c main_call0_v18 := W2_of_ne m ρ c main_call0_v18 (by decide)
theorem b3 : V3 m ρ c main_call0_v18 = V2 m ρ c main_call0_v18 := W3_of_ne m ρ c main_call0_v18 (by decide)

-- each pass's result arrays, where the next boundary holds them
theorem dxw2 : V2 m ρ c main_call0_v19_1 = (dat0 (V1 m ρ) c).arrAt 5 cfg0.N := W2_arr m ρ c 5
theorem dhw3 : V3 m ρ c main_call0_v20 = (dat1 (V2 m ρ) c).arrAt 5 cfg1.N := W3_arr m ρ c 5
theorem e2_4 : V4 m ρ c main_v0_2 = (dat2 (V3 m ρ) c).arrAt 7 cfg2.N := W4_arr m ρ c 7
theorem hh2_4 : V4 m ρ c main_v0_3 = (dat2 (V3 m ρ) c).arrAt 8 cfg2.N := W4_arr m ρ c 8
theorem ln4 : V4 m ρ c main_call0_v21_2 = (dat2 (V3 m ρ) c).arrAt 9 cfg2.N := W4_arr m ρ c 9
theorem dz4 : V4 m ρ c main_call0_v21_3 = (dat2 (V3 m ρ) c).arrAt 10 cfg2.N := W4_arr m ρ c 10
theorem out5 : V5 m ρ c main_call0_v22 = (dat3 (V4 m ρ) c).arrAt 4 cfg3.N := W5_arr m ρ c 4
theorem e2_5 : V5 m ρ c main_v0_2 = V4 m ρ c main_v0_2 := W5_of_ne m ρ c main_v0_2 (by decide)
theorem hh2_5 : V5 m ρ c main_v0_3 = V4 m ρ c main_v0_3 := W5_of_ne m ρ c main_v0_3 (by decide)
theorem ln5 : V5 m ρ c main_call0_v21_2 = V4 m ρ c main_call0_v21_2 := W5_of_ne m ρ c main_call0_v21_2 (by decide)
end Carry

/-! ## The values, pass by pass -/

section Values
variable (c : Dev nD)

-- what every pass reads of the adjacency and the self-loop weight
theorem adj_at1 (a b : Fin 4096) : (V1 m ρ c main_call0_v1 : Vec Ideal S4096x4096 .f32) (ix2 a b) = ADJ m c a b :=
  adj_apply m ρ c a b
theorem adj_at2 (a b : Fin 4096) : (V2 m ρ c main_call0_v1 : Vec Ideal S4096x4096 .f32) (ix2 a b) = ADJ m c a b := by
  rw [adj2 m ρ c]; exact adj_at1 m ρ c a b
theorem adj_at3 (a b : Fin 4096) : (V3 m ρ c main_call0_v1 : Vec Ideal S4096x4096 .f32) (ix2 a b) = ADJ m c a b := by
  rw [adj3 m ρ c]; exact adj_at2 m ρ c a b
theorem adj_at4 (a b : Fin 4096) : (V4 m ρ c main_call0_v1 : Vec Ideal S4096x4096 .f32) (ix2 a b) = ADJ m c a b := by
  rw [adj4 m ρ c]; exact adj_at3 m ρ c a b

theorem la_at1 : (V1 m ρ c main_call0_v2 : Vec Ideal S1x1 .f32) (ix2 0 0) = LA m c := la_apply m ρ c
theorem la_at2 : (V2 m ρ c main_call0_v2 : Vec Ideal S1x1 .f32) (ix2 0 0) = LA m c := by
  rw [la2 m ρ c]; exact la_at1 m ρ c
theorem la_at3 : (V3 m ρ c main_call0_v2 : Vec Ideal S1x1 .f32) (ix2 0 0) = LA m c := by
  rw [la3 m ρ c]; exact la_at2 m ρ c
theorem la_at4 : (V4 m ρ c main_call0_v2 : Vec Ideal S1x1 .f32) (ix2 0 0) = LA m c := by
  rw [la4 m ρ c]; exact la_at3 m ρ c

-- pass 0: the scalings, wherever a later pass finds them
theorem d_at2 (a : Fin 4096) (u : Fin 1) :
    (V2 m ρ c main_call0_v19_0 : Vec Ideal S4096x1 .f32) (ix2 a u) = kD (ADJ m c) (LA m c) a := by
  rw [d2 m ρ c]
  exact Region0.d_apply (V1 m ρ) c (ADJ m c) (LA m c) (adj_at1 m ρ c) (la_at1 m ρ c) a u
theorem d_at3 (a : Fin 4096) (u : Fin 1) :
    (V3 m ρ c main_call0_v19_0 : Vec Ideal S4096x1 .f32) (ix2 a u) = kD (ADJ m c) (LA m c) a := by
  rw [d3 m ρ c]; exact d_at2 m ρ c a u
theorem d_at4 (a : Fin 4096) (u : Fin 1) :
    (V4 m ρ c main_call0_v19_0 : Vec Ideal S4096x1 .f32) (ix2 a u) = kD (ADJ m c) (LA m c) a := by
  rw [d4 m ρ c]; exact d_at3 m ρ c a u

-- pass 0: the scaled encoder inputs
theorem dxw_at2 (a : Fin 4096) (b : Fin 256) :
    (V2 m ρ c main_call0_v19_1 : Vec Ideal S4096x256 .f32) (ix2 a b)
      = kDxw (X m c) (ADJ m c) (LA m c) (WE1 m c) (WH1 m c) a b := by
  rw [dxw2 m ρ c]
  exact Region0.dxw_apply (V1 m ρ) c (ADJ m c) (LA m c) (X m c) (sideBySide (WE1 m c) (WH1 m c))
    (adj_at1 m ρ c) (la_at1 m ρ c) (x_apply m ρ c) (wenc_apply m ρ c) a b

-- pass 1
theorem w2_at2 (a b : Fin 256) :
    (V2 m ρ c main_call0_v7 : Vec Ideal S256x256 .f32) (ix2 a b) = blockDiag (WE2 m c) (WH2 m c) a b := by
  rw [w2_2 m ρ c]; exact w2_apply m ρ c a b
theorem dhw_at3 (a : Fin 4096) (b : Fin 256) :
    (V3 m ρ c main_call0_v20 : Vec Ideal S4096x256 .f32) (ix2 a b)
      = kDhw (X m c) (ADJ m c) (LA m c) (WE1 m c) (WE2 m c) (WH1 m c) (WH2 m c) a b := by
  rw [dhw3 m ρ c]
  exact Region1.dhw_apply (V2 m ρ) c (ADJ m c) (LA m c) (kD (ADJ m c) (LA m c))
    (kDxw (X m c) (ADJ m c) (LA m c) (WE1 m c) (WH1 m c)) (blockDiag (WE2 m c) (WH2 m c))
    (adj_at2 m ρ c) (dxw_at2 m ρ c) (d_at2 m ρ c) (la_at2 m ρ c) (w2_at2 m ρ c) a b

-- pass 2: its padded weights, then its four results
theorem wd_at3 (a b : Fin 128) :
    (V3 m ρ c main_call0_v10 : Vec Ideal S128x128 .f32) (ix2 a b) = padCols (WD m c) a b := by
  rw [wd3 m ρ c, wd2 m ρ c]; exact wd_apply m ρ c a b
theorem wm_at3 (a b : Fin 128) :
    (V3 m ρ c main_call0_v13 : Vec Ideal S128x128 .f32) (ix2 a b) = padCols (WMLP m c) a b := by
  rw [wm3 m ρ c, wm2 m ρ c]; exact wm_apply m ρ c a b
theorem b_at3 (u : Fin 1) (a : Fin 128) :
    (V3 m ρ c main_call0_v18 : Vec Ideal S1x128 .f32) (ix2 u a) = padVec (BMLP m c) a := by
  rw [b3 m ρ c, b2 m ρ c]; exact b_apply m ρ c u a

theorem e2_at4 (a : Fin 4096) (b : Fin 128) :
    (V4 m ρ c main_v0_2 : Vec Ideal S4096x128 .f32) (ix2 a b)
      = kE2 (X m c) (ADJ m c) (LA m c) (WE1 m c) (WE2 m c) (WH1 m c) (WH2 m c) a b := by
  rw [e2_4 m ρ c]
  exact Region2.e2_apply (V3 m ρ) c (ADJ m c) (LA m c) (kD (ADJ m c) (LA m c))
    (kDhw (X m c) (ADJ m c) (LA m c) (WE1 m c) (WE2 m c) (WH1 m c) (WH2 m c))
    (adj_at3 m ρ c) (dhw_at3 m ρ c) (d_at3 m ρ c) (la_at3 m ρ c) a b
theorem hh2_at4 (a : Fin 4096) (b : Fin 128) :
    (V4 m ρ c main_v0_3 : Vec Ideal S4096x128 .f32) (ix2 a b)
      = kHh2 (X m c) (ADJ m c) (LA m c) (WE1 m c) (WE2 m c) (WH1 m c) (WH2 m c) a b := by
  rw [hh2_4 m ρ c]
  exact Region2.hh2_apply (V3 m ρ) c (ADJ m c) (LA m c) (kD (ADJ m c) (LA m c))
    (kDhw (X m c) (ADJ m c) (LA m c) (WE1 m c) (WE2 m c) (WH1 m c) (WH2 m c))
    (adj_at3 m ρ c) (dhw_at3 m ρ c) (d_at3 m ρ c) (la_at3 m ρ c) a b
theorem ln_at4 (a : Fin 4096) (b : Fin 128) :
    (V4 m ρ c main_call0_v21_2 : Vec Ideal S4096x128 .f32) (ix2 a b)
      = kLn (X m c) (ADJ m c) (LA m c) (WE1 m c) (WE2 m c) (WH1 m c) (WH2 m c) (padCols (WMLP m c)) (padVec (BMLP m c)) a b := by
  rw [ln4 m ρ c]
  exact Region2.ln_apply (V3 m ρ) c (ADJ m c) (LA m c) (kD (ADJ m c) (LA m c))
    (kDhw (X m c) (ADJ m c) (LA m c) (WE1 m c) (WE2 m c) (WH1 m c) (WH2 m c)) (padCols (WMLP m c)) (padVec (BMLP m c))
    (adj_at3 m ρ c) (dhw_at3 m ρ c) (d_at3 m ρ c) (la_at3 m ρ c) (wm_at3 m ρ c) (b_at3 m ρ c) a b
theorem dz_at4 (a : Fin 4096) (b : Fin 128) :
    (V4 m ρ c main_call0_v21_3 : Vec Ideal S4096x128 .f32) (ix2 a b)
      = kDz (X m c) (ADJ m c) (LA m c) (WE1 m c) (WE2 m c) (WH1 m c) (WH2 m c) (padCols (WD m c)) a b := by
  rw [dz4 m ρ c]
  exact Region2.dz_apply (V3 m ρ) c (ADJ m c) (LA m c) (kD (ADJ m c) (LA m c))
    (kDhw (X m c) (ADJ m c) (LA m c) (WE1 m c) (WE2 m c) (WH1 m c) (WH2 m c)) (padCols (WD m c))
    (adj_at3 m ρ c) (dhw_at3 m ρ c) (d_at3 m ρ c) (la_at3 m ρ c) (wd_at3 m ρ c) a b

-- pass 3
theorem out_at5 (a : Fin 4096) (b : Fin 128) :
    (V5 m ρ c main_call0_v22 : Vec Ideal S4096x128 .f32) (ix2 a b)
      = kOut (X m c) (ADJ m c) (LA m c) (WE1 m c) (WE2 m c) (WH1 m c) (WH2 m c) (padCols (WD m c)) a b := by
  rw [out5 m ρ c]
  exact Region3.out_apply (V4 m ρ) c (ADJ m c) (LA m c) (kD (ADJ m c) (LA m c))
    (kDz (X m c) (ADJ m c) (LA m c) (WE1 m c) (WE2 m c) (WH1 m c) (WH2 m c) (padCols (WD m c)))
    (adj_at4 m ρ c) (dz_at4 m ρ c) (d_at4 m ρ c) (la_at4 m ρ c) a b
end Values

/-! ## The four results -/

/-- The decoder's logits. -/
theorem logits_apply (c : Dev nD) (u : Fin 1) (p : Fin 4096) (q : Fin 40) :
    (W6 m ρ c (Proc.devRef .tc main_v0_0) : Vec Ideal S1x4096x40 .f32) (ix3 u p q)
      = kLogits (X m c) (ADJ m c) (LA m c) (WE1 m c) (WE2 m c) (WH1 m c) (WH2 m c) (WD m c) p q :=
  (HostPost.logits_apply m ρ c u p q).trans (out_at5 m ρ c p _)

/-- The node head's logits. -/
theorem logitsNode_apply (c : Dev nD) (u : Fin 1) (p : Fin 4096) (q : Fin 40) :
    (W6 m ρ c (Proc.devRef .tc main_v0_1) : Vec Ideal S1x4096x40 .f32) (ix3 u p q)
      = kLogitsNode (X m c) (ADJ m c) (LA m c) (WE1 m c) (WE2 m c) (WH1 m c) (WH2 m c) (WMLP m c) (BMLP m c) p q := by
  refine (HostPost.logitsNode_apply m ρ c u p q).trans ?_
  show (V5 m ρ c main_call0_v21_2 : Vec Ideal S4096x128 .f32) _ = _
  rw [ln5 m ρ c]
  exact ln_at4 m ρ c p _

/-- The first branch's output. -/
theorem e2_apply (c : Dev nD) (p : Fin 4096) (q : Fin 128) :
    (W6 m ρ c (Proc.devRef .tc main_v0_2) : Vec Ideal S4096x128 .f32) (ix2 p q)
      = kE2 (X m c) (ADJ m c) (LA m c) (WE1 m c) (WE2 m c) (WH1 m c) (WH2 m c) p q := by
  rw [HostPost.e2_keep m ρ c]
  show (V5 m ρ c main_v0_2 : Vec Ideal S4096x128 .f32) _ = _
  rw [e2_5 m ρ c]
  exact e2_at4 m ρ c p q

/-- The second branch's output. -/
theorem hh2_apply (c : Dev nD) (p : Fin 4096) (q : Fin 128) :
    (W6 m ρ c (Proc.devRef .tc main_v0_3) : Vec Ideal S4096x128 .f32) (ix2 p q)
      = kHh2 (X m c) (ADJ m c) (LA m c) (WE1 m c) (WE2 m c) (WH1 m c) (WH2 m c) p q := by
  rw [HostPost.hh2_keep m ρ c]
  show (V5 m ρ c main_v0_3 : Vec Ideal S4096x128 .f32) _ = _
  rw [hh2_5 m ρ c]
  exact hh2_at4 m ρ c p q

end Cert.KernelIdeal.KernelValue

end
-- ==== Proof.RefValue.lean ====
import proofs.«117501_g49246095016346_cont_8to1c4_490_2_alg».proof.Proof.Gen.ReferenceIdeal.Read
import proofs.«117501_g49246095016346_cont_8to1c4_490_2_alg».proof.Proof.Coords
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Value Cert.ReferenceIdeal.Read Cert.Gcn

variable (m : (ℓ : Loc nD τ sig) → Buf (Elt Ideal) ℓ)

/-- The argument arrays of @main, read by coordinates. -/
abbrev X (c : Dev nD) : Mat 4096 128 := mat3 (m ((c.tc : Thread nD τ).loc main_arg0) : Vec Ideal S1x4096x128 .f32)
abbrev ADJ (c : Dev nD) : Mat 4096 4096 := mat3 (m ((c.tc : Thread nD τ).loc main_arg1) : Vec Ideal S1x4096x4096 .f32)
abbrev LA (c : Dev nD) : EReal := scal (m ((c.tc : Thread nD τ).loc main_arg2) : Vec Ideal S_ .f32)
abbrev WE1 (c : Dev nD) : Mat 128 128 := mat2 (m ((c.tc : Thread nD τ).loc main_arg3) : Vec Ideal S128x128 .f32)
abbrev WE2 (c : Dev nD) : Mat 128 128 := mat2 (m ((c.tc : Thread nD τ).loc main_arg4) : Vec Ideal S128x128 .f32)
abbrev WH1 (c : Dev nD) : Mat 128 128 := mat2 (m ((c.tc : Thread nD τ).loc main_arg5) : Vec Ideal S128x128 .f32)
abbrev WH2 (c : Dev nD) : Mat 128 128 := mat2 (m ((c.tc : Thread nD τ).loc main_arg6) : Vec Ideal S128x128 .f32)
abbrev WD (c : Dev nD) : Mat 128 40 := mat2 (m ((c.tc : Thread nD τ).loc main_arg7) : Vec Ideal S128x40 .f32)
abbrev WMLP (c : Dev nD) : Mat 128 40 := mat2 (m ((c.tc : Thread nD τ).loc main_arg8) : Vec Ideal S128x40 .f32)
abbrev BMLP (c : Dev nD) : Fin 40 → EReal := vec1 (m ((c.tc : Thread nD τ).loc main_arg9) : Vec Ideal S40 .f32)

/-! ## The self-looped adjacency -/

/-- Two 32-bit words made from naturals below `2 ^ 32` are equal exactly when the naturals are. -/
private theorem cmpi_eq_ofNat (a b : ℕ) (ha : a < 2 ^ 32) (hb : b < 2 ^ 32) :
    IntOp.cmpi .eq (IntOp.addi (BitVec.ofNat 32 a) 0#32) (BitVec.ofNat 32 b) = if a = b then 1#1 else 0#1 := by
  unfold IntOp.cmpi IntOp.addi
  simp only [BitVec.add_zero]
  by_cases h : a = b
  · subst h; simp
  · rw [if_neg h]
    have hne : BitVec.ofNat 32 a ≠ BitVec.ofNat 32 b := by
      intro e
      have e' := congrArg BitVec.toNat e
      simp only [BitVec.toNat_ofNat] at e'
      rw [Nat.mod_eq_of_lt ha, Nat.mod_eq_of_lt hb] at e'
      exact h e'
    show BitVec.ofBool (BitVec.ofNat 32 a == BitVec.ofNat 32 b) = 0#1
    rw [beq_eq_false_iff_ne.mpr hne]
    rfl

/-- The program's identity matrix at `(u, p, j)`: one on the diagonal, zero off it. -/
private theorem eye_apply (u : Fin 1) (p j : Fin 4096) :
    val_main_v6 (F := Ideal) (ix3 u p j) = if p = j then 1 else 0 := by
  rw [val_main_v6_apply, val_main_v5_apply, val_main_v4_apply, val_main_v3_apply, val_main_v2_apply,
    val_main_c_apply, val_main_v0_apply, val_main_v1_apply]
  show (((IntOp.cmpi .eq (IntOp.addi (BitVec.ofNat 32 p.val) 0#32) (BitVec.ofNat 32 j.val)).toNat : ℝ) : EReal) = _
  rw [cmpi_eq_ofNat p.val j.val (by have := p.isLt; omega) (by have := j.isLt; omega)]
  by_cases h : p = j
  · rw [if_pos h, if_pos (congrArg Fin.val h)]; simp
  · rw [if_neg h, if_neg (fun e => h (Fin.ext e))]; simp

/-- Stage `%9`: the adjacency plus the self-loop weight on the diagonal. -/
private theorem v9_apply (x1 : Vec Ideal S1x4096x4096 .f32) (x2 : Vec Ideal S_ .f32) (u : Fin 1) (p j : Fin 4096) :
    val_main_v9 (F := Ideal) x1 x2 (ix3 u p j) = rAdjL (mat3 x1) (scal x2) p j := by
  rw [val_main_v9_apply, val_main_v8_apply, val_main_v7_apply, eye_apply]
  obtain rfl : u = 0 := Subsingleton.elim _ _
  rfl

/-- The index the row sum reads: row `p`, column `k`. -/
private theorem idx_v10 (u : Fin 1) (p k : Fin 4096) : idx_main_v10 (ix2 u p) k = ix3 u p k :=
  funext fun a => Fin.ext (by match a with | ⟨0, _⟩ => rfl | ⟨1, _⟩ => rfl | ⟨2, _⟩ => rfl)

/-- Stage `%10`: the degree, the row sum of the self-looped adjacency. -/
private theorem v10_apply (x1 : Vec Ideal S1x4096x4096 .f32) (x2 : Vec Ideal S_ .f32) (u : Fin 1) (p : Fin 4096) :
    val_main_v10 (F := Ideal) x1 x2 (ix2 u p) = rDeg (mat3 x1) (scal x2) p := by
  rw [val_main_v10_apply, val_main_cst_apply, Ideal.ofBits_def, Ideal.ofBits_zero_f32, zero_add]
  unfold rDeg
  refine Finset.sum_congr rfl fun k _ => ?_
  rw [idx_v10]
  exact v9_apply x1 x2 u p k

/-! ## The normalisation -/

/-- Stage `%16`: one over the square root of the degree where the degree is positive, zero elsewhere. -/
private theorem v16_apply (x1 : Vec Ideal S1x4096x4096 .f32) (x2 : Vec Ideal S_ .f32) (u : Fin 1) (p : Fin 4096) :
    val_main_v16 (F := Ideal) x1 x2 (ix2 u p) = rDis (mat3 x1) (scal x2) p := by
  rw [val_main_v16_apply, val_main_v12_apply, val_main_v15_apply, val_main_v14_apply, val_main_cst_1_apply,
    val_main_v13_apply, val_main_v11_apply, val_main_cst_0_apply, val_main_call0_v1_apply,
    val_main_call0_v0_apply, val_main_cst_2_apply, v10_apply]
  simp only [Ideal.ofBits_def, Ideal.ofBits_zero_f32, Ideal.ofBits_one_f32, Ideal.hostDivf_def,
    Ideal.hostUnary_sqrt_def, Ideal.cmpf_def]
  unfold rDis
  by_cases h : 0 < rDeg (mat3 x1) (scal x2) p
  · rw [if_pos h]
    have hc : Ideal.cmp .ogt (rDeg (mat3 x1) (scal x2) p) 0 = 1#1 := by
      show BitVec.ofBool (decide (0 < rDeg (mat3 x1) (scal x2) p)) = 1#1
      rw [decide_eq_true h]; rfl
    rw [hc, select_one]
  · rw [if_neg h]
    have hc : Ideal.cmp .ogt (rDeg (mat3 x1) (scal x2) p) 0 = 0#1 := by
      show BitVec.ofBool (decide (0 < rDeg (mat3 x1) (scal x2) p)) = 0#1
      rw [decide_eq_false h]; rfl
    rw [hc, select_zero]

/-- The reshaped adjacency's index `(p, j)` is `(0, p, j)` of the rank-3 array. -/
private theorem idx_v24 (p j : Fin 4096) : idx_main_v24 (ix2 p j) = ix3 (0 : Fin 1) p j :=
  funext fun a => Fin.ext (by
    have hp := p.isLt
    have hj := j.isLt
    match a with
    | ⟨0, _⟩ => rfl
    | ⟨1, _⟩ => show (p.val * 4096 + j.val) / 4096 % 4096 = p.val; omega
    | ⟨2, _⟩ => show (p.val * 4096 + j.val) % 4096 = j.val; omega)

/-- The row scaling is read at row `p` … -/
private theorem idx_v18 (p j : Fin 4096) : idx_main_v17 (idx_main_v18 (ix3 (0 : Fin 1) p j)) = ix2 (0 : Fin 1) p :=
  funext fun a => Fin.ext (by match a with | ⟨0, _⟩ => rfl | ⟨1, _⟩ => rfl)

/-- … and the column scaling at row `j`. -/
private theorem idx_v21 (p j : Fin 4096) : idx_main_v20 (idx_main_v21 (ix3 (0 : Fin 1) p j)) = ix2 (0 : Fin 1) j :=
  funext fun a => Fin.ext (by match a with | ⟨0, _⟩ => rfl | ⟨1, _⟩ => rfl)

/-- Stage `%24`: the symmetrically normalised adjacency, as a rank-2 array. -/
private theorem v24_apply (x1 : Vec Ideal S1x4096x4096 .f32) (x2 : Vec Ideal S_ .f32) (p j : Fin 4096) :
    val_main_v24 (F := Ideal) x1 x2 (ix2 p j) = rA (mat3 x1) (scal x2) p j := by
  rw [val_main_v24_apply, idx_v24, val_main_v22_apply, val_main_v19_apply, val_main_v18_apply, val_main_v17_apply,
    val_main_v21_apply, val_main_v20_apply, idx_v18, idx_v21, v9_apply, v16_apply, v16_apply]
  rfl

/-- The normalised adjacency as a matrix. -/
private theorem v24_eq (x1 : Vec Ideal S1x4096x4096 .f32) (x2 : Vec Ideal S_ .f32) :
    mat2 (val_main_v24 (F := Ideal) x1 x2) = rA (mat3 x1) (scal x2) :=
  funext fun p => funext fun j => v24_apply x1 x2 p j

/-! ## The products

A `dot_general` read at `(p, q)` sums over `k` the left operand at `(p, k)` times the right at `(k, q)`: the matrix
product of the two operands read by coordinates. -/

/-- The left operand's index of a product at `(p, q)`, term `k`. -/
private theorem lidx_eq {a b c : ℕ} (p : Fin a) (q : Fin c) (k : Fin b)
    (f : (⟨2, ![a, c]⟩ : Shape).Idx → Fin b → (⟨2, ![a, b]⟩ : Shape).Idx)
    (h0 : ∀ i k, ((f i k) 0).val = (i 0).val) (h1 : ∀ i k, ((f i k) 1).val = k.val) :
    f (ix2 p q) k = ix2 p k :=
  funext fun d => Fin.ext (by
    match d with
    | ⟨0, _⟩ => exact h0 _ _
    | ⟨1, _⟩ => exact h1 _ _)

/-- The right operand's index of a product at `(p, q)`, term `k`. -/
private theorem ridx_eq {a b c : ℕ} (p : Fin a) (q : Fin c) (k : Fin b)
    (f : (⟨2, ![a, c]⟩ : Shape).Idx → Fin b → (⟨2, ![b, c]⟩ : Shape).Idx)
    (h0 : ∀ i k, ((f i k) 0).val = k.val) (h1 : ∀ i k, ((f i k) 1).val = (i 1).val) :
    f (ix2 p q) k = ix2 k q :=
  funext fun d => Fin.ext (by
    match d with
    | ⟨0, _⟩ => exact h0 _ _
    | ⟨1, _⟩ => exact h1 _ _)

/-- The features, reshaped from `[1, 4096, 128]` to `[4096, 128]`. -/
private theorem idx_v23 (p : Fin 4096) (k : Fin 128) : idx_main_v23 (ix2 p k) = ix3 (0 : Fin 1) p k :=
  funext fun a => Fin.ext (by
    have hp := p.isLt
    have hk := k.isLt
    match a with
    | ⟨0, _⟩ => rfl
    | ⟨1, _⟩ => show (p.val * 128 + k.val) / 128 % 4096 = p.val; omega
    | ⟨2, _⟩ => show (p.val * 128 + k.val) % 128 = k.val; omega)

/-- Stage `%23`: the node features as a matrix. -/
private theorem v23_eq (x0 : Vec Ideal S1x4096x128 .f32) : mat2 (val_main_v23 (F := Ideal) x0) = mat3 x0 :=
  funext fun p => funext fun k => by
    show val_main_v23 (F := Ideal) x0 (ix2 p k) = x0 (ix3 (0 : Fin 1) p k)
    rw [val_main_v23_apply, idx_v23]

/-- Stage `%25`: the features times the first branch's first-layer weights. -/
private theorem v25_eq (x0 : Vec Ideal S1x4096x128 .f32) (x3 : Vec Ideal S128x128 .f32) :
    mat2 (val_main_v25 (F := Ideal) x0 x3) = mm (mat3 x0) (mat2 x3) :=
  funext fun p => funext fun q => by
    show val_main_v25 (F := Ideal) x0 x3 (ix2 p q) = ∑ k, mat3 x0 p k * mat2 x3 k q
    rw [val_main_v25_apply, ← v23_eq]
    refine Finset.sum_congr rfl fun k _ => ?_
    rw [lidx_eq p q k lidx_main_v25 (fun _ _ => rfl) (fun _ _ => rfl),
      ridx_eq p q k ridx_main_v25 (fun _ _ => rfl) (fun _ _ => rfl)]
    rfl

/-- Stage `%26`: the first aggregation of the first branch. -/
private theorem v26_eq (x0 : Vec Ideal S1x4096x128 .f32) (x1 : Vec Ideal S1x4096x4096 .f32) (x2 : Vec Ideal S_ .f32) (x3 : Vec Ideal S128x128 .f32) :
    mat2 (val_main_v26 (F := Ideal) x0 x1 x2 x3) = mm (rA (mat3 x1) (scal x2)) (mm (mat3 x0) (mat2 x3)) :=
  funext fun p => funext fun q => by
    show val_main_v26 (F := Ideal) x0 x1 x2 x3 (ix2 p q) = ∑ k, (rA (mat3 x1) (scal x2)) p k * (mm (mat3 x0) (mat2 x3)) k q
    rw [val_main_v26_apply, ← v25_eq x0 x3, ← v24_eq x1 x2]
    refine Finset.sum_congr rfl fun k _ => ?_
    rw [lidx_eq p q k lidx_main_v26 (fun _ _ => rfl) (fun _ _ => rfl),
      ridx_eq p q k ridx_main_v26 (fun _ _ => rfl) (fun _ _ => rfl)]
    rfl

/-- Stage `%27`: the first branch's hidden layer, rectified. -/
private theorem v27_eq (x0 : Vec Ideal S1x4096x128 .f32) (x1 : Vec Ideal S1x4096x4096 .f32) (x2 : Vec Ideal S_ .f32) (x3 : Vec Ideal S128x128 .f32) :
    mat2 (val_main_v27 (F := Ideal) x0 x1 x2 x3) = relu (mm (rA (mat3 x1) (scal x2)) (mm (mat3 x0) (mat2 x3))) :=
  funext fun p => funext fun q => by
    show val_main_v27 (F := Ideal) x0 x1 x2 x3 (ix2 p q) = max ((mm (rA (mat3 x1) (scal x2)) (mm (mat3 x0) (mat2 x3))) p q) 0
    rw [val_main_v27_apply, val_main_call1_v0_apply, val_main_call1_cst_apply, Ideal.ofBits_def,
      Ideal.ofBits_zero_f32, Ideal.maximumf_def, ← v26_eq x0 x1 x2 x3]
    rfl

/-- Stage `%28`: the hidden layer times the second-layer weights. -/
private theorem v28_eq (x0 : Vec Ideal S1x4096x128 .f32) (x1 : Vec Ideal S1x4096x4096 .f32) (x2 : Vec Ideal S_ .f32) (x3 : Vec Ideal S128x128 .f32) (x4 : Vec Ideal S128x128 .f32) :
    mat2 (val_main_v28 (F := Ideal) x0 x1 x2 x3 x4) = mm (relu (mm (rA (mat3 x1) (scal x2)) (mm (mat3 x0) (mat2 x3)))) (mat2 x4) :=
  funext fun p => funext fun q => by
    show val_main_v28 (F := Ideal) x0 x1 x2 x3 x4 (ix2 p q) = ∑ k, (relu (mm (rA (mat3 x1) (scal x2)) (mm (mat3 x0) (mat2 x3)))) p k * (mat2 x4) k q
    rw [val_main_v28_apply, ← v27_eq x0 x1 x2 x3]
    refine Finset.sum_congr rfl fun k _ => ?_
    rw [lidx_eq p q k lidx_main_v28 (fun _ _ => rfl) (fun _ _ => rfl),
      ridx_eq p q k ridx_main_v28 (fun _ _ => rfl) (fun _ _ => rfl)]
    rfl

/-- Stage `%29`: the first branch's output. -/
private theorem v29_eq (x0 : Vec Ideal S1x4096x128 .f32) (x1 : Vec Ideal S1x4096x4096 .f32) (x2 : Vec Ideal S_ .f32) (x3 : Vec Ideal S128x128 .f32) (x4 : Vec Ideal S128x128 .f32) :
    mat2 (val_main_v29 (F := Ideal) x0 x1 x2 x3 x4) = mm (rA (mat3 x1) (scal x2)) (mm (relu (mm (rA (mat3 x1) (scal x2)) (mm (mat3 x0) (mat2 x3)))) (mat2 x4)) :=
  funext fun p => funext fun q => by
    show val_main_v29 (F := Ideal) x0 x1 x2 x3 x4 (ix2 p q) = ∑ k, (rA (mat3 x1) (scal x2)) p k * (mm (relu (mm (rA (mat3 x1) (scal x2)) (mm (mat3 x0) (mat2 x3)))) (mat2 x4)) k q
    rw [val_main_v29_apply, ← v28_eq x0 x1 x2 x3 x4, ← v24_eq x1 x2]
    refine Finset.sum_congr rfl fun k _ => ?_
    rw [lidx_eq p q k lidx_main_v29 (fun _ _ => rfl) (fun _ _ => rfl),
      ridx_eq p q k ridx_main_v29 (fun _ _ => rfl) (fun _ _ => rfl)]
    rfl

/-- Stage `%30`: the features times the second branch's first-layer weights. -/
private theorem v30_eq (x0 : Vec Ideal S1x4096x128 .f32) (x5 : Vec Ideal S128x128 .f32) :
    mat2 (val_main_v30 (F := Ideal) x0 x5) = mm (mat3 x0) (mat2 x5) :=
  funext fun p => funext fun q => by
    show val_main_v30 (F := Ideal) x0 x5 (ix2 p q) = ∑ k, mat3 x0 p k * mat2 x5 k q
    rw [val_main_v30_apply, ← v23_eq]
    refine Finset.sum_congr rfl fun k _ => ?_
    rw [lidx_eq p q k lidx_main_v30 (fun _ _ => rfl) (fun _ _ => rfl),
      ridx_eq p q k ridx_main_v30 (fun _ _ => rfl) (fun _ _ => rfl)]
    rfl

/-- Stage `%31`: the first aggregation of the second branch. -/
private theorem v31_eq (x0 : Vec Ideal S1x4096x128 .f32) (x1 : Vec Ideal S1x4096x4096 .f32) (x2 : Vec Ideal S_ .f32) (x5 : Vec Ideal S128x128 .f32) :
    mat2 (val_main_v31 (F := Ideal) x0 x1 x2 x5) = mm (rA (mat3 x1) (scal x2)) (mm (mat3 x0) (mat2 x5)) :=
  funext fun p => funext fun q => by
    show val_main_v31 (F := Ideal) x0 x1 x2 x5 (ix2 p q) = ∑ k, (rA (mat3 x1) (scal x2)) p k * (mm (mat3 x0) (mat2 x5)) k q
    rw [val_main_v31_apply, ← v30_eq x0 x5, ← v24_eq x1 x2]
    refine Finset.sum_congr rfl fun k _ => ?_
    rw [lidx_eq p q k lidx_main_v31 (fun _ _ => rfl) (fun _ _ => rfl),
      ridx_eq p q k ridx_main_v31 (fun _ _ => rfl) (fun _ _ => rfl)]
    rfl

/-- Stage `%32`: the second branch's hidden layer, rectified. -/
private theorem v32_eq (x0 : Vec Ideal S1x4096x128 .f32) (x1 : Vec Ideal S1x4096x4096 .f32) (x2 : Vec Ideal S_ .f32) (x5 : Vec Ideal S128x128 .f32) :
    mat2 (val_main_v32 (F := Ideal) x0 x1 x2 x5) = relu (mm (rA (mat3 x1) (scal x2)) (mm (mat3 x0) (mat2 x5))) :=
  funext fun p => funext fun q => by
    show val_main_v32 (F := Ideal) x0 x1 x2 x5 (ix2 p q) = max ((mm (rA (mat3 x1) (scal x2)) (mm (mat3 x0) (mat2 x5))) p q) 0
    rw [val_main_v32_apply, val_main_call2_v0_apply, val_main_call2_cst_apply, Ideal.ofBits_def,
      Ideal.ofBits_zero_f32, Ideal.maximumf_def, ← v31_eq x0 x1 x2 x5]
    rfl

/-- Stage `%33`: the hidden layer times the second-layer weights. -/
private theorem v33_eq (x0 : Vec Ideal S1x4096x128 .f32) (x1 : Vec Ideal S1x4096x4096 .f32) (x2 : Vec Ideal S_ .f32) (x5 : Vec Ideal S128x128 .f32) (x6 : Vec Ideal S128x128 .f32) :
    mat2 (val_main_v33 (F := Ideal) x0 x1 x2 x5 x6) = mm (relu (mm (rA (mat3 x1) (scal x2)) (mm (mat3 x0) (mat2 x5)))) (mat2 x6) :=
  funext fun p => funext fun q => by
    show val_main_v33 (F := Ideal) x0 x1 x2 x5 x6 (ix2 p q) = ∑ k, (relu (mm (rA (mat3 x1) (scal x2)) (mm (mat3 x0) (mat2 x5)))) p k * (mat2 x6) k q
    rw [val_main_v33_apply, ← v32_eq x0 x1 x2 x5]
    refine Finset.sum_congr rfl fun k _ => ?_
    rw [lidx_eq p q k lidx_main_v33 (fun _ _ => rfl) (fun _ _ => rfl),
      ridx_eq p q k ridx_main_v33 (fun _ _ => rfl) (fun _ _ => rfl)]
    rfl

/-- Stage `%34`: the second branch's output. -/
private theorem v34_eq (x0 : Vec Ideal S1x4096x128 .f32) (x1 : Vec Ideal S1x4096x4096 .f32) (x2 : Vec Ideal S_ .f32) (x5 : Vec Ideal S128x128 .f32) (x6 : Vec Ideal S128x128 .f32) :
    mat2 (val_main_v34 (F := Ideal) x0 x1 x2 x5 x6) = mm (rA (mat3 x1) (scal x2)) (mm (relu (mm (rA (mat3 x1) (scal x2)) (mm (mat3 x0) (mat2 x5)))) (mat2 x6)) :=
  funext fun p => funext fun q => by
    show val_main_v34 (F := Ideal) x0 x1 x2 x5 x6 (ix2 p q) = ∑ k, (rA (mat3 x1) (scal x2)) p k * (mm (relu (mm (rA (mat3 x1) (scal x2)) (mm (mat3 x0) (mat2 x5)))) (mat2 x6)) k q
    rw [val_main_v34_apply, ← v33_eq x0 x1 x2 x5 x6, ← v24_eq x1 x2]
    refine Finset.sum_congr rfl fun k _ => ?_
    rw [lidx_eq p q k lidx_main_v34 (fun _ _ => rfl) (fun _ _ => rfl),
      ridx_eq p q k ridx_main_v34 (fun _ _ => rfl) (fun _ _ => rfl)]
    rfl

/-- Stage `%35`: the decoder's projection of the second branch's output. -/
private theorem v35_eq (x0 : Vec Ideal S1x4096x128 .f32) (x1 : Vec Ideal S1x4096x4096 .f32) (x2 : Vec Ideal S_ .f32) (x5 : Vec Ideal S128x128 .f32) (x6 : Vec Ideal S128x128 .f32) (x7 : Vec Ideal S128x40 .f32) :
    mat2 (val_main_v35 (F := Ideal) x0 x1 x2 x5 x6 x7) = mm (mm (rA (mat3 x1) (scal x2)) (mm (relu (mm (rA (mat3 x1) (scal x2)) (mm (mat3 x0) (mat2 x5)))) (mat2 x6))) (mat2 x7) :=
  funext fun p => funext fun q => by
    show val_main_v35 (F := Ideal) x0 x1 x2 x5 x6 x7 (ix2 p q) = ∑ k, (mm (rA (mat3 x1) (scal x2)) (mm (relu (mm (rA (mat3 x1) (scal x2)) (mm (mat3 x0) (mat2 x5)))) (mat2 x6))) p k * (mat2 x7) k q
    rw [val_main_v35_apply, ← v34_eq x0 x1 x2 x5 x6]
    refine Finset.sum_congr rfl fun k _ => ?_
    rw [lidx_eq p q k lidx_main_v35 (fun _ _ => rfl) (fun _ _ => rfl),
      ridx_eq p q k ridx_main_v35 (fun _ _ => rfl) (fun _ _ => rfl)]
    rfl

/-- Stage `%36`: the decoder's aggregation. -/
private theorem v36_eq (x0 : Vec Ideal S1x4096x128 .f32) (x1 : Vec Ideal S1x4096x4096 .f32) (x2 : Vec Ideal S_ .f32) (x5 : Vec Ideal S128x128 .f32) (x6 : Vec Ideal S128x128 .f32) (x7 : Vec Ideal S128x40 .f32) :
    mat2 (val_main_v36 (F := Ideal) x0 x1 x2 x5 x6 x7) = mm (rA (mat3 x1) (scal x2)) (mm (mm (rA (mat3 x1) (scal x2)) (mm (relu (mm (rA (mat3 x1) (scal x2)) (mm (mat3 x0) (mat2 x5)))) (mat2 x6))) (mat2 x7)) :=
  funext fun p => funext fun q => by
    show val_main_v36 (F := Ideal) x0 x1 x2 x5 x6 x7 (ix2 p q) = ∑ k, (rA (mat3 x1) (scal x2)) p k * (mm (mm (rA (mat3 x1) (scal x2)) (mm (relu (mm (rA (mat3 x1) (scal x2)) (mm (mat3 x0) (mat2 x5)))) (mat2 x6))) (mat2 x7)) k q
    rw [val_main_v36_apply, ← v35_eq x0 x1 x2 x5 x6 x7, ← v24_eq x1 x2]
    refine Finset.sum_congr rfl fun k _ => ?_
    rw [lidx_eq p q k lidx_main_v36 (fun _ _ => rfl) (fun _ _ => rfl),
      ridx_eq p q k ridx_main_v36 (fun _ _ => rfl) (fun _ _ => rfl)]
    rfl

/-- Stage `%38`: the node head's projection of the first branch's output. -/
private theorem v38_eq (x0 : Vec Ideal S1x4096x128 .f32) (x1 : Vec Ideal S1x4096x4096 .f32) (x2 : Vec Ideal S_ .f32) (x3 : Vec Ideal S128x128 .f32) (x4 : Vec Ideal S128x128 .f32) (x8 : Vec Ideal S128x40 .f32) :
    mat2 (val_main_v38 (F := Ideal) x0 x1 x2 x3 x4 x8) = mm (mm (rA (mat3 x1) (scal x2)) (mm (relu (mm (rA (mat3 x1) (scal x2)) (mm (mat3 x0) (mat2 x3)))) (mat2 x4))) (mat2 x8) :=
  funext fun p => funext fun q => by
    show val_main_v38 (F := Ideal) x0 x1 x2 x3 x4 x8 (ix2 p q) = ∑ k, (mm (rA (mat3 x1) (scal x2)) (mm (relu (mm (rA (mat3 x1) (scal x2)) (mm (mat3 x0) (mat2 x3)))) (mat2 x4))) p k * (mat2 x8) k q
    rw [val_main_v38_apply, ← v29_eq x0 x1 x2 x3 x4]
    refine Finset.sum_congr rfl fun k _ => ?_
    rw [lidx_eq p q k lidx_main_v38 (fun _ _ => rfl) (fun _ _ => rfl),
      ridx_eq p q k ridx_main_v38 (fun _ _ => rfl) (fun _ _ => rfl)]
    rfl

/-- A `[4096, 40]` array laid under a leading unit axis is read at its last two coordinates. -/
private theorem idx_v37 (u : Fin 1) (p : Fin 4096) (q : Fin 40) : idx_main_v37 (ix3 u p q) = ix2 p q :=
  funext fun a => Fin.ext (by match a with | ⟨0, _⟩ => rfl | ⟨1, _⟩ => rfl)
private theorem idx_v42 (u : Fin 1) (p : Fin 4096) (q : Fin 40) : idx_main_v42 (ix3 u p q) = ix2 p q :=
  funext fun a => Fin.ext (by match a with | ⟨0, _⟩ => rfl | ⟨1, _⟩ => rfl)

/-- The bias row, broadcast down the rows, is read at its column. -/
private theorem idx_v40 (p : Fin 4096) (q : Fin 40) : idx_main_v39 (idx_main_v40 (ix2 p q)) = ix1 q :=
  funext fun a => Fin.ext (by match a with | ⟨0, _⟩ => rfl)

/-- Stage `%41`: the node head's projection plus the bias. -/
private theorem v41_apply (x0 : Vec Ideal S1x4096x128 .f32) (x1 : Vec Ideal S1x4096x4096 .f32) (x2 : Vec Ideal S_ .f32) (x3 : Vec Ideal S128x128 .f32) (x4 : Vec Ideal S128x128 .f32) (x8 : Vec Ideal S128x40 .f32) (x9 : Vec Ideal S40 .f32)
    (p : Fin 4096) (q : Fin 40) :
    val_main_v41 (F := Ideal) x0 x1 x2 x3 x4 x8 x9 (ix2 p q)
      = mm (mm (rA (mat3 x1) (scal x2)) (mm (relu (mm (rA (mat3 x1) (scal x2)) (mm (mat3 x0) (mat2 x3)))) (mat2 x4))) (mat2 x8) p q + vec1 x9 q := by
  rw [val_main_v41_apply, val_main_v40_apply, val_main_v39_apply, idx_v40, Ideal.addf_def, ← v38_eq]
  rfl

/-! ## The four results -/

/-- The decoder's logits, as the reference's run leaves them. -/
theorem logits_apply (c : Dev nD) (u : Fin 1) (p : Fin 4096) (q : Fin 40) :
    (res_main_v37 (F := Ideal) m c : Vec Ideal S1x4096x40 .f32) (ix3 u p q)
      = rOut (X m c) (ADJ m c) (LA m c) (WH1 m c) (WH2 m c) (WD m c) p q := by
  rw [val_main_v37_eq, val_main_v37_apply, idx_v37]
  exact congrFun (congrFun (v36_eq _ _ _ _ _ _) p) q

/-- The node head's logits, as the reference's run leaves them. -/
theorem logitsNode_apply (c : Dev nD) (u : Fin 1) (p : Fin 4096) (q : Fin 40) :
    (res_main_v42 (F := Ideal) m c : Vec Ideal S1x4096x40 .f32) (ix3 u p q)
      = rLn (X m c) (ADJ m c) (LA m c) (WE1 m c) (WE2 m c) (WMLP m c) (BMLP m c) p q := by
  rw [val_main_v42_eq, val_main_v42_apply, idx_v42]
  exact v41_apply _ _ _ _ _ _ _ p q

/-- The first branch's output, as the reference's run leaves it. -/
theorem e2_apply (c : Dev nD) (p : Fin 4096) (q : Fin 128) :
    (res_main_v29 (F := Ideal) m c : Vec Ideal S4096x128 .f32) (ix2 p q)
      = rE2 (X m c) (ADJ m c) (LA m c) (WE1 m c) (WE2 m c) p q := by
  rw [val_main_v29_eq]
  exact congrFun (congrFun (v29_eq _ _ _ _ _) p) q

/-- The second branch's output, as the reference's run leaves it. -/
theorem hh2_apply (c : Dev nD) (p : Fin 4096) (q : Fin 128) :
    (res_main_v34 (F := Ideal) m c : Vec Ideal S4096x128 .f32) (ix2 p q)
      = rHh2 (X m c) (ADJ m c) (LA m c) (WH1 m c) (WH2 m c) p q := by
  rw [val_main_v34_eq]
  exact congrFun (congrFun (v34_eq _ _ _ _ _) p) q

end Cert.ReferenceIdeal.RefValue

end
-- ==== Proof.Finite.lean ====
import proofs.«117501_g49246095016346_cont_8to1c4_490_2_alg».proof.Proof.Gen.Pre_finite_inputs
import proofs.«117501_g49246095016346_cont_8to1c4_490_2_alg».proof.Proof.Coords
import Idealize.ShloMosaic.Lib.ValueIdx
import Idealize.ShloMosaic.Lib.ReduceAll
import Idealize.ShloMosaic.PureOps.Ideal.Laws

noncomputable section

open Idealize.ShloMosaic Idealize.ShloMosaic.ValueIdx

namespace Cert.Pre_finite_inputs.Finite

open Cert.Pre_finite_inputs Cert.Pre_finite_inputs.Gen Cert.Gcn

/-- The rank-0 shape has exactly one index. -/
private instance subsingleton_scalar_idx : Subsingleton S_.Idx := ⟨fun a b => funext fun d => d.elim0⟩

/-- The word `0x7F800000` denotes `+∞`. -/
private theorem inf_word : Ideal.ofBits .f32 0x7F800000#32 = (⊤ : EReal) := by simp [Ideal.ofBits, Ideal.ieee]

/-- An extended real whose absolute value `max x (-x)` lies strictly below `+∞` is neither `+∞` nor `-∞`: it is a
    real number. -/
private theorem real_of_abs_lt_top (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  have h1 : x ≠ ⊤ := fun e => by simp [e] at hlt
  have h2 : x ≠ ⊥ := fun e => by simp [e] at hlt
  lift x to ℝ using ⟨h1, h2⟩
  exact ⟨x, rfl⟩

/-- The same over an array of any shape: where every entry's absolute value compares below an array that is `+∞`
    everywhere, the array is the coercion of an array of real numbers. -/
private theorem real_array {s : Shape} (x c : FVec Ideal s .f32)
    (hc : ∀ i, c i = Ideal.ofBits .f32 0x7F800000#32)
    (h : ∀ i, cmpf .olt (Host.absf x) c i = 1#1) : ∃ r : s.Idx → ℝ, x = fun i => (r i : EReal) := by
  have hx : ∀ i, ∃ r : ℝ, x i = (r : EReal) := fun i => by
    have hi := h i
    refine real_of_abs_lt_top (x i) ?_
    rw [← hc i]
    exact hi
  choose r hr using hx
  exact ⟨r, funext hr⟩

/-- The conjunction over all indices, read back: where the conjunction, over every index, of the comparisons of `|x|`
    against an array that is `+∞` everywhere comes out true, `x` is the coercion of an array of real numbers. -/
private theorem real_of_all {s : Shape} {axes : List (Fin s.rank)} (x c : FVec Ideal s .f32)
    (hc : ∀ i, c i = Ideal.ofBits .f32 0x7F800000#32) (init : IVec S_ 1) (hr : s.ReducesTo axes S_)
    (hu : 0 < S_.numel) (e : Host.reduce IntOp.andi (cmpf .olt (Host.absf x) c) init hr hu ix0 = 1#1) :
    ∃ r : s.Idx → ℝ, x = fun i => (r i : EReal) :=
  real_array x c hc fun i => Host.reduce_andi_all _ init hr hu ix0 e i

/-- Where the precondition holds (every entry of every argument has absolute value below `+∞`), every argument array is
    an array of real numbers. -/
theorem real_of_finite (a0 : FVec Ideal S1x4096x128 .f32) (a1 : FVec Ideal S1x4096x4096 .f32) (a2 : FVec Ideal S_ .f32)
    (a3 a4 a5 a6 : FVec Ideal S128x128 .f32) (a7 a8 : FVec Ideal S128x40 .f32) (a9 : FVec Ideal S40 .f32)
    (h : Cert.Pre_finite_inputs.fn (F := Ideal) a0 a1 a2 a3 a4 a5 a6 a7 a8 a9 = fun _ => 1#1) :
    (∃ r : Fin 4096 → Fin 128 → ℝ, mat3 a0 = fun p q => (r p q : EReal))
    ∧ (∃ r : Fin 4096 → Fin 4096 → ℝ, mat3 a1 = fun p q => (r p q : EReal))
    ∧ (∃ r : ℝ, scal a2 = (r : EReal))
    ∧ (∃ r : Fin 128 → Fin 128 → ℝ, mat2 a3 = fun p q => (r p q : EReal))
    ∧ (∃ r : Fin 128 → Fin 128 → ℝ, mat2 a4 = fun p q => (r p q : EReal))
    ∧ (∃ r : Fin 128 → Fin 128 → ℝ, mat2 a5 = fun p q => (r p q : EReal))
    ∧ (∃ r : Fin 128 → Fin 128 → ℝ, mat2 a6 = fun p q => (r p q : EReal))
    ∧ (∃ r : Fin 128 → Fin 40 → ℝ, mat2 a7 = fun p q => (r p q : EReal))
    ∧ (∃ r : Fin 128 → Fin 40 → ℝ, mat2 a8 = fun p q => (r p q : EReal))
    ∧ (∃ r : Fin 40 → ℝ, vec1 a9 = fun q => (r q : EReal)) := by
  have h0 := congrFun h ix0
  dsimp only [fn, fn_part1, fn_part2, andi] at h0
  simp only [IntOp.andi_eq_one] at h0
  obtain ⟨⟨⟨⟨⟨⟨⟨⟨⟨e0, e1⟩, e2⟩, e3⟩, e4⟩, e5⟩, e6⟩, e7⟩, e8⟩, e9⟩ := h0
  obtain ⟨r0, rfl⟩ := real_of_all a0 _ (fun _ => rfl) _ _ _ e0
  obtain ⟨r1, rfl⟩ := real_of_all a1 _ (fun _ => rfl) _ _ _ e1
  obtain ⟨r2, rfl⟩ := real_of_all a2 _ (fun _ => rfl) _ _ _ e2
  obtain ⟨r3, rfl⟩ := real_of_all a3 _ (fun _ => rfl) _ _ _ e3
  obtain ⟨r4, rfl⟩ := real_of_all a4 _ (fun _ => rfl) _ _ _ e4
  obtain ⟨r5, rfl⟩ := real_of_all a5 _ (fun _ => rfl) _ _ _ e5
  obtain ⟨r6, rfl⟩ := real_of_all a6 _ (fun _ => rfl) _ _ _ e6
  obtain ⟨r7, rfl⟩ := real_of_all a7 _ (fun _ => rfl) _ _ _ e7
  obtain ⟨r8, rfl⟩ := real_of_all a8 _ (fun _ => rfl) _ _ _ e8
  obtain ⟨r9, rfl⟩ := real_of_all a9 _ (fun _ => rfl) _ _ _ e9
  exact ⟨⟨fun p q => r0 (ix3 0 p q), rfl⟩, ⟨fun p q => r1 (ix3 0 p q), rfl⟩, ⟨r2 ix0, rfl⟩,
    ⟨fun p q => r3 (ix2 p q), rfl⟩, ⟨fun p q => r4 (ix2 p q), rfl⟩, ⟨fun p q => r5 (ix2 p q), rfl⟩,
    ⟨fun p q => r6 (ix2 p q), rfl⟩, ⟨fun p q => r7 (ix2 p q), rfl⟩, ⟨fun p q => r8 (ix2 p q), rfl⟩,
    ⟨fun q => r9 (ix1 q), rfl⟩⟩

end Cert.Pre_finite_inputs.Finite

end
-- ==== Proof.SpecReal.lean ====
/-
  The two-branch graph-convolution pipeline, as index-level functions on the reals: the twin, over ℝ, of the extended-real text
  (every input of the pipeline is finite, so every intermediate value is a real number and the algebra is done here).

  Inputs: node features `x` (4096 × 128), the dense adjacency `adj` (4096 × 4096), the self-loop weight `la`, and the
  weight matrices. Write `adjL = adj + la · I`, `deg p = Σ_j adjL p j`, `s p = deg p ^ (-1/2)` where `deg p > 0` and `0`
  elsewhere, and `A p j = adjL p j · s p · s j` (the symmetric normalisation).

  * The REFERENCE side (`r…`) materialises `A` and computes, for each branch, `A · relu (A · (x · W₁)) · W₂`, then the
    decoder product `A · (hh2 · Wd)` and the node head `e2 · Wmlp + bmlp`.
  * The KERNEL side (`k…`) never forms `A`: a product `A · V` is computed as `s p · ((Σ_j adj p j · (s j · V j q)) + la · (s p · V p q))`,
    with the scaling by `s` folded into the operand ahead of each pass; both branches share a pass by laying their
    feature columns side by side (128 + 128 = 256 columns, the second-layer weights block-diagonal), and the decoder and
    head weights are zero-padded from 40 to 128 columns (only the first 40 columns of those results are kept).
-/
import Idealize.ShloMosaic.PureOps.Ideal

noncomputable section

namespace Cert.GcnR

open Idealize.ShloMosaic

/-- An `a × b` matrix of reals, by coordinates. -/
abbrev Mat (a b : ℕ) := Fin a → Fin b → ℝ

/-! ## The kernel side -/

/-- The degree of row `p`: the row sum of the raw adjacency, plus the self-loop weight. -/
def kDeg (adj : Mat 4096 4096) (la : ℝ) (p : Fin 4096) : ℝ := (∑ j, adj p j) + la

/-- The scaling `s p`: the reciprocal square root of the degree where it is positive, else zero. -/
def kD (adj : Mat 4096 4096) (la : ℝ) (p : Fin 4096) : ℝ :=
  if 0 < kDeg adj la p then (Real.sqrt (kDeg adj la p))⁻¹ else 0

/-- A row-scaled projection: `d p · Σ_k x p k · w k q`. -/
def kProj {a n : ℕ} (d : Fin 4096 → ℝ) (x : Mat 4096 a) (w : Mat a n) : Mat 4096 n :=
  fun p q => d p * ∑ k, x p k * w k q

/-- One aggregation against the self-looped adjacency, the loop term kept apart: `(Σ_j adj p j · v j q) + la · v p q`. -/
def kAgg {n : ℕ} (adj : Mat 4096 4096) (la : ℝ) (v : Mat 4096 n) : Mat 4096 n :=
  fun p q => (∑ j, adj p j * v j q) + la * v p q

/-- An aggregation scaled by `d` on the row: `d p · kAgg adj la v p q`. -/
def kScaledAgg {n : ℕ} (adj : Mat 4096 4096) (la : ℝ) (d : Fin 4096 → ℝ) (v : Mat 4096 n) : Mat 4096 n :=
  fun p q => d p * kAgg adj la v p q

/-- The first layer's pass: aggregate, scale, rectify, project by `w2`, scale again. -/
def kLayer1 (adj : Mat 4096 4096) (la : ℝ) (d : Fin 4096 → ℝ) (v : Mat 4096 256) (w2 : Mat 256 256) : Mat 4096 256 :=
  fun p q => d p * ∑ k, max (kScaledAgg adj la d v p k) 0 * w2 k q

/-- The left 128 columns of a 256-column matrix. -/
def leftCols (y : Mat 4096 256) : Mat 4096 128 := fun p q => y p ⟨q.val, by have := q.isLt; omega⟩
/-- The right 128 columns of a 256-column matrix. -/
def rightCols (y : Mat 4096 256) : Mat 4096 128 := fun p q => y p ⟨128 + q.val, by have := q.isLt; omega⟩

/-- A projection plus a row vector of biases: `(Σ_k e p k · w k q) + b q`. -/
def kHead (e : Mat 4096 128) (w : Mat 128 128) (b : Fin 128 → ℝ) : Mat 4096 128 :=
  fun p q => (∑ k, e p k * w k q) + b q

/-- Two 128-column blocks laid side by side. -/
def sideBySide (l r : Mat 128 128) : Mat 128 256 :=
  fun k q => if h : q.val < 128 then l k ⟨q.val, h⟩ else r k ⟨q.val - 128, by have := q.isLt; omega⟩

/-- Two 128 × 128 blocks on the diagonal of a 256 × 256 matrix, zeros elsewhere. -/
def blockDiag (a b : Mat 128 128) : Mat 256 256 :=
  fun k q =>
    if hk : k.val < 128 then
      (if hq : q.val < 128 then a ⟨k.val, hk⟩ ⟨q.val, hq⟩ else 0)
    else
      (if hq : q.val < 128 then 0 else b ⟨k.val - 128, by have := k.isLt; omega⟩ ⟨q.val - 128, by have := q.isLt; omega⟩)

/-- A 40-column matrix padded with zero columns to 128. -/
def padCols (w : Mat 128 40) : Mat 128 128 := fun k q => if h : q.val < 40 then w k ⟨q.val, h⟩ else 0
/-- A 40-entry vector padded with zeros to 128. -/
def padVec (b : Fin 40 → ℝ) : Fin 128 → ℝ := fun q => if h : q.val < 40 then b ⟨q.val, h⟩ else 0
/-- The first 40 columns of a 128-column matrix. -/
def firstCols (y : Mat 4096 128) : Mat 4096 40 := fun p q => y p ⟨q.val, by have := q.isLt; omega⟩

section Kernel
variable (x : Mat 4096 128) (adj : Mat 4096 4096) (la : ℝ) (We1 We2 Wh1 Wh2 : Mat 128 128)
  (wdp wmp : Mat 128 128) (bp : Fin 128 → ℝ) (Wd Wmlp : Mat 128 40) (bmlp : Fin 40 → ℝ)

/-- Pass 0's second result: the encoder inputs of both branches, scaled. -/
def kDxw : Mat 4096 256 := kProj (kD adj la) x (sideBySide We1 Wh1)
/-- Pass 1's result. -/
def kDhw : Mat 4096 256 := kLayer1 adj la (kD adj la) (kDxw x adj la We1 Wh1) (blockDiag We2 Wh2)
/-- Pass 2's aggregate: both branches' second-layer outputs side by side. -/
def kY : Mat 4096 256 := kScaledAgg adj la (kD adj la) (kDhw x adj la We1 We2 Wh1 Wh2)
/-- The first branch's output. -/
def kE2 : Mat 4096 128 := leftCols (kY x adj la We1 We2 Wh1 Wh2)
/-- The second branch's output. -/
def kHh2 : Mat 4096 128 := rightCols (kY x adj la We1 We2 Wh1 Wh2)
/-- The node head over the padded weights. -/
def kLn : Mat 4096 128 := kHead (kE2 x adj la We1 We2 Wh1 Wh2) wmp bp
/-- The decoder's projection over the padded weights, scaled. -/
def kDz : Mat 4096 128 := kProj (kD adj la) (kHh2 x adj la We1 We2 Wh1 Wh2) wdp
/-- Pass 3's result. -/
def kOut : Mat 4096 128 := kScaledAgg adj la (kD adj la) (kDz x adj la We1 We2 Wh1 Wh2 wdp)
/-- The decoder's logits: the kept columns of pass 3's result over the padded decoder weights. -/
def kLogits : Mat 4096 40 := firstCols (kOut x adj la We1 We2 Wh1 Wh2 (padCols Wd))
/-- The node head's logits: the kept columns of the head over the padded head weights and bias. -/
def kLogitsNode : Mat 4096 40 := firstCols (kLn x adj la We1 We2 Wh1 Wh2 (padCols Wmlp) (padVec bmlp))
end Kernel

/-! ## The reference side -/

/-- The adjacency with the self loops added. -/
def rAdjL (adj : Mat 4096 4096) (la : ℝ) : Mat 4096 4096 := fun p j => adj p j + la * (if p = j then 1 else 0)

/-- The degree of row `p` of the self-looped adjacency. -/
def rDeg (adj : Mat 4096 4096) (la : ℝ) (p : Fin 4096) : ℝ := ∑ j, rAdjL adj la p j

/-- `1 / √deg` where the degree is positive, else zero. -/
def rDis (adj : Mat 4096 4096) (la : ℝ) (p : Fin 4096) : ℝ :=
  if 0 < rDeg adj la p then 1 / Real.sqrt (rDeg adj la p) else 0

/-- The symmetrically normalised adjacency. -/
def rA (adj : Mat 4096 4096) (la : ℝ) : Mat 4096 4096 :=
  fun p j => rAdjL adj la p j * rDis adj la p * rDis adj la j

/-- A matrix product by coordinates. -/
def mm {a b c : ℕ} (L : Mat a b) (R : Mat b c) : Mat a c := fun p q => ∑ k, L p k * R k q

/-- The rectifier, entry by entry. -/
def relu {a b : ℕ} (M : Mat a b) : Mat a b := fun p q => max (M p q) 0

section Reference
variable (x : Mat 4096 128) (adj : Mat 4096 4096) (la : ℝ) (We1 We2 Wh1 Wh2 : Mat 128 128)
  (Wd Wmlp : Mat 128 40) (bmlp : Fin 40 → ℝ)

/-- The first branch's output. -/
def rE2 : Mat 4096 128 := mm (rA adj la) (mm (relu (mm (rA adj la) (mm x We1))) We2)
/-- The second branch's output. -/
def rHh2 : Mat 4096 128 := mm (rA adj la) (mm (relu (mm (rA adj la) (mm x Wh1))) Wh2)
/-- The decoder's logits. -/
def rOut : Mat 4096 40 := mm (rA adj la) (mm (rHh2 x adj la Wh1 Wh2) Wd)
/-- The node head's logits. -/
def rLn : Mat 4096 40 := fun p q => mm (rE2 x adj la We1 We2) Wmlp p q + bmlp q
end Reference

end Cert.GcnR

end
-- ==== Proof.Lift.lean ====
import proofs.«117501_g49246095016346_cont_8to1c4_490_2_alg».proof.Proof.Spec
import proofs.«117501_g49246095016346_cont_8to1c4_490_2_alg».proof.Proof.SpecReal
import Idealize.ShloMosaic.PureOps.Ideal.Laws

noncomputable section

open Idealize.ShloMosaic

namespace Cert.Gcn.Lift

/-- A real matrix, entry by entry, as a matrix of extended reals. -/
abbrev up {a b : ℕ} (M : Fin a → Fin b → ℝ) : Cert.Gcn.Mat a b := fun p q => (M p q : EReal)
/-- A real vector, entry by entry, as a vector of extended reals. -/
abbrev upv {a : ℕ} (v : Fin a → ℝ) : Fin a → EReal := fun p => (v p : EReal)

variable (x : Fin 4096 → Fin 128 → ℝ) (adj : Fin 4096 → Fin 4096 → ℝ) (la : ℝ) (We1 We2 Wh1 Wh2 : Fin 128 → Fin 128 → ℝ)
  (Wd Wmlp : Fin 128 → Fin 40 → ℝ) (bmlp : Fin 40 → ℝ)

/-! ## The embedding of the reals commutes with each operation of the pipeline

  The embedding `ℝ → EReal` is a homomorphism for `+`, `·`, finite sums and `max`, and it preserves and reflects `<`.
  The only operations with corners, the reciprocal square root and the quotient `1 / √·`, are met only at a positive
  real argument, where they are the real ones. So each stage of the pipeline, fed embedded real arrays, yields the
  embedding of the real stage; the stages are taken in the order of their definitions. -/

/-- The embedding commutes with finite sums. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The embedding commutes with `max` (it is monotone). -/
private theorem coe_max (a b : ℝ) : max (a : EReal) (b : EReal) = ((max a b : ℝ) : EReal) :=
  (EReal.coe_strictMono.monotone.map_max).symm

/-- A sum of products of embedded reals is the embedded sum of products. -/
private theorem coe_sum_mul {ι : Type} [Fintype ι] (f g : ι → ℝ) :
    ∑ i, (f i : EReal) * (g i : EReal) = ((∑ i, f i * g i : ℝ) : EReal) := by
  rw [← coe_sum]; simp only [EReal.coe_mul]

/-! ### The kernel side's generic stages -/

private theorem kDeg_up (adj : Fin 4096 → Fin 4096 → ℝ) (la : ℝ) (p : Fin 4096) :
    Cert.Gcn.kDeg (up adj) (la : EReal) p = ((Cert.GcnR.kDeg adj la p : ℝ) : EReal) := by
  unfold Cert.Gcn.kDeg Cert.GcnR.kDeg
  rw [EReal.coe_add, ← coe_sum]

private theorem kD_up (adj : Fin 4096 → Fin 4096 → ℝ) (la : ℝ) :
    Cert.Gcn.kD (up adj) (la : EReal) = upv (Cert.GcnR.kD adj la) := by
  funext p
  show _ = ((_ : ℝ) : EReal)
  unfold Cert.Gcn.kD Cert.GcnR.kD
  rw [kDeg_up]
  by_cases h : 0 < Cert.GcnR.kDeg adj la p
  · rw [if_pos (EReal.coe_pos.mpr h), if_pos h, Ideal.rsqrt_coe, if_neg (not_lt.mpr h.le), if_neg h.ne']
  · rw [if_neg (fun h' => h (EReal.coe_pos.mp h')), if_neg h, EReal.coe_zero]

private theorem kProj_up {a n : ℕ} (d : Fin 4096 → ℝ) (x : Fin 4096 → Fin a → ℝ) (w : Fin a → Fin n → ℝ) :
    Cert.Gcn.kProj (upv d) (up x) (up w) = up (Cert.GcnR.kProj d x w) := by
  funext p q
  show _ = ((_ : ℝ) : EReal)
  unfold Cert.Gcn.kProj Cert.GcnR.kProj
  rw [coe_sum_mul, ← EReal.coe_mul]

private theorem kAgg_up {n : ℕ} (adj : Fin 4096 → Fin 4096 → ℝ) (la : ℝ) (v : Fin 4096 → Fin n → ℝ) :
    Cert.Gcn.kAgg (up adj) (la : EReal) (up v) = up (Cert.GcnR.kAgg adj la v) := by
  funext p q
  show _ = ((_ : ℝ) : EReal)
  unfold Cert.Gcn.kAgg Cert.GcnR.kAgg
  rw [coe_sum_mul, ← EReal.coe_mul, ← EReal.coe_add]

private theorem kScaledAgg_up {n : ℕ} (adj : Fin 4096 → Fin 4096 → ℝ) (la : ℝ) (d : Fin 4096 → ℝ)
    (v : Fin 4096 → Fin n → ℝ) :
    Cert.Gcn.kScaledAgg (up adj) (la : EReal) (upv d) (up v) = up (Cert.GcnR.kScaledAgg adj la d v) := by
  funext p q
  show _ = ((_ : ℝ) : EReal)
  unfold Cert.Gcn.kScaledAgg Cert.GcnR.kScaledAgg
  rw [kAgg_up, ← EReal.coe_mul]

private theorem kLayer1_up (adj : Fin 4096 → Fin 4096 → ℝ) (la : ℝ) (d : Fin 4096 → ℝ)
    (v : Fin 4096 → Fin 256 → ℝ) (w2 : Fin 256 → Fin 256 → ℝ) :
    Cert.Gcn.kLayer1 (up adj) (la : EReal) (upv d) (up v) (up w2) = up (Cert.GcnR.kLayer1 adj la d v w2) := by
  funext p q
  show _ = ((_ : ℝ) : EReal)
  unfold Cert.Gcn.kLayer1 Cert.GcnR.kLayer1
  rw [kScaledAgg_up]
  have h : ∀ k, max (up (Cert.GcnR.kScaledAgg adj la d v) p k) 0 * up w2 k q
      = ((max (Cert.GcnR.kScaledAgg adj la d v p k) 0 * w2 k q : ℝ) : EReal) := by
    intro k
    rw [← EReal.coe_zero, coe_max, ← EReal.coe_mul]
  simp only [h]
  rw [coe_sum, ← EReal.coe_mul]

private theorem leftCols_up (y : Fin 4096 → Fin 256 → ℝ) :
    Cert.Gcn.leftCols (up y) = up (Cert.GcnR.leftCols y) := rfl

private theorem rightCols_up (y : Fin 4096 → Fin 256 → ℝ) :
    Cert.Gcn.rightCols (up y) = up (Cert.GcnR.rightCols y) := rfl

private theorem firstCols_up (y : Fin 4096 → Fin 128 → ℝ) :
    Cert.Gcn.firstCols (up y) = up (Cert.GcnR.firstCols y) := rfl

private theorem kHead_up (e : Fin 4096 → Fin 128 → ℝ) (w : Fin 128 → Fin 128 → ℝ) (b : Fin 128 → ℝ) :
    Cert.Gcn.kHead (up e) (up w) (upv b) = up (Cert.GcnR.kHead e w b) := by
  funext p q
  show _ = ((_ : ℝ) : EReal)
  unfold Cert.Gcn.kHead Cert.GcnR.kHead
  rw [coe_sum_mul, ← EReal.coe_add]

private theorem sideBySide_up (l r : Fin 128 → Fin 128 → ℝ) :
    Cert.Gcn.sideBySide (up l) (up r) = up (Cert.GcnR.sideBySide l r) := by
  funext k q
  show _ = ((_ : ℝ) : EReal)
  unfold Cert.Gcn.sideBySide Cert.GcnR.sideBySide
  split <;> rfl

private theorem blockDiag_up (a b : Fin 128 → Fin 128 → ℝ) :
    Cert.Gcn.blockDiag (up a) (up b) = up (Cert.GcnR.blockDiag a b) := by
  funext k q
  show _ = ((_ : ℝ) : EReal)
  unfold Cert.Gcn.blockDiag Cert.GcnR.blockDiag
  split <;> split <;> rfl

private theorem padCols_up (w : Fin 128 → Fin 40 → ℝ) :
    Cert.Gcn.padCols (up w) = up (Cert.GcnR.padCols w) := by
  funext k q
  show _ = ((_ : ℝ) : EReal)
  unfold Cert.Gcn.padCols Cert.GcnR.padCols
  split <;> rfl

private theorem padVec_up (b : Fin 40 → ℝ) :
    Cert.Gcn.padVec (upv b) = upv (Cert.GcnR.padVec b) := by
  funext q
  show _ = ((_ : ℝ) : EReal)
  unfold Cert.Gcn.padVec Cert.GcnR.padVec
  split <;> rfl

/-! ### The kernel side's passes, in order -/

private theorem kDxw_up :
    Cert.Gcn.kDxw (up x) (up adj) (la : EReal) (up We1) (up Wh1) = up (Cert.GcnR.kDxw x adj la We1 Wh1) := by
  unfold Cert.Gcn.kDxw Cert.GcnR.kDxw
  rw [kD_up, sideBySide_up, kProj_up]

private theorem kDhw_up :
    Cert.Gcn.kDhw (up x) (up adj) (la : EReal) (up We1) (up We2) (up Wh1) (up Wh2)
      = up (Cert.GcnR.kDhw x adj la We1 We2 Wh1 Wh2) := by
  unfold Cert.Gcn.kDhw Cert.GcnR.kDhw
  rw [kD_up, kDxw_up, blockDiag_up, kLayer1_up]

private theorem kY_up :
    Cert.Gcn.kY (up x) (up adj) (la : EReal) (up We1) (up We2) (up Wh1) (up Wh2)
      = up (Cert.GcnR.kY x adj la We1 We2 Wh1 Wh2) := by
  unfold Cert.Gcn.kY Cert.GcnR.kY
  rw [kD_up, kDhw_up, kScaledAgg_up]

private theorem kE2_up' :
    Cert.Gcn.kE2 (up x) (up adj) (la : EReal) (up We1) (up We2) (up Wh1) (up Wh2)
      = up (Cert.GcnR.kE2 x adj la We1 We2 Wh1 Wh2) := by
  unfold Cert.Gcn.kE2 Cert.GcnR.kE2
  rw [kY_up, leftCols_up]

private theorem kHh2_up' :
    Cert.Gcn.kHh2 (up x) (up adj) (la : EReal) (up We1) (up We2) (up Wh1) (up Wh2)
      = up (Cert.GcnR.kHh2 x adj la We1 We2 Wh1 Wh2) := by
  unfold Cert.Gcn.kHh2 Cert.GcnR.kHh2
  rw [kY_up, rightCols_up]

private theorem kLn_up (wmp : Fin 128 → Fin 128 → ℝ) (bp : Fin 128 → ℝ) :
    Cert.Gcn.kLn (up x) (up adj) (la : EReal) (up We1) (up We2) (up Wh1) (up Wh2) (up wmp) (upv bp)
      = up (Cert.GcnR.kLn x adj la We1 We2 Wh1 Wh2 wmp bp) := by
  unfold Cert.Gcn.kLn Cert.GcnR.kLn
  rw [kE2_up', kHead_up]

private theorem kDz_up (wdp : Fin 128 → Fin 128 → ℝ) :
    Cert.Gcn.kDz (up x) (up adj) (la : EReal) (up We1) (up We2) (up Wh1) (up Wh2) (up wdp)
      = up (Cert.GcnR.kDz x adj la We1 We2 Wh1 Wh2 wdp) := by
  unfold Cert.Gcn.kDz Cert.GcnR.kDz
  rw [kD_up, kHh2_up', kProj_up]

private theorem kOut_up (wdp : Fin 128 → Fin 128 → ℝ) :
    Cert.Gcn.kOut (up x) (up adj) (la : EReal) (up We1) (up We2) (up Wh1) (up Wh2) (up wdp)
      = up (Cert.GcnR.kOut x adj la We1 We2 Wh1 Wh2 wdp) := by
  unfold Cert.Gcn.kOut Cert.GcnR.kOut
  rw [kD_up, kDz_up, kScaledAgg_up]

/-! ## On real inputs every value of the pipeline is the real one: the kernel side -/

theorem kE2_up (p : Fin 4096) (q : Fin 128) :
    Cert.Gcn.kE2 (up x) (up adj) (la : EReal) (up We1) (up We2) (up Wh1) (up Wh2) p q
      = ((Cert.GcnR.kE2 x adj la We1 We2 Wh1 Wh2 p q : ℝ) : EReal) := by
  rw [kE2_up']

theorem kHh2_up (p : Fin 4096) (q : Fin 128) :
    Cert.Gcn.kHh2 (up x) (up adj) (la : EReal) (up We1) (up We2) (up Wh1) (up Wh2) p q
      = ((Cert.GcnR.kHh2 x adj la We1 We2 Wh1 Wh2 p q : ℝ) : EReal) := by
  rw [kHh2_up']

theorem kLogits_up (p : Fin 4096) (q : Fin 40) :
    Cert.Gcn.kLogits (up x) (up adj) (la : EReal) (up We1) (up We2) (up Wh1) (up Wh2) (up Wd) p q
      = ((Cert.GcnR.kLogits x adj la We1 We2 Wh1 Wh2 Wd p q : ℝ) : EReal) := by
  unfold Cert.Gcn.kLogits Cert.GcnR.kLogits
  rw [padCols_up, kOut_up, firstCols_up]

theorem kLogitsNode_up (p : Fin 4096) (q : Fin 40) :
    Cert.Gcn.kLogitsNode (up x) (up adj) (la : EReal) (up We1) (up We2) (up Wh1) (up Wh2) (up Wmlp) (upv bmlp) p q
      = ((Cert.GcnR.kLogitsNode x adj la We1 We2 Wh1 Wh2 Wmlp bmlp p q : ℝ) : EReal) := by
  unfold Cert.Gcn.kLogitsNode Cert.GcnR.kLogitsNode
  rw [padCols_up, padVec_up, kLn_up, firstCols_up]

/-! ## The reference side -/

private theorem rAdjL_up : Cert.Gcn.rAdjL (up adj) (la : EReal) = up (Cert.GcnR.rAdjL adj la) := by
  funext p j
  show _ = ((_ : ℝ) : EReal)
  unfold Cert.Gcn.rAdjL Cert.GcnR.rAdjL
  have h : (if p = j then (1 : EReal) else 0) = (((if p = j then 1 else 0 : ℝ)) : EReal) := by
    split
    · exact EReal.coe_one.symm
    · exact EReal.coe_zero.symm
  rw [h, ← EReal.coe_mul, ← EReal.coe_add]

private theorem rDeg_up (p : Fin 4096) :
    Cert.Gcn.rDeg (up adj) (la : EReal) p = ((Cert.GcnR.rDeg adj la p : ℝ) : EReal) := by
  unfold Cert.Gcn.rDeg Cert.GcnR.rDeg
  rw [rAdjL_up, coe_sum]

private theorem rDis_up : Cert.Gcn.rDis (up adj) (la : EReal) = upv (Cert.GcnR.rDis adj la) := by
  funext p
  show _ = ((_ : ℝ) : EReal)
  unfold Cert.Gcn.rDis Cert.GcnR.rDis
  rw [rDeg_up]
  by_cases h : 0 < Cert.GcnR.rDeg adj la p
  · have hs : Real.sqrt (Cert.GcnR.rDeg adj la p) ≠ 0 := (Real.sqrt_pos.mpr h).ne'
    rw [if_pos (EReal.coe_pos.mpr h), if_pos h, Ideal.sqrt_coe, if_neg (not_lt.mpr h.le), Ideal.div_coe hs, one_mul]
  · rw [if_neg (fun h' => h (EReal.coe_pos.mp h')), if_neg h, EReal.coe_zero]

private theorem rA_up : Cert.Gcn.rA (up adj) (la : EReal) = up (Cert.GcnR.rA adj la) := by
  funext p j
  show _ = ((_ : ℝ) : EReal)
  unfold Cert.Gcn.rA Cert.GcnR.rA
  rw [rAdjL_up, rDis_up, ← EReal.coe_mul, ← EReal.coe_mul]

private theorem mm_up {a b c : ℕ} (L : Fin a → Fin b → ℝ) (R : Fin b → Fin c → ℝ) :
    Cert.Gcn.mm (up L) (up R) = up (Cert.GcnR.mm L R) := by
  funext p q
  show _ = ((_ : ℝ) : EReal)
  unfold Cert.Gcn.mm Cert.GcnR.mm
  rw [coe_sum_mul]

private theorem relu_up {a b : ℕ} (M : Fin a → Fin b → ℝ) :
    Cert.Gcn.relu (up M) = up (Cert.GcnR.relu M) := by
  funext p q
  show _ = ((_ : ℝ) : EReal)
  unfold Cert.Gcn.relu Cert.GcnR.relu
  rw [← EReal.coe_zero, coe_max]

private theorem rE2_up' :
    Cert.Gcn.rE2 (up x) (up adj) (la : EReal) (up We1) (up We2) = up (Cert.GcnR.rE2 x adj la We1 We2) := by
  unfold Cert.Gcn.rE2 Cert.GcnR.rE2
  rw [rA_up, mm_up, mm_up, relu_up, mm_up, mm_up]

private theorem rHh2_up' :
    Cert.Gcn.rHh2 (up x) (up adj) (la : EReal) (up Wh1) (up Wh2) = up (Cert.GcnR.rHh2 x adj la Wh1 Wh2) := by
  unfold Cert.Gcn.rHh2 Cert.GcnR.rHh2
  rw [rA_up, mm_up, mm_up, relu_up, mm_up, mm_up]

theorem rE2_up (p : Fin 4096) (q : Fin 128) :
    Cert.Gcn.rE2 (up x) (up adj) (la : EReal) (up We1) (up We2) p q
      = ((Cert.GcnR.rE2 x adj la We1 We2 p q : ℝ) : EReal) := by
  rw [rE2_up']

theorem rHh2_up (p : Fin 4096) (q : Fin 128) :
    Cert.Gcn.rHh2 (up x) (up adj) (la : EReal) (up Wh1) (up Wh2) p q
      = ((Cert.GcnR.rHh2 x adj la Wh1 Wh2 p q : ℝ) : EReal) := by
  rw [rHh2_up']

theorem rOut_up (p : Fin 4096) (q : Fin 40) :
    Cert.Gcn.rOut (up x) (up adj) (la : EReal) (up Wh1) (up Wh2) (up Wd) p q
      = ((Cert.GcnR.rOut x adj la Wh1 Wh2 Wd p q : ℝ) : EReal) := by
  unfold Cert.Gcn.rOut Cert.GcnR.rOut
  rw [rA_up, rHh2_up', mm_up, mm_up]

theorem rLn_up (p : Fin 4096) (q : Fin 40) :
    Cert.Gcn.rLn (up x) (up adj) (la : EReal) (up We1) (up We2) (up Wmlp) (upv bmlp) p q
      = ((Cert.GcnR.rLn x adj la We1 We2 Wmlp bmlp p q : ℝ) : EReal) := by
  unfold Cert.Gcn.rLn Cert.GcnR.rLn
  rw [rE2_up', mm_up, ← EReal.coe_add]

end Cert.Gcn.Lift

end
-- ==== Proof.RealAlgebra.lean ====
import proofs.«117501_g49246095016346_cont_8to1c4_490_2_alg».proof.Proof.SpecReal

noncomputable section

namespace Cert.GcnR.Algebra

open Cert.GcnR

variable (x : Mat 4096 128) (adj : Mat 4096 4096) (la : ℝ) (We1 We2 Wh1 Wh2 : Mat 128 128)
  (Wd Wmlp : Mat 128 40) (bmlp : Fin 40 → ℝ)

/-! ## The degree and the scaling agree on the two sides -/

/-- The row sum of `adj + la · I` is the row sum of `adj` plus `la`: the identity contributes `la` once, at `j = p`. -/
private theorem deg_eq (p : Fin 4096) : rDeg adj la p = kDeg adj la p := by
  unfold rDeg rAdjL kDeg
  rw [Finset.sum_add_distrib, ← Finset.mul_sum, Finset.sum_ite_eq]
  simp

/-- `1 / √d = (√d)⁻¹`, so the two scalings are the same function. -/
private theorem dis_eq (p : Fin 4096) : rDis adj la p = kD adj la p := by
  unfold rDis kD
  rw [deg_eq, one_div]

/-! ## The key identity: a scaled aggregation of a pre-scaled operand is a product with the normalised adjacency -/

/-- With `s = kD adj la`:
`s p · ((Σ_j adj p j · (s j · V j q)) + la · (s p · V p q)) = Σ_j (adj p j + la·[p = j]) · s p · s j · V j q`.
The right side splits into the `adj` part, from which `s p` factors out, and the loop part, which is supported at `j = p`. -/
private theorem key_pt {n : ℕ} (V : Mat 4096 n) (p : Fin 4096) (q : Fin n) :
    kScaledAgg adj la (kD adj la) (fun j q => kD adj la j * V j q) p q = mm (rA adj la) V p q := by
  unfold kScaledAgg kAgg mm rA rAdjL
  simp only [dis_eq]
  have h : ∀ j : Fin 4096,
      (adj p j + la * (if p = j then 1 else 0)) * kD adj la p * kD adj la j * V j q
        = kD adj la p * (adj p j * (kD adj la j * V j q))
          + (if p = j then la * kD adj la p * kD adj la j * V j q else 0) := by
    intro j
    split_ifs <;> ring
  rw [Finset.sum_congr rfl (fun j _ => h j), Finset.sum_add_distrib, Finset.sum_ite_eq, ← Finset.mul_sum]
  simp only [Finset.mem_univ, if_true]
  ring

/-- The key identity as an equality of matrices. -/
private theorem key {n : ℕ} (V : Mat 4096 n) :
    kScaledAgg adj la (kD adj la) (fun j q => kD adj la j * V j q) = mm (rA adj la) V := by
  funext p q
  exact key_pt adj la V p q

/-! ## Two 128-column blocks side by side -/

/-- Two 128-column matrices with the same rows, laid side by side. -/
private def hcat {a : ℕ} (L R : Mat a 128) : Mat a 256 :=
  fun p q => if h : q.val < 128 then L p ⟨q.val, h⟩ else R p ⟨q.val - 128, by have := q.isLt; omega⟩

private theorem sideBySide_eq (l r : Mat 128 128) : sideBySide l r = hcat l r := rfl

private theorem hcat_castAdd {a : ℕ} (L R : Mat a 128) (p : Fin a) (i : Fin 128) :
    hcat L R p (Fin.castAdd 128 i) = L p i := by
  unfold hcat
  rw [dif_pos (by simp)]
  rfl

private theorem hcat_natAdd {a : ℕ} (L R : Mat a 128) (p : Fin a) (i : Fin 128) :
    hcat L R p (Fin.natAdd 128 i) = R p i := by
  unfold hcat
  rw [dif_neg (by simp)]
  congr 1
  ext
  simp

/-- The left block is read back by `leftCols`. -/
private theorem leftCols_hcat (L R : Mat 4096 128) : leftCols (hcat L R) = L := by
  funext p q
  unfold leftCols hcat
  rw [dif_pos q.isLt]

/-- The right block is read back by `rightCols`. -/
private theorem rightCols_hcat (L R : Mat 4096 128) : rightCols (hcat L R) = R := by
  funext p q
  unfold rightCols hcat
  rw [dif_neg (by simp)]
  congr 1
  ext
  simp

/-- A product distributes over the blocks of its right factor. -/
private theorem mm_hcat {a b : ℕ} (M : Mat a b) (L R : Mat b 128) :
    mm M (hcat L R) = hcat (mm M L) (mm M R) := by
  funext p q
  unfold mm hcat
  by_cases h : q.val < 128
  · simp only [dif_pos h]
  · simp only [dif_neg h]

/-- The rectifier acts block by block. -/
private theorem relu_hcat {a : ℕ} (L R : Mat a 128) : relu (hcat L R) = hcat (relu L) (relu R) := by
  funext p q
  unfold relu hcat
  by_cases h : q.val < 128
  · simp only [dif_pos h]
  · simp only [dif_neg h]

/-- Against block-diagonal weights each block meets its own weight: the sum over the 256 inner columns splits into the
two halves, and in each half the off-diagonal block contributes zeros. -/
private theorem mm_hcat_blockDiag {a : ℕ} (L R : Mat a 128) (W1 W2 : Mat 128 128) :
    mm (hcat L R) (blockDiag W1 W2) = hcat (mm L W1) (mm R W2) := by
  funext p q
  show (∑ k : Fin (128 + 128), hcat L R p k * blockDiag W1 W2 k q) = _
  rw [Fin.sum_univ_add]
  simp only [hcat_castAdd, hcat_natAdd]
  have hc : ∀ i : Fin 128, ((Fin.castAdd 128 i : Fin (128 + 128)).val < 128) := fun i => by simp
  have hn : ∀ i : Fin 128, ¬ ((Fin.natAdd 128 i : Fin (128 + 128)).val < 128) := fun i => by simp
  by_cases h : q.val < 128
  · have e1 : ∀ i : Fin 128, blockDiag W1 W2 (Fin.castAdd 128 i) q = W1 i ⟨q.val, h⟩ := by
      intro i
      unfold blockDiag
      rw [dif_pos (hc i), dif_pos h]
      rfl
    have e2 : ∀ i : Fin 128, blockDiag W1 W2 (Fin.natAdd 128 i) q = 0 := by
      intro i
      unfold blockDiag
      rw [dif_neg (hn i), dif_pos h]
    simp only [e1, e2, mul_zero, Finset.sum_const_zero, add_zero]
    unfold hcat mm
    rw [dif_pos h]
  · have e1 : ∀ i : Fin 128, blockDiag W1 W2 (Fin.castAdd 128 i) q = 0 := by
      intro i
      unfold blockDiag
      rw [dif_pos (hc i), dif_neg h]
    have e2 : ∀ i : Fin 128, blockDiag W1 W2 (Fin.natAdd 128 i) q
        = W2 i ⟨q.val - 128, by have := q.isLt; omega⟩ := by
      intro i
      unfold blockDiag
      rw [dif_neg (hn i), dif_neg h]
      congr 1
      ext
      simp
    simp only [e1, e2, mul_zero, Finset.sum_const_zero, zero_add]
    unfold hcat mm
    rw [dif_neg h]

/-! ## The pipeline, stage by stage -/

/-- Pass 0: the scaled encoder inputs are `s p` times the two products `x · We1`, `x · Wh1` side by side. -/
private theorem dxw_eq :
    kDxw x adj la We1 Wh1 = fun p q => kD adj la p * hcat (mm x We1) (mm x Wh1) p q := by
  unfold kDxw kProj
  rw [sideBySide_eq, ← mm_hcat]
  rfl

/-- Pass 1: `s p` times the two hidden layers projected by their second-layer weights, side by side. -/
private theorem dhw_eq :
    kDhw x adj la We1 We2 Wh1 Wh2 = fun p q => kD adj la p *
      hcat (mm (relu (mm (rA adj la) (mm x We1))) We2) (mm (relu (mm (rA adj la) (mm x Wh1))) Wh2) p q := by
  unfold kDhw kLayer1
  rw [dxw_eq, key, mm_hcat, ← mm_hcat_blockDiag, ← relu_hcat]
  rfl

/-- Pass 2: both branches' outputs side by side. -/
private theorem y_eq :
    kY x adj la We1 We2 Wh1 Wh2 = hcat (rE2 x adj la We1 We2) (rHh2 x adj la Wh1 Wh2) := by
  unfold kY
  rw [dhw_eq, key, mm_hcat]
  rfl

private theorem e2_fun : kE2 x adj la We1 We2 Wh1 Wh2 = rE2 x adj la We1 We2 := by
  unfold kE2
  rw [y_eq, leftCols_hcat]

private theorem hh2_fun : kHh2 x adj la We1 We2 Wh1 Wh2 = rHh2 x adj la Wh1 Wh2 := by
  unfold kHh2
  rw [y_eq, rightCols_hcat]

/-- Pass 3 over any decoder weights: the product of the normalised adjacency with the projected second branch. -/
private theorem out_eq (wdp : Mat 128 128) :
    kOut x adj la We1 We2 Wh1 Wh2 wdp = mm (rA adj la) (mm (rHh2 x adj la Wh1 Wh2) wdp) := by
  unfold kOut kDz kProj
  rw [hh2_fun]
  exact key adj la (mm (rHh2 x adj la Wh1 Wh2) wdp)

/-- On the first 40 columns a product with zero-padded weights is the product with the weights themselves. -/
private theorem mm_padCols {a : ℕ} (M : Mat a 128) (W : Mat 128 40) (p : Fin a) (q : Fin 40) :
    mm M (padCols W) p ⟨q.val, by have := q.isLt; omega⟩ = mm M W p q := by
  unfold mm padCols
  simp only [dif_pos q.isLt]

/-- Over the reals the kernel's first-branch output is the reference's. -/
theorem e2_eq (p : Fin 4096) (q : Fin 128) :
    kE2 x adj la We1 We2 Wh1 Wh2 p q = rE2 x adj la We1 We2 p q := by
  rw [e2_fun]

/-- Over the reals the kernel's second-branch output is the reference's. -/
theorem hh2_eq (p : Fin 4096) (q : Fin 128) :
    kHh2 x adj la We1 We2 Wh1 Wh2 p q = rHh2 x adj la Wh1 Wh2 p q := by
  rw [hh2_fun]

/-- Over the reals the kernel's decoder logits are the reference's. -/
theorem logits_eq (p : Fin 4096) (q : Fin 40) :
    kLogits x adj la We1 We2 Wh1 Wh2 Wd p q = rOut x adj la Wh1 Wh2 Wd p q := by
  unfold kLogits firstCols rOut
  rw [out_eq]
  show (∑ j, rA adj la p j * mm (rHh2 x adj la Wh1 Wh2) (padCols Wd) j ⟨q.val, _⟩)
      = ∑ j, rA adj la p j * mm (rHh2 x adj la Wh1 Wh2) Wd j q
  simp only [mm_padCols]

/-- Over the reals the kernel's node-head logits are the reference's. -/
theorem logitsNode_eq (p : Fin 4096) (q : Fin 40) :
    kLogitsNode x adj la We1 We2 Wh1 Wh2 Wmlp bmlp p q = rLn x adj la We1 We2 Wmlp bmlp p q := by
  unfold kLogitsNode firstCols kLn kHead rLn
  rw [e2_fun]
  show mm (rE2 x adj la We1 We2) (padCols Wmlp) p ⟨q.val, _⟩ + padVec bmlp ⟨q.val, _⟩
      = mm (rE2 x adj la We1 We2) Wmlp p q + bmlp q
  rw [mm_padCols]
  unfold padVec
  rw [dif_pos q.isLt]

end Cert.GcnR.Algebra

end
-- ==== Proof.Bridge.lean ====
/-
  On finite inputs the two index-level texts of the pipeline agree.

  Every input being a real number, each side's value is the coercion of its real twin (the sums, products, maxima,
  square roots and the one comparison all stay inside the reals), and over the reals the kernel's arrangement — the
  normalised adjacency never formed, the scalings folded into the operands, the two branches side by side, the padded
  weights — is the reference's by the algebra of finite sums.
-/
import proofs.«117501_g49246095016346_cont_8to1c4_490_2_alg».proof.Proof.Spec
import proofs.«117501_g49246095016346_cont_8to1c4_490_2_alg».proof.Proof.SpecReal
import proofs.«117501_g49246095016346_cont_8to1c4_490_2_alg».proof.Proof.Lift
import proofs.«117501_g49246095016346_cont_8to1c4_490_2_alg».proof.Proof.RealAlgebra

noncomputable section

namespace Cert.Gcn.Bridge

open Cert.Gcn Cert.Gcn.Lift

variable (X : Mat 4096 128) (ADJ : Mat 4096 4096) (LA : EReal) (WE1 WE2 WH1 WH2 : Mat 128 128) (WD WMLP : Mat 128 40)
  (BMLP : Fin 40 → EReal)
  (hX : ∃ r : Fin 4096 → Fin 128 → ℝ, X = fun p q => (r p q : EReal))
  (hADJ : ∃ r : Fin 4096 → Fin 4096 → ℝ, ADJ = fun p q => (r p q : EReal))
  (hLA : ∃ r : ℝ, LA = (r : EReal))
  (hWE1 : ∃ r : Fin 128 → Fin 128 → ℝ, WE1 = fun p q => (r p q : EReal))
  (hWE2 : ∃ r : Fin 128 → Fin 128 → ℝ, WE2 = fun p q => (r p q : EReal))
  (hWH1 : ∃ r : Fin 128 → Fin 128 → ℝ, WH1 = fun p q => (r p q : EReal))
  (hWH2 : ∃ r : Fin 128 → Fin 128 → ℝ, WH2 = fun p q => (r p q : EReal))
  (hWD : ∃ r : Fin 128 → Fin 40 → ℝ, WD = fun p q => (r p q : EReal))
  (hWMLP : ∃ r : Fin 128 → Fin 40 → ℝ, WMLP = fun p q => (r p q : EReal))
  (hBMLP : ∃ r : Fin 40 → ℝ, BMLP = fun q => (r q : EReal))

include hX hADJ hLA hWE1 hWE2 hWH1 hWH2 in
/-- The first branch's output. -/
theorem e2_eq (p : Fin 4096) (q : Fin 128) :
    kE2 X ADJ LA WE1 WE2 WH1 WH2 p q = rE2 X ADJ LA WE1 WE2 p q := by
  obtain ⟨x, rfl⟩ := hX; obtain ⟨adj, rfl⟩ := hADJ; obtain ⟨la, rfl⟩ := hLA
  obtain ⟨we1, rfl⟩ := hWE1; obtain ⟨we2, rfl⟩ := hWE2; obtain ⟨wh1, rfl⟩ := hWH1; obtain ⟨wh2, rfl⟩ := hWH2
  exact (kE2_up x adj la we1 we2 wh1 wh2 p q).trans
    ((congrArg (fun r : ℝ => (r : EReal)) (Cert.GcnR.Algebra.e2_eq x adj la we1 we2 wh1 wh2 p q)).trans
      (rE2_up x adj la we1 we2 p q).symm)

include hX hADJ hLA hWE1 hWE2 hWH1 hWH2 in
/-- The second branch's output. -/
theorem hh2_eq (p : Fin 4096) (q : Fin 128) :
    kHh2 X ADJ LA WE1 WE2 WH1 WH2 p q = rHh2 X ADJ LA WH1 WH2 p q := by
  obtain ⟨x, rfl⟩ := hX; obtain ⟨adj, rfl⟩ := hADJ; obtain ⟨la, rfl⟩ := hLA
  obtain ⟨we1, rfl⟩ := hWE1; obtain ⟨we2, rfl⟩ := hWE2; obtain ⟨wh1, rfl⟩ := hWH1; obtain ⟨wh2, rfl⟩ := hWH2
  exact (kHh2_up x adj la we1 we2 wh1 wh2 p q).trans
    ((congrArg (fun r : ℝ => (r : EReal)) (Cert.GcnR.Algebra.hh2_eq x adj la we1 we2 wh1 wh2 p q)).trans
      (rHh2_up x adj la wh1 wh2 p q).symm)

include hX hADJ hLA hWE1 hWE2 hWH1 hWH2 hWD in
/-- The decoder's logits. -/
theorem logits_eq (p : Fin 4096) (q : Fin 40) :
    kLogits X ADJ LA WE1 WE2 WH1 WH2 WD p q = rOut X ADJ LA WH1 WH2 WD p q := by
  obtain ⟨x, rfl⟩ := hX; obtain ⟨adj, rfl⟩ := hADJ; obtain ⟨la, rfl⟩ := hLA
  obtain ⟨we1, rfl⟩ := hWE1; obtain ⟨we2, rfl⟩ := hWE2; obtain ⟨wh1, rfl⟩ := hWH1; obtain ⟨wh2, rfl⟩ := hWH2
  obtain ⟨wd, rfl⟩ := hWD
  exact (kLogits_up x adj la we1 we2 wh1 wh2 wd p q).trans
    ((congrArg (fun r : ℝ => (r : EReal)) (Cert.GcnR.Algebra.logits_eq x adj la we1 we2 wh1 wh2 wd p q)).trans
      (rOut_up x adj la wh1 wh2 wd p q).symm)

include hX hADJ hLA hWE1 hWE2 hWH1 hWH2 hWMLP hBMLP in
/-- The node head's logits. -/
theorem logitsNode_eq (p : Fin 4096) (q : Fin 40) :
    kLogitsNode X ADJ LA WE1 WE2 WH1 WH2 WMLP BMLP p q = rLn X ADJ LA WE1 WE2 WMLP BMLP p q := by
  obtain ⟨x, rfl⟩ := hX; obtain ⟨adj, rfl⟩ := hADJ; obtain ⟨la, rfl⟩ := hLA
  obtain ⟨we1, rfl⟩ := hWE1; obtain ⟨we2, rfl⟩ := hWE2; obtain ⟨wh1, rfl⟩ := hWH1; obtain ⟨wh2, rfl⟩ := hWH2
  obtain ⟨wm, rfl⟩ := hWMLP; obtain ⟨b, rfl⟩ := hBMLP
  exact (kLogitsNode_up x adj la we1 we2 wh1 wh2 wm b p q).trans
    ((congrArg (fun r : ℝ => (r : EReal)) (Cert.GcnR.Algebra.logitsNode_eq x adj la we1 we2 wh1 wh2 wm b p q)).trans
      (rLn_up x adj la we1 we2 wm b p q).symm)

end Cert.Gcn.Bridge

end
-- ==== Proof.lean ====
/-
  The certificate of the dense-adjacency two-branch graph-convolution pipeline.

  The kernel program never forms the normalised adjacency `A = D^(-1/2) (adj + la·I) D^(-1/2)`: it makes four passes over
  the raw adjacency — the degrees with the first projection, then three aggregations — each computing a product `A · V` as
  `s p · ((Σ_j adj p j · (s j · V j q)) + la · (s p · V p q))` with `s = deg^(-1/2)` folded into the operand of the pass
  before, both branches side by side in 256 columns and the 40-column decoder and head weights padded to 128. The
  reference forms `A` and multiplies. On finite inputs every value on both sides is a real number, and over the reals
  the two arrangements are equal by the algebra of finite sums; so at the exact values the four results agree, entry by
  entry.

  The three frames: the two kernel programs' by their frame certificates, the reference's by its run. The ideal pass
  rewrote nothing, so the idealisation conjunct is trivial.
-/
import proofs.«117501_g49246095016346_cont_8to1c4_490_2_alg».proof.Defs
import proofs.«117501_g49246095016346_cont_8to1c4_490_2_alg».proof.Proof.Gen.Kernel
import proofs.«117501_g49246095016346_cont_8to1c4_490_2_alg».proof.Proof.Gen.Kernel.Skeleton
import proofs.«117501_g49246095016346_cont_8to1c4_490_2_alg».proof.Proof.Gen.Kernel.Launch
import proofs.«117501_g49246095016346_cont_8to1c4_490_2_alg».proof.Proof.Gen.Kernel.Points
import proofs.«117501_g49246095016346_cont_8to1c4_490_2_alg».proof.Proof.Gen.Kernel.Frame
import proofs.«117501_g49246095016346_cont_8to1c4_490_2_alg».proof.Proof.Gen.KernelIdeal
import proofs.«117501_g49246095016346_cont_8to1c4_490_2_alg».proof.Proof.Gen.KernelIdeal.Skeleton
import proofs.«117501_g49246095016346_cont_8to1c4_490_2_alg».proof.Proof.Gen.KernelIdeal.Launch
import proofs.«117501_g49246095016346_cont_8to1c4_490_2_alg».proof.Proof.Gen.KernelIdeal.Points
import proofs.«117501_g49246095016346_cont_8to1c4_490_2_alg».proof.Proof.Gen.KernelIdeal.Frame
import proofs.«117501_g49246095016346_cont_8to1c4_490_2_alg».proof.Proof.Gen.ReferenceIdeal
import proofs.«117501_g49246095016346_cont_8to1c4_490_2_alg».proof.Proof.Gen.Pre_finite_inputs
import proofs.«117501_g49246095016346_cont_8to1c4_490_2_alg».proof.Proof.Gen.ReferenceIdeal.Run
import proofs.«117501_g49246095016346_cont_8to1c4_490_2_alg».proof.Proof.Gen.ReferenceIdeal.Read
import proofs.«117501_g49246095016346_cont_8to1c4_490_2_alg».proof.Proof.RunMain
import proofs.«117501_g49246095016346_cont_8to1c4_490_2_alg».proof.Proof.KernelValue
import proofs.«117501_g49246095016346_cont_8to1c4_490_2_alg».proof.Proof.RefValue
import proofs.«117501_g49246095016346_cont_8to1c4_490_2_alg».proof.Proof.Finite
import proofs.«117501_g49246095016346_cont_8to1c4_490_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

/-- At the exact values the kernel program's four results — read off the run's last boundary, pass by pass — are the
    kernel-side functions of the arguments, the reference's the reference-side functions of arguments that agree, and
    on finite arguments the two are equal. -/
theorem algebraic : Cert.algebraic_KernelIdeal_ReferenceIdeal := by
  intro m ρ m' ρ' hpre hagree
  refine ⟨fun c => Cert.KernelIdeal.Gen.W6 m ρ c (Proc.devRef .tc Cert.KernelIdeal.main_v0_0),
    fun c => Cert.KernelIdeal.Gen.W6 m ρ c (Proc.devRef .tc Cert.KernelIdeal.main_v0_1),
    fun c => Cert.KernelIdeal.Gen.W6 m ρ c (Proc.devRef .tc Cert.KernelIdeal.main_v0_2),
    fun c => Cert.KernelIdeal.Gen.W6 m ρ c (Proc.devRef .tc Cert.KernelIdeal.main_v0_3),
    Cert.KernelIdeal.RunMain.run_main (F := Ideal) m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨g0, g1, g2, g3, g4, g5, g6, g7, g8, g9⟩ := hagree c
  -- the reference's arguments, by coordinates, are the kernel's
  have eX : Cert.ReferenceIdeal.RefValue.X m' c = Cert.KernelIdeal.HostPre.X m c := by
    show mat3 _ = mat3 _; rw [g0]
  have eADJ : Cert.ReferenceIdeal.RefValue.ADJ m' c = Cert.KernelIdeal.HostPre.ADJ m c := by
    show mat3 _ = mat3 _; rw [g1]
  have eLA : Cert.ReferenceIdeal.RefValue.LA m' c = Cert.KernelIdeal.HostPre.LA m c := by
    show scal _ = scal _; rw [g2]
  have eWE1 : Cert.ReferenceIdeal.RefValue.WE1 m' c = Cert.KernelIdeal.HostPre.WE1 m c := by
    show mat2 _ = mat2 _; rw [g3]
  have eWE2 : Cert.ReferenceIdeal.RefValue.WE2 m' c = Cert.KernelIdeal.HostPre.WE2 m c := by
    show mat2 _ = mat2 _; rw [g4]
  have eWH1 : Cert.ReferenceIdeal.RefValue.WH1 m' c = Cert.KernelIdeal.HostPre.WH1 m c := by
    show mat2 _ = mat2 _; rw [g5]
  have eWH2 : Cert.ReferenceIdeal.RefValue.WH2 m' c = Cert.KernelIdeal.HostPre.WH2 m c := by
    show mat2 _ = mat2 _; rw [g6]
  have eWD : Cert.ReferenceIdeal.RefValue.WD m' c = Cert.KernelIdeal.HostPre.WD m c := by
    show mat2 _ = mat2 _; rw [g7]
  have eWMLP : Cert.ReferenceIdeal.RefValue.WMLP m' c = Cert.KernelIdeal.HostPre.WMLP m c := by
    show mat2 _ = mat2 _; rw [g8]
  have eBMLP : Cert.ReferenceIdeal.RefValue.BMLP m' c = Cert.KernelIdeal.HostPre.BMLP m c := by
    show vec1 _ = vec1 _; rw [g9]
  -- the kernel's arguments are arrays of reals
  obtain ⟨r0, r1, r2, r3, r4, r5, r6, r7, r8, r9⟩ :=
    Cert.Pre_finite_inputs.Finite.real_of_finite _ _ _ _ _ _ _ _ _ _ (hpre c)
  refine ⟨h0.trans ?_, h1.trans ?_, h2.trans ?_, h3.trans ?_, hargs⟩
  · funext i
    obtain ⟨u, p, q, rfl⟩ : ∃ (u : Fin 1) (p : Fin 4096) (q : Fin 40), i = ix3 u p q := ⟨i 0, i 1, i 2, eq_ix3 i⟩
    refine (Cert.ReferenceIdeal.RefValue.logits_apply m' c u p q).trans ?_
    refine Eq.trans ?_ (Cert.KernelIdeal.KernelValue.logits_apply m ρ c u p q).symm
    rw [eX, eADJ, eLA, eWH1, eWH2, eWD]
    exact (Cert.Gcn.Bridge.logits_eq _ _ _ _ _ _ _ _ r0 r1 r2 r3 r4 r5 r6 r7 p q).symm
  · funext i
    obtain ⟨u, p, q, rfl⟩ : ∃ (u : Fin 1) (p : Fin 4096) (q : Fin 40), i = ix3 u p q := ⟨i 0, i 1, i 2, eq_ix3 i⟩
    refine (Cert.ReferenceIdeal.RefValue.logitsNode_apply m' c u p q).trans ?_
    refine Eq.trans ?_ (Cert.KernelIdeal.KernelValue.logitsNode_apply m ρ c u p q).symm
    rw [eX, eADJ, eLA, eWE1, eWE2, eWMLP, eBMLP]
    exact (Cert.Gcn.Bridge.logitsNode_eq _ _ _ _ _ _ _ _ _ r0 r1 r2 r3 r4 r5 r6 r8 r9 p q).symm
  · funext i
    obtain ⟨p, q, rfl⟩ : ∃ (p : Fin 4096) (q : Fin 128), i = ix2 p q := ⟨i 0, i 1, eq_ix2 i⟩
    refine (Cert.ReferenceIdeal.RefValue.e2_apply m' c p q).trans ?_
    refine Eq.trans ?_ (Cert.KernelIdeal.KernelValue.e2_apply m ρ c p q).symm
    rw [eX, eADJ, eLA, eWE1, eWE2]
    exact (Cert.Gcn.Bridge.e2_eq _ _ _ _ _ _ _ r0 r1 r2 r3 r4 r5 r6 p q).symm
  · funext i
    obtain ⟨p, q, rfl⟩ : ∃ (p : Fin 4096) (q : Fin 128), i = ix2 p q := ⟨i 0, i 1, eq_ix2 i⟩
    refine (Cert.ReferenceIdeal.RefValue.hh2_apply m' c p q).trans ?_
    refine Eq.trans ?_ (Cert.KernelIdeal.KernelValue.hh2_apply m ρ c p q).symm
    rw [eX, eADJ, eLA, eWH1, eWH2]
    exact (Cert.Gcn.Bridge.hh2_eq _ _ _ _ _ _ _ r0 r1 r2 r3 r4 r5 r6 p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
